-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S2x400000 : Shape := ⟨2, ![2, 400000]⟩
abbrev S384 : Shape := ⟨1, ![384]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384 : S_.BroadcastsInDim S384 (![] : Fin 0 → Fin S384.rank)
  reducesTo_S384_S_d0 : S384.ReducesTo [0] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part6 {F : FTy → Type} [FloatOps F] (main_arg2 : IVec S2x400000 32) (main_v98 : IVec S_ 1) (main_v100 : IVec S2x400000 1) (main_v101 : IVec S2x400000 32) : IVec S_ 1 :=
  let main_v102 : IVec S2x400000 1 := cmpi .slt main_arg2 main_v101
  let main_v103 : IVec S2x400000 1 := andi main_v100 main_v102
  let main_c_40 : IVec S_ 1 := constantI S_ 1 1#1
  let main_v104 : IVec S_ 1 := (fun x v => Host.reduce IntOp.andi x v reducesTo_S2x400000_S_d0_1 h_S_) main_v103 main_c_40
  let main_v105 : IVec S_ 1 := andi main_v98 main_v104
  main_v105

def fn_part5 {F : FTy → Type} [FloatOps F] (main_arg2 : IVec S2x400000 32) (main_arg19 : FVec F S128 .f32) (main_arg20 : FVec F S128x128 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg20
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_c_38 : IVec S_ 32 := constantI S_ 32 0#32
  let main_v99 : IVec S2x400000 32 := broadcastInDim S2x400000 ![] bcast_S_S2x400000 main_c_38
  let main_v100 : IVec S2x400000 1 := cmpi .sge main_arg2 main_v99
  let main_c_39 : IVec S_ 32 := constantI S_ 32 50000#32
  let main_v101 : IVec S2x400000 32 := broadcastInDim S2x400000 ![] bcast_S_S2x400000 main_c_39
  fn_part6 (F := F) main_arg2 main_v98 main_v100 main_v101

def fn_part4 {F : FTy → Type} [FloatOps F] (main_arg2 : IVec S2x400000 32) (main_arg15 : FVec F S256 .f32) (main_arg16 : FVec F S256x256 .f32) (main_arg17 : FVec F S256 .f32) (main_arg18 : FVec F S256x128 .f32) (main_arg19 : FVec F S128 .f32) (main_arg20 : FVec F S128x128 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg16
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg18
  let main_cst_32 : FVec F S_ .f32 := constant S_ .f32 0x7F800000#32
  fn_part5 (F := F) main_arg2 main_arg19 main_arg20 main_v83 main_v84 main_cst_32

def fn_part3 {F : FTy → Type} [FloatOps F] (main_arg2 : IVec S2x400000 32) (main_arg12 : FVec F S256 .f32) (main_arg13 : FVec F S256 .f32) (main_arg14 : FVec F S256x256 .f32) (main_arg15 : FVec F S256 .f32) (main_arg16 : FVec F S256x256 .f32) (main_arg17 : FVec F S256 .f32) (main_arg18 : FVec F S256x128 .f32) (main_arg19 : FVec F S128 .f32) (main_arg20 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg2 main_arg15 main_arg16 main_arg17 main_arg18 main_arg19 main_arg20 main_v63 main_v67

def fn_part2 {F : FTy → Type} [FloatOps F] (main_arg2 : IVec S2x400000 32) (main_arg8 : FVec F S256 .f32) (main_arg9 : FVec F S256x128 .f32) (main_arg10 : FVec F S128 .f32) (main_arg11 : FVec F S128x128 .f32) (main_arg12 : FVec F S256 .f32) (main_arg13 : FVec F S256 .f32) (main_arg14 : FVec F S256x256 .f32) (main_arg15 : FVec F S256 .f32) (main_arg16 : FVec F S256x256 .f32) (main_arg17 : FVec F S256 .f32) (main_arg18 : FVec F S256x128 .f32) (main_arg19 : FVec F S128 .f32) (main_arg20 : FVec F S128x128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_arg15 main_arg16 main_arg17 main_arg18 main_arg19 main_arg20 main_v48 main_v49 main_v50

def fn_part1 {F : FTy → Type} [FloatOps F] (main_arg2 : IVec S2x400000 32) (main_arg5 : FVec F S384x256 .f32) (main_arg6 : FVec F S256 .f32) (main_arg7 : FVec F S256x256 .f32) (main_arg8 : FVec F S256 .f32) (main_arg9 : FVec F S256x128 .f32) (main_arg10 : FVec F S128 .f32) (main_arg11 : FVec F S128x128 .f32) (main_arg12 : FVec F S256 .f32) (main_arg13 : FVec F S256 .f32) (main_arg14 : FVec F S256x256 .f32) (main_arg15 : FVec F S256 .f32) (main_arg16 : FVec F S256x256 .f32) (main_arg17 : FVec F S256 .f32) (main_arg18 : FVec F S256x128 .f32) (main_arg19 : FVec F S128 .f32) (main_arg20 : FVec F S128x128 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : FVec F S400000x128 .f32) (main_arg2 : IVec S2x400000 32) (main_arg3 : FVec F S384 .f32) (main_arg4 : FVec F S384 .f32) (main_arg5 : FVec F S384x256 .f32) (main_arg6 : FVec F S256 .f32) (main_arg7 : FVec F S256x256 .f32) (main_arg8 : FVec F S256 .f32) (main_arg9 : FVec F S256x128 .f32) (main_arg10 : FVec F S128 .f32) (main_arg11 : FVec F S128x128 .f32) (main_arg12 : FVec F S256 .f32) (main_arg13 : FVec F S256 .f32) (main_arg14 : FVec F S256x256 .f32) (main_arg15 : FVec F S256 .f32) (main_arg16 : FVec F S256x256 .f32) (main_arg17 : FVec F S256 .f32) (main_arg18 : FVec F S256x128 .f32) (main_arg19 : FVec F S128 .f32) (main_arg20 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384 .f32 := Host.absf main_arg4
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S400000x128 : Shape := ⟨2, ![400000, 128]⟩
abbrev S2x400000 : Shape := ⟨2, ![2, 400000]⟩
abbrev S384 : Shape := ⟨1, ![384]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S1x384 : Shape := ⟨2, ![1, 384]⟩
abbrev S1x256 : Shape := ⟨2, ![1, 256]⟩
abbrev S1x128 : Shape := ⟨2, ![1, 128]⟩
abbrev S3200x128 : Shape := ⟨2, ![3200, 128]⟩
abbrev S3200x384 : Shape := ⟨2, ![3200, 384]⟩
abbrev S3200 : Shape := ⟨1, ![3200]⟩
abbrev S3200x1 : Shape := ⟨2, ![3200, 1]⟩
abbrev S3200x256 : Shape := ⟨2, ![3200, 256]⟩
abbrev S50000 : Shape := ⟨1, ![50000]⟩
abbrev S50000x1 : Shape := ⟨2, ![50000, 1]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩

abbrev nBuf : Space → Nat
  | .hbm => 108
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S2x400000, .i32⟩
  | .hbm, ⟨3, _⟩ => ⟨S384, .f32⟩
  | .hbm, ⟨4, _⟩ => ⟨S384, .f32⟩
  | .hbm, ⟨5, _⟩ => ⟨S384x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x128, .f32⟩
  | .hbm, ⟨19, _⟩ => ⟨S128, .f32⟩
  | .hbm, ⟨20, _⟩ => ⟨S128x128, .f32⟩
  | .hbm, ⟨21, _⟩ => ⟨S1x400000, .i32⟩
  | .hbm, ⟨22, _⟩ => ⟨S400000, .i32⟩
  | .hbm, ⟨23, _⟩ => ⟨S1x400000, .i32⟩
  | .hbm, ⟨24, _⟩ => ⟨S400000, .i32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S1, .i32⟩
  | .hbm, ⟨34, _⟩ => ⟨S_, .i32⟩
  | .hbm, ⟨35, _⟩ => ⟨S400000x1, .i32⟩
  | .hbm, ⟨36, _⟩ => ⟨S400000x1, .i1⟩
  | .hbm, ⟨37, _⟩ => ⟨S1x1, .i32⟩
  | .hbm, ⟨38, _⟩ => ⟨S400000x1, .i32⟩
  | .hbm, ⟨39, _⟩ => ⟨S400000x1, .i1⟩
  | .hbm, ⟨40, _⟩ => ⟨S400000x1, .i1⟩
  | .hbm, ⟨41, _⟩ => ⟨S_, .i1⟩
  | .hbm, ⟨42, _⟩ => ⟨S400000, .i1⟩
  | .hbm, ⟨43, _⟩ => ⟨S400000x128, .f32⟩
  | .hbm, ⟨44, _⟩ => ⟨S400000x128, .i1⟩
  | .hbm, ⟨45, _⟩ => ⟨S_, .f32⟩
  | .hbm, ⟨46, _⟩ => ⟨S400000x128, .f32⟩
  | .hbm, ⟨47, _⟩ => ⟨S400000x128, .f32⟩
  | .hbm, ⟨48, _⟩ => ⟨S_, .i32⟩
  | .hbm, ⟨49, _⟩ => ⟨S400000, .i32⟩
  | .hbm, ⟨50, _⟩ => ⟨S400000, .i1⟩
  | .hbm, ⟨51, _⟩ => ⟨S_, .i32⟩
  | .hbm, ⟨52, _⟩ => ⟨S400000, .i32⟩
  | .hbm, ⟨53, _⟩ => ⟨S400000, .i32⟩
  | .hbm, ⟨54, _⟩ => ⟨S400000, .i32⟩
  | .hbm, ⟨55, _⟩ => ⟨S400000x1, .i32⟩
  | .hbm, ⟨56, _⟩ => ⟨S1, .i32⟩
  | .hbm, ⟨57, _⟩ => ⟨S_, .i32⟩
  | .hbm, ⟨58, _⟩ => ⟨S400000x1, .i32⟩
  | .hbm, ⟨59, _⟩ => ⟨S400000x1, .i1⟩
  | .hbm, ⟨60, _⟩ => ⟨S1x1, .i32⟩
  | .hbm, ⟨61, _⟩ => ⟨S400000x1, .i32⟩
  | .hbm, ⟨62, _⟩ => ⟨S400000x1, .i1⟩
  | .hbm, ⟨63, _⟩ => ⟨S400000x1, .i1⟩
  | .hbm, ⟨64, _⟩ => ⟨S_, .i1⟩
  | .hbm, ⟨65, _⟩ => ⟨S400000, .i1⟩
  | .hbm, ⟨66, _⟩ => ⟨S400000x128, .f32⟩
  | .hbm, ⟨67, _⟩ => ⟨S400000x128, .i1⟩
  | .hbm, ⟨68, _⟩ => ⟨S_, .f32⟩
  | .hbm, ⟨69, _⟩ => ⟨S400000x128, .f32⟩
  | .hbm, ⟨70, _⟩ => ⟨S400000x128, .f32⟩
  | .hbm, ⟨71, _⟩ => ⟨S384x256, .bf16⟩
  | .hbm, ⟨72, _⟩ => ⟨S256x256, .bf16⟩
  | .hbm, ⟨73, _⟩ => ⟨S256x128, .bf16⟩
  | .hbm, ⟨74, _⟩ => ⟨S128x128, .bf16⟩
  | .hbm, ⟨75, _⟩ => ⟨S1x384, .f32⟩
  | .hbm, ⟨76, _⟩ => ⟨S1x384, .f32⟩
  | .hbm, ⟨77, _⟩ => ⟨S1x256, .f32⟩
  | .hbm, ⟨78, _⟩ => ⟨S1x256, .f32⟩
  | .hbm, ⟨79, _⟩ => ⟨S1x128, .f32⟩
  | .hbm, ⟨80, _⟩ => ⟨S400000x128, .f32⟩
  | .hbm, ⟨81, _⟩ => ⟨S_, .f32⟩
  | .hbm, ⟨82, _⟩ => ⟨S400000, .f32⟩
  | .hbm, ⟨83, _⟩ => ⟨S_, .f32⟩
  | .hbm, ⟨84, _⟩ => ⟨S50000, .f32⟩
  | .hbm, ⟨85, _⟩ => ⟨S400000x1, .i32⟩
  | .hbm, ⟨86, _⟩ => ⟨S50000, .f32⟩
  | .hbm, ⟨87, _⟩ => ⟨S_, .f32⟩
  | .hbm, ⟨88, _⟩ => ⟨S50000x128, .f32⟩
  | .hbm, ⟨89, _⟩ => ⟨S400000x1, .i32⟩
  | .hbm, ⟨90, _⟩ => ⟨S50000x128, .f32⟩
  | .hbm, ⟨91, _⟩ => ⟨S_, .f32⟩
  | .hbm, ⟨92, _⟩ => ⟨S_, .f32⟩
  | .hbm, ⟨93, _⟩ => ⟨S50000, .f32⟩
  | .hbm, ⟨94, _⟩ => ⟨S50000, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S256x256, .bf16⟩
  | .hbm, ⟨99, _⟩ => ⟨S256x256, .bf16⟩
  | .hbm, ⟨100, _⟩ => ⟨S256x128, .bf16⟩
  | .hbm, ⟨101, _⟩ => ⟨S128x128, .bf16⟩
  | .hbm, ⟨102, _⟩ => ⟨S1x256, .f32⟩
  | .hbm, ⟨103, _⟩ => ⟨S1x256, .f32⟩
  | .hbm, ⟨104, _⟩ => ⟨S1x256, .f32⟩
  | .hbm, ⟨105, _⟩ => ⟨S1x256, .f32⟩
  | .hbm, ⟨106, _⟩ => ⟨S1x128, .f32⟩
  | .hbm, ⟨107, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S1x384, .f32⟩
  | .local _ .vmem, ⟨7, _⟩ => ⟨S1x384, .f32⟩
  | .local _ .vmem, ⟨8, _⟩ => ⟨S384x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S128x128, .bf16⟩
  | .local _ .vmem, ⟨15, _⟩ => ⟨S3200x128, .f32⟩
  | .local _ .vmem, ⟨16, _⟩ => ⟨S3200x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x256, .f32⟩
  | .local _ .vmem, ⟨22, _⟩ => ⟨S1x256, .f32⟩
  | .local _ .vmem, ⟨23, _⟩ => ⟨S256x256, .bf16⟩
  | .local _ .vmem, ⟨24, _⟩ => ⟨S1x256, .f32⟩
  | .local _ .vmem, ⟨25, _⟩ => ⟨S256x256, .bf16⟩
  | .local _ .vmem, ⟨26, _⟩ => ⟨S1x256, .f32⟩
  | .local _ .vmem, ⟨27, _⟩ => ⟨S256x128, .bf16⟩
  | .local _ .vmem, ⟨28, _⟩ => ⟨S1x128, .f32⟩
  | .local _ .vmem, ⟨29, _⟩ => ⟨S128x128, .bf16⟩
  | .local _ .vmem, ⟨30, _⟩ => ⟨S2000x128, .f32⟩
  | .local _ .vmem, ⟨31, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_cst : Ref sig .tc := ⟨.hbm, 81, rfl⟩
abbrev main_v16 : Ref sig .tc := ⟨.hbm, 82, rfl⟩
abbrev main_cst_0 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_cst_1 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_cst_2 : Ref sig .tc := ⟨.hbm, 91, rfl⟩
abbrev main_call2_v0 : Ref sig .tc := ⟨.hbm, 92, rfl⟩
abbrev main_call2_v1 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3200x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  bitsLt_bf16_f32 : FTy.bits .bf16 < FTy.bits .f32
  shapeCasts_S384_S1x384 : S384.ShapeCasts S1x384
  shapeCasts_S256_S1x256 : S256.ShapeCasts S1x256
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  concatenates_S3200x128_S3200x128_S3200x128_S3200x384_d1 : Shape.Concatenates [S3200x128, S3200x128, S3200x128] S3200x384 1
  inb_S1x384_S1x384_0_0 : ∀ a, (![0, 0] : Fin 2 → Nat) a + S1x384.size a ≤ S1x384.size a
  h_S1x384 : 0 < S1x384.numel
  shapeCasts_S1x384_S1x384 : S1x384.ShapeCasts S1x384
  reduces_S3200x384_S3200 : S3200x384.Reduces [1] S3200
  shapeCasts_S3200_S3200x1 : S3200.ShapeCasts S3200x1
  broadcasts_S3200x1_S3200x384 : S3200x1.Broadcasts S3200x384
  broadcasts_S1x384_S3200x384 : S1x384.Broadcasts S3200x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  reduces_S2000x256_S2000 : S2000x256.Reduces [1] S2000
  shapeCasts_S2000_S2000x1 : S2000.ShapeCasts S2000x1
  broadcasts_S2000x1_S2000x256 : S2000x1.Broadcasts S2000x256
  broadcasts_S1x256_S2000x256 : S1x256.Broadcasts S2000x256
  broadcasts_S1x128_S2000x128 : S1x128.Broadcasts S2000x128
  gather_S50000x128_S400000x1_S400000x128_1_0_n_n_0_1_1128_wf : GatherDims.WF S50000x128 S400000x1 S400000x128 [1] [0] [] [0] [] 1 ![1, 128]
  dot_S3200x384_S384x256_S3200x256_1_0_0_1_n_n_wf : DotDims.WF S3200x384 S384x256 S3200x256 [1] [0] [0] [1] [] []
  dot_S3200x256_S256x256_S3200x256_1_0_0_1_n_n_wf : DotDims.WF S3200x256 S256x256 S3200x256 [1] [0] [0] [1] [] []
  dot_S3200x256_S256x128_S3200x128_1_0_0_1_n_n_wf : DotDims.WF S3200x256 S256x128 S3200x128 [1] [0] [0] [1] [] []
  dot_S3200x128_S128x128_S3200x128_1_0_0_1_n_n_wf : DotDims.WF S3200x128 S128x128 S3200x128 [1] [0] [0] [1] [] []
  scatter_S50000_S400000x1_S400000_n_0_0_1_wf : ScatterDims.WF S50000 S400000x1 S400000 [] [0] [0] 1
  scatter_S50000x128_S400000x1_S400000x128_1_0_0_1_wf : ScatterDims.WF S50000x128 S400000x1 S400000x128 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .f32 = 32 ∨ (Rect.block (s := S400000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .f32 = 32 ∨ (Rect.block (s := S400000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S400000x128.size a
  hwx0_2 : ∀ i : grid0.Coords, EltTy.bits .f32 = 32 ∨ (Rect.block (s := S400000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x256.size a ≤ S384x256.size a
  hwx0_5 : ∀ i : grid0.Coords, EltTy.bits .bf16 = 32 ∨ (Rect.block (s := S384x256) S384x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x128.size a ≤ S400000x128.size a
  hwx0_12 : ∀ i : grid0.Coords, EltTy.bits .f32 = 32 ∨ (Rect.block (s := S400000x128) S3200x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .bf16 = 32 ∨ (Rect.block (s := S256x256) S256x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x128.size a ≤ S256x128.size a
  hwx1_8 : ∀ i : grid1.Coords, EltTy.bits .bf16 = 32 ∨ (Rect.block (s := S256x128) S256x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .bf16 = 32 ∨ (Rect.block (s := S128x128) S128x128.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S3200x384_S384x256_S3200x256_1_0_0_1_n_n : DotDims S3200x384 S384x256 S3200x256 where
  lhsContracting := [1]
  rhsContracting := [0]
  lhsNonContracting := [0]
  rhsNonContracting := [1]
  lhsBatch := []
  rhsBatch := []
  wf := dot_S3200x384_S384x256_S3200x256_1_0_0_1_n_n_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg1) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S384x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S3200x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S256x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v36) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S2x400000 : Shape := ⟨2, ![2, 400000]⟩
abbrev S384 : Shape := ⟨1, ![384]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x384 : Shape := ⟨2, ![400000, 384]⟩
abbrev S1x384 : Shape := ⟨2, ![1, 384]⟩
abbrev S400000x256 : Shape := ⟨2, ![400000, 256]⟩
abbrev S1x256 : Shape := ⟨2, ![1, 256]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 196
  | .vmem => 0
  | .smem => 0
  | _ => 0

abbrev hbmTy0_0 (i : Nat) : BufTy := match i % 128 with
  | 0 => ⟨S50000x128, .f32⟩
  | 1 => ⟨S400000x128, .f32⟩
  | 2 => ⟨S2x400000, .i32⟩
  | 3 => ⟨S384, .f32⟩
  | 4 => ⟨S384, .f32⟩
  | 5 => ⟨S384x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S128x128, .f32⟩
  | 12 => ⟨S256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x128, .f32⟩
  | 19 => ⟨S128, .f32⟩
  | 20 => ⟨S128x128, .f32⟩
  | 21 => ⟨S1x400000, .i32⟩
  | 22 => ⟨S400000, .i32⟩
  | 23 => ⟨S1x400000, .i32⟩
  | 24 => ⟨S400000, .i32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x128, .f32⟩
  | 43 => ⟨S400000x384, .f32⟩
  | 44 => ⟨S400000x128, .f32⟩
  | 45 => ⟨S_, .f32⟩
  | 46 => ⟨S400000, .f32⟩
  | 47 => ⟨S400000x1, .f32⟩
  | 48 => ⟨S_, .f32⟩
  | 49 => ⟨S400000x1, .f32⟩
  | 50 => ⟨S400000x1, .f32⟩
  | 51 => ⟨S_, .i32⟩
  | 52 => ⟨S_, .f32⟩
  | 53 => ⟨S400000, .f32⟩
  | 54 => ⟨S400000x1, .f32⟩
  | 55 => ⟨S_, .f32⟩
  | 56 => ⟨S400000x1, .f32⟩
  | 57 => ⟨S400000x1, .f32⟩
  | 58 => ⟨S400000x384, .f32⟩
  | 59 => ⟨S400000x384, .f32⟩
  | 60 => ⟨S400000x384, .f32⟩
  | 61 => ⟨S_, .f32⟩
  | 62 => ⟨S_, .f32⟩
  | 63 => ⟨S_, .f32⟩
  | 64 => ⟨S_, .f32⟩
  | 65 => ⟨S400000, .f32⟩
  | 66 => ⟨S400000x1, .f32⟩
  | 67 => ⟨S400000x1, .f32⟩
  | 68 => ⟨S400000x1, .f32⟩
  | 69 => ⟨S_, .f32⟩
  | 70 => ⟨S_, .i1⟩
  | 71 => ⟨S_, .f32⟩
  | 72 => ⟨S_, .f32⟩
  | 73 => ⟨S400000x1, .f32⟩
  | 74 => ⟨S400000x1, .f32⟩
  | 75 => ⟨S400000x384, .f32⟩
  | 76 => ⟨S400000x384, .f32⟩
  | 77 => ⟨S_, .f32⟩
  | 78 => ⟨S400000x1, .f32⟩
  | 79 => ⟨S400000x1, .f32⟩
  | 80 => ⟨S400000x1, .f32⟩
  | 81 => ⟨S400000x384, .f32⟩
  | 82 => ⟨S400000x384, .f32⟩
  | 83 => ⟨S1x384, .f32⟩
  | 84 => ⟨S400000x384, .f32⟩
  | 85 => ⟨S400000x384, .f32⟩
  | 86 => ⟨S1x384, .f32⟩
  | 87 => ⟨S400000x384, .f32⟩
  | 88 => ⟨S400000x384, .f32⟩
  | 89 => ⟨S400000x256, .f32⟩
  | 90 => ⟨S1x256, .f32⟩
  | 91 => ⟨S400000x256, .f32⟩
  | 92 => ⟨S400000x256, .f32⟩
  | 93 => ⟨S_, .f32⟩
  | 94 => ⟨S400000x256, .f32⟩
  | 95 => ⟨S400000x256, .f32⟩
  | 96 => ⟨S400000x256, .f32⟩
  | 97 => ⟨S1x256, .f32⟩
  | 98 => ⟨S400000x256, .f32⟩
  | 99 => ⟨S400000x256, .f32⟩
  | 100 => ⟨S_, .f32⟩
  | 101 => ⟨S400000x256, .f32⟩
  | 102 => ⟨S400000x256, .f32⟩
  | 103 => ⟨S400000x128, .f32⟩
  | 104 => ⟨S1x128, .f32⟩
  | 105 => ⟨S400000x128, .f32⟩
  | 106 => ⟨S400000x128, .f32⟩
  | 107 => ⟨S_, .f32⟩
  | 108 => ⟨S400000x128, .f32⟩
  | 109 => ⟨S400000x128, .f32⟩
  | 110 => ⟨S400000x128, .f32⟩
  | 111 => ⟨S_, .f32⟩
  | 112 => ⟨S400000, .f32⟩
  | 113 => ⟨S_, .f32⟩
  | 114 => ⟨S50000, .f32⟩
  | 115 => ⟨S400000x1, .i32⟩
  | 116 => ⟨S50000, .f32⟩
  | 117 => ⟨S_, .f32⟩
  | 118 => ⟨S50000x128, .f32⟩
  | 119 => ⟨S400000x1, .i32⟩
  | 120 => ⟨S50000x128, .f32⟩
  | 121 => ⟨S_, .f32⟩
  | 122 => ⟨S_, .f32⟩
  | 123 => ⟨S50000, .f32⟩
  | 124 => ⟨S50000, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S50000x256, .f32⟩
  | 1 => ⟨S50000x128, .f32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S_, .i32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x256, .f32⟩
  | 16 => ⟨S50000x256, .f32⟩
  | 17 => ⟨S50000x256, .f32⟩
  | 18 => ⟨S_, .f32⟩
  | 19 => ⟨S_, .f32⟩
  | 20 => ⟨S_, .f32⟩
  | 21 => ⟨S_, .f32⟩
  | 22 => ⟨S50000, .f32⟩
  | 23 => ⟨S50000x1, .f32⟩
  | 24 => ⟨S50000x1, .f32⟩
  | 25 => ⟨S50000x1, .f32⟩
  | 26 => ⟨S_, .f32⟩
  | 27 => ⟨S_, .i1⟩
  | 28 => ⟨S_, .f32⟩
  | 29 => ⟨S_, .f32⟩
  | 30 => ⟨S50000x1, .f32⟩
  | 31 => ⟨S50000x1, .f32⟩
  | 32 => ⟨S50000x256, .f32⟩
  | 33 => ⟨S50000x256, .f32⟩
  | 34 => ⟨S_, .f32⟩
  | 35 => ⟨S50000x1, .f32⟩
  | 36 => ⟨S50000x1, .f32⟩
  | 37 => ⟨S50000x1, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S50000x256, .f32⟩
  | 47 => ⟨S1x256, .f32⟩
  | 48 => ⟨S50000x256, .f32⟩
  | 49 => ⟨S50000x256, .f32⟩
  | 50 => ⟨S_, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_v12 : Ref sig .tc := ⟨.hbm, 68, rfl⟩
abbrev main_call0_cst_3 : Ref sig .tc := ⟨.hbm, 69, rfl⟩
abbrev main_call0_v13 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_5 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_call1_cst : Ref sig .tc := ⟨.hbm, 93, rfl⟩
abbrev main_call1_v0 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_call2_cst : Ref sig .tc := ⟨.hbm, 100, rfl⟩
abbrev main_call2_v0 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_call3_cst : Ref sig .tc := ⟨.hbm, 107, rfl⟩
abbrev main_call3_v0 : Ref sig .tc := ⟨.hbm, 108, rfl⟩
abbrev main_v52 : Ref sig .tc := ⟨.hbm, 109, rfl⟩
abbrev main_v53 : Ref sig .tc := ⟨.hbm, 110, rfl⟩
abbrev main_cst_6 : Ref sig .tc := ⟨.hbm, 111, rfl⟩
abbrev main_v54 : Ref sig .tc := ⟨.hbm, 112, rfl⟩
abbrev main_cst_7 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_8 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst_9 : Ref sig .tc := ⟨.hbm, 121, rfl⟩
abbrev main_call4_v0 : Ref sig .tc := ⟨.hbm, 122, rfl⟩
abbrev main_call4_v1 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_10 : Ref sig .tc := ⟨.hbm, 130, rfl⟩
abbrev main_v67 : Ref sig .tc := ⟨.hbm, 131, rfl⟩
abbrev main_v68 : Ref sig .tc := ⟨.hbm, 132, rfl⟩
abbrev main_cst_11 : Ref sig .tc := ⟨.hbm, 133, rfl⟩
abbrev main_v69 : Ref sig .tc := ⟨.hbm, 134, rfl⟩
abbrev main_v70 : Ref sig .tc := ⟨.hbm, 135, rfl⟩
abbrev main_c_12 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_cst_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_v7 : Ref sig .tc := ⟨.hbm, 146, rfl⟩
abbrev main_call5_cst_1 : Ref sig .tc := ⟨.hbm, 147, rfl⟩
abbrev main_call5_v8 : Ref sig .tc := ⟨.hbm, 148, rfl⟩
abbrev main_call5_cst_2 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_v12 : Ref sig .tc := ⟨.hbm, 153, rfl⟩
abbrev main_call5_cst_3 : Ref sig .tc := ⟨.hbm, 154, rfl⟩
abbrev main_call5_v13 : Ref sig .tc := ⟨.hbm, 155, rfl⟩
abbrev main_call5_cst_4 : Ref sig .tc := ⟨.hbm, 156, rfl⟩
abbrev main_call5_call0_v0 : Ref sig .tc := ⟨.hbm, 157, rfl⟩
abbrev main_call5_call0_v1 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_cst_13 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_call6_cst : Ref sig .tc := ⟨.hbm, 178, rfl⟩
abbrev main_call6_v0 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_call7_cst : Ref sig .tc := ⟨.hbm, 185, rfl⟩
abbrev main_call7_v0 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_call8_cst : Ref sig .tc := ⟨.hbm, 192, rfl⟩
abbrev main_call8_v0 : Ref sig .tc := ⟨.hbm, 193, rfl⟩
abbrev main_v99 : Ref sig .tc := ⟨.hbm, 194, rfl⟩
abbrev main_v100 : Ref sig .tc := ⟨.hbm, 195, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  reducesTo_S400000x384_S400000_d1 : S400000x384.ReducesTo [1] S400000
  h_S_ : 0 < S_.numel
  bcast_S_S400000x1 : S_.BroadcastsInDim S400000x1 (![] : Fin 0 → Fin S400000x1.rank)
  bcast_S400000x1_S400000x384_0_1 : S400000x1.BroadcastsInDim S400000x384 (![0, 1] : Fin 2 → Fin S400000x384.rank)
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  reducesTo_S50000x256_S50000_d1 : S50000x256.ReducesTo [1] S50000
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S400000x1_S400000x128_1_0_n_n_0_1_1128_wf : GatherDims.WF S50000x128 S400000x1 S400000x128 [1] [0] [] [0] [] 1 ![1, 128]
  dot_S400000x128_S128x128_S400000x128_1_0_0_1_n_n_wf : DotDims.WF S400000x128 S128x128 S400000x128 [1] [0] [0] [1] [] []
  dot_S400000x384_S384x256_S400000x256_1_0_0_1_n_n_wf : DotDims.WF S400000x384 S384x256 S400000x256 [1] [0] [0] [1] [] []
  dot_S400000x256_S256x256_S400000x256_1_0_0_1_n_n_wf : DotDims.WF S400000x256 S256x256 S400000x256 [1] [0] [0] [1] [] []
  dot_S400000x256_S256x128_S400000x128_1_0_0_1_n_n_wf : DotDims.WF S400000x256 S256x128 S400000x128 [1] [0] [0] [1] [] []
  scatter_S50000_S400000x1_S400000_n_0_0_1_wf : ScatterDims.WF S50000 S400000x1 S400000 [] [0] [0] 1
  scatter_S50000x128_S400000x1_S400000x128_1_0_0_1_wf : ScatterDims.WF S50000x128 S400000x1 S400000x128 [1] [0] [0] 1
  dot_S50000x128_S128x128_S50000x128_1_0_0_1_n_n_wf : DotDims.WF S50000x128 S128x128 S50000x128 [1] [0] [0] [1] [] []
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x384_S384x256_S400000x256_1_0_0_1_n_n : DotDims S400000x384 S384x256 S400000x256 where
  lhsContracting := [1]
  rhsContracting := [0]
  lhsNonContracting := [0]
  rhsNonContracting := [1]
  lhsBatch := []
  rhsBatch := []
  wf := dot_S400000x384_S384x256_S400000x256_1_0_0_1_n_n_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RowMath.lean ====
/-
  One row of the two updates, as plain functions on the extended reals.

  A row of width `n` is normalised (LayerNorm): its mean is its sum over `N`, its variance the sum of the
  squared deviations over `N`, and each entry becomes `(x k - mean) / sqrt (var + eps) * g k + b k`.  The
  kernel multiplies by the reciprocal square root where the reference divides by the square root; the two
  agree because `var + eps` is positive on every extended-real row (a sum of squares is never negative).
  A dense layer is a matrix product, a bias and a clamp at zero; the edge update of a row is the residual
  product plus three dense layers of the normalised concatenation of the edge row and its two node rows, the
  node update the same over the aggregated edge row and the node row.
-/
import Idealize.ShloMosaic.PureOps.Ideal.Laws

noncomputable section

namespace Cert.RowMath

open Idealize.ShloMosaic

/-- Three rows of width 128 side by side. -/
def cat3 {α : Type} (x y z : Fin 128 → α) : Fin 384 → α := fun k =>
  if h : k.val < 128 then x ⟨k.val, h⟩
  else if h2 : k.val < 256 then y ⟨k.val - 128, by omega⟩
  else z ⟨k.val - 256, by have := k.isLt; omega⟩

/-- Two rows of width 128 side by side. -/
def cat2 {α : Type} (x y : Fin 128 → α) : Fin 256 → α := fun k =>
  if h : k.val < 128 then x ⟨k.val, h⟩ else y ⟨k.val - 128, by have := k.isLt; omega⟩

/-- The mean of a row: its sum over `N`. -/
def mean {n : ℕ} (N : EReal) (x : Fin n → EReal) : EReal := Ideal.div (∑ k, x k) N

/-- The variance of a row: the sum of its squared deviations from the mean, over `N`. -/
def var {n : ℕ} (N : EReal) (x : Fin n → EReal) : EReal :=
  Ideal.div (∑ k, (x k - mean N x) * (x k - mean N x)) N

/-- Normalisation with the reciprocal square root (the kernel's spelling). -/
def lnK {n : ℕ} (N eps : EReal) (x g b : Fin n → EReal) : Fin n → EReal := fun k =>
  (x k - mean N x) * Ideal.rsqrt (var N x + eps) * g k + b k

/-- Normalisation by division by the square root (the reference's spelling). -/
def lnR {n : ℕ} (N eps : EReal) (x g b : Fin n → EReal) : Fin n → EReal := fun k =>
  Ideal.div (x k - mean N x) (Ideal.sqrt (var N x + eps)) * g k + b k

/-- A product of an extended real with itself is never negative. -/
theorem mul_self_nonneg' (a : EReal) : 0 ≤ a * a := by
  induction a using EReal.rec with
  | bot => simp
  | coe r =>
    rw [← EReal.coe_mul]
    exact EReal.coe_nonneg.2 (mul_self_nonneg r)
  | top => simp

/-- Dividing by a positive finite extended real is multiplying by a positive real. -/
theorem div_pos_finite (N : EReal) (hN : 0 < N) (hN' : N ≠ ⊤) :
    ∃ c : ℝ, 0 < c ∧ ∀ s : EReal, Ideal.div s N = s * (c : EReal) := by
  induction N using EReal.rec with
  | bot => exact absurd hN (by simp)
  | coe r =>
    have hr : 0 < r := EReal.coe_pos.1 hN
    refine ⟨1 / r, by positivity, fun s => ?_⟩
    exact Ideal.div_coe (ne_of_gt hr) s
  | top => exact absurd rfl hN'

/-- A quotient of a non-negative extended real by a positive finite one is non-negative. -/
theorem div_nonneg_of_pos_finite (s N : EReal) (hs : 0 ≤ s) (hN : 0 < N) (hN' : N ≠ ⊤) :
    0 ≤ Ideal.div s N := by
  obtain ⟨c, hc, h⟩ := div_pos_finite N hN hN'
  rw [h s]
  exact mul_nonneg hs (EReal.coe_nonneg.2 (le_of_lt hc))

/-- The variance of any extended-real row is never negative, for a positive finite `N`. -/
theorem var_nonneg {n : ℕ} (N : EReal) (hN : 0 < N) (hN' : N ≠ ⊤) (x : Fin n → EReal) : 0 ≤ var N x := by
  unfold var
  exact div_nonneg_of_pos_finite _ N (Finset.sum_nonneg fun k _ => mul_self_nonneg' _) hN hN'

/-- Multiplying by the reciprocal square root of a positive extended real is dividing by its square root. -/
theorem mul_rsqrt_eq_div_sqrt (a y : EReal) (hy : 0 < y) : a * Ideal.rsqrt y = Ideal.div a (Ideal.sqrt y) := by
  induction y using EReal.rec with
  | bot => exact absurd hy (by simp)
  | coe r =>
    have hr : 0 < r := EReal.coe_pos.1 hy
    have hs : Real.sqrt r ≠ 0 := ne_of_gt (Real.sqrt_pos.2 hr)
    rw [Ideal.rsqrt_coe, Ideal.sqrt_coe, if_neg (not_lt.2 (le_of_lt hr)), if_neg (ne_of_gt hr),
      if_neg (not_lt.2 (le_of_lt hr)), Ideal.div_coe hs, one_div]
  | top =>
    rw [Ideal.rsqrt_top, Ideal.sqrt_top, Ideal.div, if_neg EReal.top_ne_zero, EReal.inv_top]

/-- The two spellings of the normalisation are one function. -/
theorem lnK_eq_lnR {n : ℕ} (N eps : EReal) (hN : 0 < N) (hN' : N ≠ ⊤) (heps : 0 < eps) (x g b : Fin n → EReal) :
    lnK N eps x g b = lnR N eps x g b := by
  have hv : 0 < var N x + eps :=
    lt_of_lt_of_le heps (le_add_of_nonneg_left (var_nonneg N hN hN' x))
  funext k
  unfold lnK lnR
  rw [mul_rsqrt_eq_div_sqrt _ _ hv]

/-- A dense layer: product with the weights, the bias, the clamp at zero. -/
def dense {n m : ℕ} (x : Fin n → EReal) (W : Fin n → Fin m → EReal) (b : Fin m → EReal) : Fin m → EReal := fun c =>
  max ((∑ k, x k * W k c) + b c) 0

/-- The edge update of one row, over the normalisation `ln`. -/
def edgeRow (ln : (Fin 384 → EReal) → (Fin 384 → EReal) → (Fin 384 → EReal) → Fin 384 → EReal)
    (e vr vc : Fin 128 → EReal) (g b : Fin 384 → EReal)
    (W0 : Fin 384 → Fin 256 → EReal) (b0 : Fin 256 → EReal) (W1 : Fin 256 → Fin 256 → EReal) (b1 : Fin 256 → EReal)
    (W2 : Fin 256 → Fin 128 → EReal) (b2 : Fin 128 → EReal) (L : Fin 128 → Fin 128 → EReal) : Fin 128 → EReal := fun j =>
  (∑ k, e k * L k j) + dense (dense (dense (ln (cat3 e vr vc) g b) W0 b0) W1 b1) W2 b2 j

/-- The node update of one row, over the normalisation `ln`. -/
def nodeRow (ln : (Fin 256 → EReal) → (Fin 256 → EReal) → (Fin 256 → EReal) → Fin 256 → EReal)
    (a v : Fin 128 → EReal) (g b : Fin 256 → EReal)
    (W0 : Fin 256 → Fin 256 → EReal) (b0 : Fin 256 → EReal) (W1 : Fin 256 → Fin 256 → EReal) (b1 : Fin 256 → EReal)
    (W2 : Fin 256 → Fin 128 → EReal) (b2 : Fin 128 → EReal) (L : Fin 128 → Fin 128 → EReal) : Fin 128 → EReal := fun j =>
  (∑ k, v k * L k j) + dense (dense (dense (ln (cat2 a v) g b) W0 b0) W1 b1) W2 b2 j

end Cert.RowMath

end
-- ==== Proof.Consts.lean ====
/-
  The float literals of the two programs as extended reals: the row widths 384 and 256 the sums are divided
  by, and the small positive constant added to the variance.
-/
import Idealize.ShloMosaic.PureOps.Ideal.Laws

noncomputable section

namespace Cert.Consts

open Idealize.ShloMosaic

/-- The f32 literal `384.0`. -/
abbrev N384 : EReal := Ideal.ofBits .f32 0x43C00000#32
/-- The f32 literal `256.0`. -/
abbrev N256 : EReal := Ideal.ofBits .f32 0x43800000#32
/-- The f32 literal nearest `1e-5`. -/
abbrev eps : EReal := Ideal.ofBits .f32 0x3727C5AC#32

/-- The all-zero pattern denotes zero. -/
theorem ofBits_zero : Ideal.ofBits .f32 0x00000000#32 = 0 := Ideal.ofBits_zero_f32

/-- Sign 0, exponent field 135, fraction field 2^22: (2^23 + 2^22) * 2^(135 - 127 - 23) = 384. -/
theorem N384_eq : N384 = ((384 : ℝ) : EReal) := by
  simp [N384, Ideal.ofBits, Ideal.ieee, -EReal.coe_mul]; norm_num
/-- Sign 0, exponent field 135, fraction field 0: 2^23 * 2^(135 - 127 - 23) = 256. -/
theorem N256_eq : N256 = ((256 : ℝ) : EReal) := by
  simp [N256, Ideal.ofBits, Ideal.ieee, -EReal.coe_mul]; norm_num
theorem N384_pos : 0 < N384 := by
  rw [N384_eq]; exact EReal.coe_pos.2 (by norm_num)
theorem N384_ne_top : N384 ≠ ⊤ := by
  rw [N384_eq]; exact EReal.coe_ne_top _
theorem N256_pos : 0 < N256 := by
  rw [N256_eq]; exact EReal.coe_pos.2 (by norm_num)
theorem N256_ne_top : N256 ≠ ⊤ := by
  rw [N256_eq]; exact EReal.coe_ne_top _
/-- Sign 0, exponent field 110, fraction field 2606508: a normal number, a product of positive factors. -/
theorem eps_pos : 0 < eps := by
  simp [eps, Ideal.ofBits, Ideal.ieee, -EReal.coe_mul]

/-- The integer zero converts to the real zero, and subtracting it changes nothing. -/
theorem N384_sub_zero : N384 - FloatOps.sitofp (F := Ideal) .f32 (0#32 : BitVec 32) = N384 := by
  show N384 - (((0#32 : BitVec 32).toInt : ℝ) : EReal) = N384
  simp
theorem N256_sub_zero : N256 - FloatOps.sitofp (F := Ideal) .f32 (0#32 : BitVec 32) = N256 := by
  show N256 - (((0#32 : BitVec 32).toInt : ℝ) : EReal) = N256
  simp
/-- The comparison "greater than zero" holds at both widths. -/
theorem N384_gt_zero : FloatOps.cmpf (F := Ideal) .ogt N384 (Ideal.ofBits .f32 0x00000000#32) = 1#1 := by
  rw [Ideal.cmpf_def, ofBits_zero]
  simp [Ideal.cmp, N384_pos]
theorem N256_gt_zero : FloatOps.cmpf (F := Ideal) .ogt N256 (Ideal.ofBits .f32 0x00000000#32) = 1#1 := by
  rw [Ideal.cmpf_def, ofBits_zero]
  simp [Ideal.cmp, N256_pos]

end Cert.Consts

end
-- ==== Proof.LibRowOps.lean ====
/-
  Rank-2 arrays read row by row: the layout operations and the reductions of a row-wise computation, each
  read at an entry `(r, k)` in terms of row `r` of its operands, for any number of rows.

  Kernel spellings (`concatenate`, `vector.multi_reduction <add>` along axis 1, the keep-dims shape cast
  `[R] → [R,1]`, the broadcasts `[R,1] → [R,C]` and `[1,C] → [R,C]`) and host spellings (`stablehlo.reduce`
  with add along axis 1, `broadcast_in_dim` with dimensions `[0]`, `[0,1]`, `[1]`) of the same steps.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«417122_j62947040690377_3_alg».proof.Proof.RowMath

noncomputable section

namespace Cert.LibRowOps

open Idealize.ShloMosaic Idealize.ShloMosaic.ValueIdx Cert.RowMath

variable {α : Type} {R C : ℕ}

/-- Three blocks of 128 columns side by side, read at `(r, k)`. -/
theorem concat3_apply (x y z : (⟨2, ![R, 128]⟩ : Shape).Idx → α)
    (h : Shape.Concatenates (([⟨⟨2, ![R, 128]⟩, x⟩, ⟨⟨2, ![R, 128]⟩, y⟩, ⟨⟨2, ![R, 128]⟩, z⟩] : List ((s : Shape) × (s.Idx → α))).map (·.1)) ⟨2, ![R, 384]⟩ 1)
    (r : Fin R) (k : Fin 384) :
    concatenate ⟨2, ![R, 384]⟩ 1 [⟨⟨2, ![R, 128]⟩, x⟩, ⟨⟨2, ![R, 128]⟩, y⟩, ⟨⟨2, ![R, 128]⟩, z⟩] h (ix2 r k)
      = cat3 (fun a => x (ix2 r a)) (fun a => y (ix2 r a)) (fun a => z (ix2 r a)) k := by
  unfold cat3
  split
  · next h1 =>
    exact concatenate_apply_piece (1 : Fin 2) _ h (ix2 r k) 0 (by simp) ⟨2, ![R, 128]⟩ x rfl rfl 0 rfl
      (ix2 r ⟨k.val, h1⟩)
      (fun b hb => by
        match b with
        | ⟨0, _⟩ => rfl
        | ⟨1, _⟩ => exact absurd rfl hb)
      (by show 0 + k.val = k.val; omega)
  · next h1 =>
    split
    · next h2 =>
      exact concatenate_apply_piece (1 : Fin 2) _ h (ix2 r k) 1 (by simp) ⟨2, ![R, 128]⟩ y rfl rfl 128 rfl
        (ix2 r ⟨k.val - 128, by omega⟩)
        (fun b hb => by
          match b with
          | ⟨0, _⟩ => rfl
          | ⟨1, _⟩ => exact absurd rfl hb)
        (by show 128 + (k.val - 128) = k.val; omega)
    · next h2 =>
      exact concatenate_apply_piece (1 : Fin 2) _ h (ix2 r k) 2 (by simp) ⟨2, ![R, 128]⟩ z rfl rfl 256 rfl
        (ix2 r ⟨k.val - 256, by have := k.isLt; omega⟩)
        (fun b hb => by
          match b with
          | ⟨0, _⟩ => rfl
          | ⟨1, _⟩ => exact absurd rfl hb)
        (by show 256 + (k.val - 256) = k.val; omega)

/-- Two blocks of 128 columns side by side, read at `(r, k)`. -/
theorem concat2_apply (x y : (⟨2, ![R, 128]⟩ : Shape).Idx → α)
    (h : Shape.Concatenates (([⟨⟨2, ![R, 128]⟩, x⟩, ⟨⟨2, ![R, 128]⟩, y⟩] : List ((s : Shape) × (s.Idx → α))).map (·.1)) ⟨2, ![R, 256]⟩ 1)
    (r : Fin R) (k : Fin 256) :
    concatenate ⟨2, ![R, 256]⟩ 1 [⟨⟨2, ![R, 128]⟩, x⟩, ⟨⟨2, ![R, 128]⟩, y⟩] h (ix2 r k)
      = cat2 (fun a => x (ix2 r a)) (fun a => y (ix2 r a)) k := by
  unfold cat2
  split
  · next h1 =>
    exact concatenate_apply_piece (1 : Fin 2) _ h (ix2 r k) 0 (by simp) ⟨2, ![R, 128]⟩ x rfl rfl 0 rfl
      (ix2 r ⟨k.val, h1⟩)
      (fun b hb => by
        match b with
        | ⟨0, _⟩ => rfl
        | ⟨1, _⟩ => exact absurd rfl hb)
      (by show 0 + k.val = k.val; omega)
  · next h1 =>
    exact concatenate_apply_piece (1 : Fin 2) _ h (ix2 r k) 1 (by simp) ⟨2, ![R, 128]⟩ y rfl rfl 128 rfl
      (ix2 r ⟨k.val - 128, by have := k.isLt; omega⟩)
      (fun b hb => by
        match b with
        | ⟨0, _⟩ => rfl
        | ⟨1, _⟩ => exact absurd rfl hb)
      (by show 128 + (k.val - 128) = k.val; omega)

/-- A kernel's sum along axis 1 from the zero accumulator, at row `r`: the sum of the row. -/
theorem rowSum_kernel (v : FVec Ideal ⟨2, ![R, C]⟩ .f32) (h : (⟨2, ![R, C]⟩ : Shape).Reduces [1] ⟨1, ![R]⟩)
    (hφ : FKind.Formats .f32) (hacc : (0x00000000#32 : BitVec 32) = FKind.add.neutral .f32 hφ) (r : Fin R) :
    multiReduction .add [1] ⟨1, ![R]⟩ v 0x00000000#32 h hφ hacc (ix1 r) = ∑ k : Fin C, v (ix2 r k) := by
  rw [Ideal.multiReduction_add_single]
  show (∑ k : Fin C, v (h.lift (ix1 r) k)) = _
  refine Finset.sum_congr rfl fun k _ => congrArg v ?_
  funext a
  match a with
  | ⟨0, _⟩ => exact Fin.ext rfl
  | ⟨1, _⟩ => exact Fin.ext rfl

/-- The host's sum along axis 1, at row `r`: the initial value plus the sum of the row. -/
theorem rowSum_host (x : FVec Ideal ⟨2, ![R, C]⟩ .f32) (init : (⟨0, ![]⟩ : Shape).Idx → Ideal .f32)
    (h : (⟨2, ![R, C]⟩ : Shape).ReducesTo [1] ⟨1, ![R]⟩) (hu : 0 < (⟨0, ![]⟩ : Shape).numel) (r : Fin R) :
    Host.reduceAdd x init h hu (ix1 r) = init ix0 + ∑ k : Fin C, x (ix2 r k) := by
  have hR : (⟨2, ![R, C]⟩ : Shape).Reduces [1] ⟨1, ![R]⟩ := ⟨h.1, Nat.one_pos, h.2⟩
  rw [hostReduceAdd_apply, Ideal.hostReduceAdd_single h hR]
  show init (Shape.Idx.first hu) + (∑ k : Fin C, x (hR.lift (ix1 r) k)) = _
  congr 1
  · exact congrArg init (eq_ix0 _)
  · refine Finset.sum_congr rfl fun k _ => congrArg x ?_
    funext a
    match a with
    | ⟨0, _⟩ => exact Fin.ext rfl
    | ⟨1, _⟩ => exact Fin.ext rfl

/-- The keep-dims shape cast `[R] → [R,1]`. -/
theorem shapeCast_col_apply (v : (⟨1, ![R]⟩ : Shape).Idx → α) (h : (⟨1, ![R]⟩ : Shape).ShapeCasts ⟨2, ![R, 1]⟩)
    (r : Fin R) (q : Fin 1) : shapeCast ⟨2, ![R, 1]⟩ v h (ix2 r q) = v (ix1 r) :=
  shapeCast_apply v h _ _ (by
    have hq : q.val = 0 := by omega
    rw [Shape.rowMajor_val_two, Shape.rowMajor_val_one]
    show r.val = r.val * 1 + q.val
    rw [hq, Nat.mul_one, Nat.add_zero])

/-- A column broadcast along the rows, `[R,1] → [R,C]` (kernel). -/
theorem broadcastTo_col_apply (v : (⟨2, ![R, 1]⟩ : Shape).Idx → α) (h : (⟨2, ![R, 1]⟩ : Shape).Broadcasts ⟨2, ![R, C]⟩)
    (r : Fin R) (k : Fin C) : broadcastTo ⟨2, ![R, C]⟩ v h (ix2 r k) = v (ix2 r (0 : Fin 1)) := by
  refine broadcastTo_apply v h (ix2 r k) (ix2 r (0 : Fin 1)) fun ax => ?_
  match ax with
  | ⟨0, _⟩ =>
    show r.val = if R = 1 then 0 else r.val
    split
    · have := r.isLt; omega
    · rfl
  | ⟨1, _⟩ => rfl

/-- The host's `broadcast_in_dim` `[R] → [R,1]`, dimensions `[0]`. -/
theorem bcastInDim_col_apply (v : (⟨1, ![R]⟩ : Shape).Idx → α)
    (h : (⟨1, ![R]⟩ : Shape).BroadcastsInDim ⟨2, ![R, 1]⟩ (![0] : Fin 1 → Fin 2)) (r : Fin R) (q : Fin 1) :
    broadcastInDim ⟨2, ![R, 1]⟩ ![0] h v (ix2 r q) = v (ix1 r) := by
  refine broadcastInDim_apply _ h v (ix2 r q) (ix1 r) fun ax => ?_
  match ax with
  | ⟨0, _⟩ =>
    show r.val = if R = 1 then 0 else r.val
    split
    · have := r.isLt; omega
    · rfl

/-- The host's `broadcast_in_dim` `[R,1] → [R,C]`, dimensions `[0,1]`. -/
theorem bcastInDim_colRC_apply (v : (⟨2, ![R, 1]⟩ : Shape).Idx → α)
    (h : (⟨2, ![R, 1]⟩ : Shape).BroadcastsInDim ⟨2, ![R, C]⟩ (![0, 1] : Fin 2 → Fin 2)) (r : Fin R) (k : Fin C) :
    broadcastInDim ⟨2, ![R, C]⟩ ![0, 1] h v (ix2 r k) = v (ix2 r (0 : Fin 1)) := by
  refine broadcastInDim_apply _ h v (ix2 r k) (ix2 r (0 : Fin 1)) fun ax => ?_
  match ax with
  | ⟨0, _⟩ =>
    show r.val = if R = 1 then 0 else r.val
    split
    · have := r.isLt; omega
    · rfl
  | ⟨1, _⟩ => rfl

/-- The host's `broadcast_in_dim` `[C] → [1,C]`, dimensions `[1]`. -/
theorem bcastInDim_row_apply (v : (⟨1, ![C]⟩ : Shape).Idx → α)
    (h : (⟨1, ![C]⟩ : Shape).BroadcastsInDim ⟨2, ![1, C]⟩ (![1] : Fin 1 → Fin 2)) (q : Fin 1) (k : Fin C) :
    broadcastInDim ⟨2, ![1, C]⟩ ![1] h v (ix2 q k) = v (ix1 k) := by
  refine broadcastInDim_apply _ h v (ix2 q k) (ix1 k) fun ax => ?_
  match ax with
  | ⟨0, _⟩ =>
    show k.val = if C = 1 then 0 else k.val
    split
    · have := k.isLt; omega
    · rfl

/-- The host's `broadcast_in_dim` `[1,C] → [R,C]`, dimensions `[0,1]`. -/
theorem bcastInDim_rowRC_apply (v : (⟨2, ![1, C]⟩ : Shape).Idx → α)
    (h : (⟨2, ![1, C]⟩ : Shape).BroadcastsInDim ⟨2, ![R, C]⟩ (![0, 1] : Fin 2 → Fin 2)) (r : Fin R) (k : Fin C) :
    broadcastInDim ⟨2, ![R, C]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if C = 1 then 0 else k.val
    split
    · have := k.isLt; omega
    · rfl

end Cert.LibRowOps

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.RefSegEdge.lean ====
/-
  The edge update of the reference, as a list of host operations and as a function of a row.

  The operations are the reference's own, from the concatenation of an edge row with its two gathered node
  rows to the sum of the residual product and the third dense layer, the outlined functions (the variance
  with its guarded division, the three clamps at zero) written out at their calls. Read at row `r` and
  column `j` from any contents of the buffers the stretch reads, the last buffer holds the row update of
  `RowMath.edgeRow` over the normalisation that divides by the square root.
-/
import proofs.«417122_j62947040690377_3_alg».proof.ReferenceIdeal
import proofs.«417122_j62947040690377_3_alg».proof.Proof.Gen.ReferenceIdeal
import Idealize.ShloMosaic.Lib.StableHlo.Run
import proofs.«417122_j62947040690377_3_alg».proof.Proof.RowMath
import proofs.«417122_j62947040690377_3_alg».proof.Proof.Consts
import proofs.«417122_j62947040690377_3_alg».proof.Proof.LibRowOps
import proofs.«417122_j62947040690377_3_alg».proof.Proof.LibMatProd
import Idealize.ShloMosaic.Lib.IdealHost
import Idealize.ShloMosaic.Lib.ValueIdx

noncomputable section

namespace Cert.ReferenceIdeal.SegEdge

open Cert.ReferenceIdeal Cert.ReferenceIdeal.Gen Idealize.ShloMosaic Idealize.ShloMosaic.TcCoe Idealize.SL.Sem Idealize.ShloMosaic.StableHlo

section Ops

variable {F : FTy → Type} [FloatOps F]

/-- The reference's operations from the concatenation to the updated edge rows, in order: the residual
    product, the mean, the variance (its function's twenty-three operations, the guarded division's three
    inside), the normalisation, three dense layers each followed by its clamp's three operations, the sum. -/
abbrev seg2 : List (HloOp τ sig (Elt F)) :=
  [ StableHlo.nary ![main_arg1, main_v10, main_v17] main_v18 (fun u => concatenate S400000x384 1 [⟨S400000x128, u 0⟩, ⟨S400000x128, u 1⟩, ⟨S400000x128, u 2⟩] concatenates_S400000x128_S400000x128_S400000x128_S400000x384_d1),
    StableHlo.binary main_arg1 main_arg11 main_v19 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    StableHlo.nullary main_cst (constant S_ .f32 0x00000000#32),
    StableHlo.binary main_v18 main_cst main_v20 ((fun x v => Host.reduceAdd x v reducesTo_S400000x384_S400000_d1 h_S_) : (⟨S400000x384, .f32⟩ : BufTy).Contents (Elt F) → (⟨S_, .f32⟩ : BufTy).Contents (Elt F) → (⟨S400000, .f32⟩ : BufTy).Contents (Elt F)),
    StableHlo.unary main_v20 main_v21 (broadcastInDim S400000x1 ![0] bcast_S400000_S400000x1_0 : (⟨S400000, .f32⟩ : BufTy).Contents (Elt F) → (⟨S400000x1, .f32⟩ : BufTy).Contents (Elt F)),
    StableHlo.nullary main_cst_3 (constant S_ .f32 0x43C00000#32),
    StableHlo.unary main_cst_3 main_v22 (broadcastInDim S400000x1 ![] bcast_S_S400000x1 : (⟨S_, .f32⟩ : BufTy).Contents (Elt F) → (⟨S400000x1, .f32⟩ : BufTy).Contents (Elt F)),
    StableHlo.binary main_v21 main_v22 main_v23 (Host.divf : (⟨S400000x1, .f32⟩ : BufTy).Contents (Elt F) → (⟨S400000x1, .f32⟩ : BufTy).Contents (Elt F) → (⟨S400000x1, .f32⟩ : BufTy).Contents (Elt F)),
    StableHlo.nullary main_c_4 (constantI S_ 32 0#32),
    StableHlo.TRef.nullary main_call0.cst (constant S_ .f32 0x00000000#32),
    StableHlo.TRef.binary (.of main_v18) main_call0.cst main_call0.v0 (fun x v => Host.reduceAdd x v reducesTo_S400000x384_S400000_d1 h_S_),
    StableHlo.TRef.unary main_call0.v0 main_call0.v1 (broadcastInDim S400000x1 ![0] bcast_S400000_S400000x1_0),
    StableHlo.TRef.nullary main_call0.cst_0 (constant S_ .f32 0x43C00000#32),
    StableHlo.TRef.unary main_call0.cst_0 main_call0.v2 (broadcastInDim S400000x1 ![] bcast_S_S400000x1),
    StableHlo.TRef.binary main_call0.v1 main_call0.v2 main_call0.v3 Host.divf,
    StableHlo.TRef.unary main_call0.v3 main_call0.v4 (broadcastInDim S400000x384 ![0, 1] bcast_S400000x1_S400000x384_0_1),
    StableHlo.TRef.binary (.of main_v18) main_call0.v4 main_call0.v5 subf,
    StableHlo.TRef.binary main_call0.v5 main_call0.v5 main_call0.v6 mulf,
    StableHlo.TRef.unary (.of main_c_4) main_call0.v7 (sitofp .f32),
    StableHlo.TRef.nullary main_call0.cst_1 (constant S_ .f32 0x43C00000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S400000x384_S400000_d1 h_S_),
    StableHlo.TRef.unary main_call0.v9 main_call0.v10 (broadcastInDim S400000x1 ![0] bcast_S400000_S400000x1_0),
    StableHlo.TRef.unary main_call0.v8 main_call0.v11 (broadcastInDim S400000x1 ![] bcast_S_S400000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S400000x1 ![] bcast_S_S400000x1),
    StableHlo.TRef.ternary main_call0.v13 main_call0.v12 main_call0.call0.v1 main_call0.call0.v2 (fun p a b => select (broadcastInDim S400000x1 ![] bcast_S_S400000x1 p) a b),
    StableHlo.unary main_v23 main_v25 (broadcastInDim S400000x384 ![0, 1] bcast_S400000x1_S400000x384_0_1 : (⟨S400000x1, .f32⟩ : BufTy).Contents (Elt F) → (⟨S400000x384, .f32⟩ : BufTy).Contents (Elt F)),
    StableHlo.binary main_v18 main_v25 main_v26 (subf : (⟨S400000x384, .f32⟩ : BufTy).Contents (Elt F) → (⟨S400000x384, .f32⟩ : BufTy).Contents (Elt F) → (⟨S400000x384, .f32⟩ : BufTy).Contents (Elt F)),
    StableHlo.nullary main_cst_5 (constant S_ .f32 0x3727C5AC#32),
    StableHlo.unary main_cst_5 main_v27 (broadcastInDim S400000x1 ![] bcast_S_S400000x1 : (⟨S_, .f32⟩ : BufTy).Contents (Elt F) → (⟨S400000x1, .f32⟩ : BufTy).Contents (Elt F)),
    StableHlo.binary main_v24 main_v27 main_v28 (addf : (⟨S400000x1, .f32⟩ : BufTy).Contents (Elt F) → (⟨S400000x1, .f32⟩ : BufTy).Contents (Elt F) → (⟨S400000x1, .f32⟩ : BufTy).Contents (Elt F)),
    StableHlo.unary main_v28 main_v29 (Host.sqrt : (⟨S400000x1, .f32⟩ : BufTy).Contents (Elt F) → (⟨S400000x1, .f32⟩ : BufTy).Contents (Elt F)),
    StableHlo.unary main_v29 main_v30 (broadcastInDim S400000x384 ![0, 1] bcast_S400000x1_S400000x384_0_1 : (⟨S400000x1, .f32⟩ : BufTy).Contents (Elt F) → (⟨S400000x384, .f32⟩ : BufTy).Contents (Elt F)),
    StableHlo.binary main_v26 main_v30 main_v31 (Host.divf : (⟨S400000x384, .f32⟩ : BufTy).Contents (Elt F) → (⟨S400000x384, .f32⟩ : BufTy).Contents (Elt F) → (⟨S400000x384, .f32⟩ : BufTy).Contents (Elt F)),
    StableHlo.unary main_arg3 main_v32 (broadcastInDim S1x384 ![1] bcast_S384_S1x384_1 : (⟨S384, .f32⟩ : BufTy).Contents (Elt F) → (⟨S1x384, .f32⟩ : BufTy).Contents (Elt F)),
    StableHlo.unary main_v32 main_v33 (broadcastInDim S400000x384 ![0, 1] bcast_S1x384_S400000x384_0_1 : (⟨S1x384, .f32⟩ : BufTy).Contents (Elt F) → (⟨S400000x384, .f32⟩ : BufTy).Contents (Elt F)),
    StableHlo.binary main_v31 main_v33 main_v34 (mulf : (⟨S400000x384, .f32⟩ : BufTy).Contents (Elt F) → (⟨S400000x384, .f32⟩ : BufTy).Contents (Elt F) → (⟨S400000x384, .f32⟩ : BufTy).Contents (Elt F)),
    StableHlo.unary main_arg4 main_v35 (broadcastInDim S1x384 ![1] bcast_S384_S1x384_1 : (⟨S384, .f32⟩ : BufTy).Contents (Elt F) → (⟨S1x384, .f32⟩ : BufTy).Contents (Elt F)),
    StableHlo.unary main_v35 main_v36 (broadcastInDim S400000x384 ![0, 1] bcast_S1x384_S400000x384_0_1 : (⟨S1x384, .f32⟩ : BufTy).Contents (Elt F) → (⟨S400000x384, .f32⟩ : BufTy).Contents (Elt F)),
    StableHlo.binary main_v34 main_v36 main_v37 (addf : (⟨S400000x384, .f32⟩ : BufTy).Contents (Elt F) → (⟨S400000x384, .f32⟩ : BufTy).Contents (Elt F) → (⟨S400000x384, .f32⟩ : BufTy).Contents (Elt F)),
    StableHlo.binary main_v37 main_arg5 main_v38 ((fun l r => Host.dotGeneral dot_S400000x384_S384x256_S400000x256_1_0_0_1_n_n none l r) : (⟨S400000x384, .f32⟩ : BufTy).Contents (Elt F) → (⟨S384x256, .f32⟩ : BufTy).Contents (Elt F) → (⟨S400000x256, .f32⟩ : BufTy).Contents (Elt F)),
    StableHlo.unary main_arg6 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S400000x256 ![0, 1] bcast_S1x256_S400000x256_0_1 : (⟨S1x256, .f32⟩ : BufTy).Contents (Elt F) → (⟨S400000x256, .f32⟩ : BufTy).Contents (Elt F)),
    StableHlo.binary main_v38 main_v40 main_v41 (addf : (⟨S400000x256, .f32⟩ : BufTy).Contents (Elt F) → (⟨S400000x256, .f32⟩ : BufTy).Contents (Elt F) → (⟨S400000x256, .f32⟩ : BufTy).Contents (Elt F)),
    StableHlo.TRef.nullary main_call1.cst (constant S_ .f32 0x00000000#32),
    StableHlo.TRef.unary main_call1.cst main_call1.v0 (broadcastInDim S400000x256 ![] bcast_S_S400000x256),
    StableHlo.TRef.binary (.of main_v41) main_call1.v0 main_call1.v1 maximumf,
    StableHlo.binary main_v42 main_arg7 main_v43 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    StableHlo.unary main_arg8 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S400000x256 ![0, 1] bcast_S1x256_S400000x256_0_1 : (⟨S1x256, .f32⟩ : BufTy).Contents (Elt F) → (⟨S400000x256, .f32⟩ : BufTy).Contents (Elt F)),
    StableHlo.binary main_v43 main_v45 main_v46 (addf : (⟨S400000x256, .f32⟩ : BufTy).Contents (Elt F) → (⟨S400000x256, .f32⟩ : BufTy).Contents (Elt F) → (⟨S400000x256, .f32⟩ : BufTy).Contents (Elt F)),
    StableHlo.TRef.nullary main_call2.cst (constant S_ .f32 0x00000000#32),
    StableHlo.TRef.unary main_call2.cst main_call2.v0 (broadcastInDim S400000x256 ![] bcast_S_S400000x256),
    StableHlo.TRef.binary (.of main_v46) main_call2.v0 main_call2.v1 maximumf,
    StableHlo.binary main_v47 main_arg9 main_v48 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)),
    StableHlo.unary main_arg10 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S400000x128 ![0, 1] bcast_S1x128_S400000x128_0_1 : (⟨S1x128, .f32⟩ : BufTy).Contents (Elt F) → (⟨S400000x128, .f32⟩ : BufTy).Contents (Elt F)),
    StableHlo.binary main_v48 main_v50 main_v51 (addf : (⟨S400000x128, .f32⟩ : BufTy).Contents (Elt F) → (⟨S400000x128, .f32⟩ : BufTy).Contents (Elt F) → (⟨S400000x128, .f32⟩ : BufTy).Contents (Elt F)),
    StableHlo.TRef.nullary main_call3.cst (constant S_ .f32 0x00000000#32),
    StableHlo.TRef.unary main_call3.cst main_call3.v0 (broadcastInDim S400000x128 ![] bcast_S_S400000x128),
    StableHlo.TRef.binary (.of main_v51) main_call3.v0 main_call3.v1 maximumf,
    StableHlo.binary main_v19 main_v52 main_v53 (addf : (⟨S400000x128, .f32⟩ : BufTy).Contents (Elt F) → (⟨S400000x128, .f32⟩ : BufTy).Contents (Elt F) → (⟨S400000x128, .f32⟩ : BufTy).Contents (Elt F)) ]

theorem seg2_sub : (seg2 : List (HloOp τ sig (Elt F))).Forall fun op => op.bufs ⊆ tcRefs τ sig :=
  ⟨nary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

end Ops

section Stages

open Idealize.ShloMosaic.ValueIdx

/-- The column of row means: the row sums over the width. -/
def meanCol (x : FVec Ideal S400000x384 .f32) : FVec Ideal S400000x1 .f32 :=
  Host.divf
    (broadcastInDim S400000x1 ![0] bcast_S400000_S400000x1_0
      (Host.reduceAdd x (constant S_ .f32 0x00000000#32) reducesTo_S400000x384_S400000_d1 h_S_))
    (broadcastInDim S400000x1 ![] bcast_S_S400000x1 (constant S_ .f32 0x43C00000#32))

/-- The width less the correction (the integer zero, converted). -/
def widthLess : FVec Ideal S_ .f32 :=
  subf (constant S_ .f32 0x43C00000#32) (sitofp .f32 (constantI S_ 32 0#32))

/-- The column of row variances: the sums of squared deviations over the corrected width, guarded by the
    comparison of that width with zero. -/
def varCol (x : FVec Ideal S400000x384 .f32) : FVec Ideal S400000x1 .f32 :=
  select (broadcastInDim S400000x1 ![] bcast_S_S400000x1 (cmpf .ogt widthLess (constant S_ .f32 0x00000000#32)))
    (Host.divf
      (broadcastInDim S400000x1 ![0] bcast_S400000_S400000x1_0
        (Host.reduceAdd
          (mulf (subf x (broadcastInDim S400000x384 ![0, 1] bcast_S400000x1_S400000x384_0_1 (meanCol x)))
            (subf x (broadcastInDim S400000x384 ![0, 1] bcast_S400000x1_S400000x384_0_1 (meanCol x))))
          (constant S_ .f32 0x00000000#32) reducesTo_S400000x384_S400000_d1 h_S_))
      (broadcastInDim S400000x1 ![] bcast_S_S400000x1 widthLess))
    (broadcastInDim S400000x1 ![] bcast_S_S400000x1 (id (constant S_ .f32 0x7FC00000#32)))

/-- The normalised rows, scaled and shifted. -/
def normed (x : FVec Ideal S400000x384 .f32) (g b : FVec Ideal S384 .f32) : FVec Ideal S400000x384 .f32 :=
  addf
    (mulf
      (Host.divf (subf x (broadcastInDim S400000x384 ![0, 1] bcast_S400000x1_S400000x384_0_1 (meanCol x)))
        (broadcastInDim S400000x384 ![0, 1] bcast_S400000x1_S400000x384_0_1
          (Host.sqrt (addf (varCol x) (broadcastInDim S400000x1 ![] bcast_S_S400000x1 (constant S_ .f32 0x3727C5AC#32))))))
      (broadcastInDim S400000x384 ![0, 1] bcast_S1x384_S400000x384_0_1 (broadcastInDim S1x384 ![1] bcast_S384_S1x384_1 g)))
    (broadcastInDim S400000x384 ![0, 1] bcast_S1x384_S400000x384_0_1 (broadcastInDim S1x384 ![1] bcast_S384_S1x384_1 b))

/-- The first dense layer on all rows. -/
def layer0 (x : FVec Ideal S400000x384 .f32) (W : FVec Ideal S384x256 .f32) (b : FVec Ideal S256 .f32) : FVec Ideal S400000x256 .f32 :=
  maximumf
    (addf (Host.dotGeneral dot_S400000x384_S384x256_S400000x256_1_0_0_1_n_n none x W)
      (broadcastInDim S400000x256 ![0, 1] bcast_S1x256_S400000x256_0_1 (broadcastInDim S1x256 ![1] bcast_S256_S1x256_1 b)))
    (broadcastInDim S400000x256 ![] bcast_S_S400000x256 (constant S_ .f32 0x00000000#32))

/-- The second dense layer on all rows. -/
def layer1 (x : FVec Ideal S400000x256 .f32) (W : FVec Ideal S256x256 .f32) (b : FVec Ideal S256 .f32) : FVec Ideal S400000x256 .f32 :=
  maximumf
    (addf (Host.dotGeneral dot_S400000x256_S256x256_S400000x256_1_0_0_1_n_n none x W)
      (broadcastInDim S400000x256 ![0, 1] bcast_S1x256_S400000x256_0_1 (broadcastInDim S1x256 ![1] bcast_S256_S1x256_1 b)))
    (broadcastInDim S400000x256 ![] bcast_S_S400000x256 (constant S_ .f32 0x00000000#32))

/-- The third dense layer on all rows. -/
def layer2 (x : FVec Ideal S400000x256 .f32) (W : FVec Ideal S256x128 .f32) (b : FVec Ideal S128 .f32) : FVec Ideal S400000x128 .f32 :=
  maximumf
    (addf (Host.dotGeneral dot_S400000x256_S256x128_S400000x128_1_0_0_1_n_n none x W)
      (broadcastInDim S400000x128 ![0, 1] bcast_S1x128_S400000x128_0_1 (broadcastInDim S1x128 ![1] bcast_S128_S1x128_1 b)))
    (broadcastInDim S400000x128 ![] bcast_S_S400000x128 (constant S_ .f32 0x00000000#32))

/-- The three blocks of columns side by side. -/
def catRows (e vr vc : FVec Ideal S400000x128 .f32) : FVec Ideal S400000x384 .f32 :=
  concatenate S400000x384 1 [⟨S400000x128, e⟩, ⟨S400000x128, vr⟩, ⟨S400000x128, vc⟩]
    concatenates_S400000x128_S400000x128_S400000x128_S400000x384_d1

/-- The updated edge rows as one function of the arrays the stretch reads. -/
def enew (e vr vc : FVec Ideal S400000x128 .f32) (g b : FVec Ideal S384 .f32)
    (W0 : FVec Ideal S384x256 .f32) (b0 : FVec Ideal S256 .f32) (W1 : FVec Ideal S256x256 .f32) (b1 : FVec Ideal S256 .f32)
    (W2 : FVec Ideal S256x128 .f32) (b2 : FVec Ideal S128 .f32) (L : FVec Ideal S128x128 .f32) : FVec Ideal S400000x128 .f32 :=
  addf (Host.dotGeneral dot_S400000x128_S128x128_S400000x128_1_0_0_1_n_n none e L)
    (layer2 (layer1 (layer0 (normed (catRows e vr vc) g b) W0 b0) W1 b1) W2 b2)

set_option maxRecDepth 8192 in
set_option maxHeartbeats 4000000 in
/-- The fold of the operations at the last buffer is that function of the buffers read: each operation's
    result at its own buffer is its function of its operands' contents, and every other buffer is kept. -/
theorem after_enew (X : Valuation τ sig (Elt Ideal)) :
    after (seg2 (F := Ideal)) X (main_v53 : DevRef τ sig)
      = enew (X (main_arg1 : DevRef τ sig)) (X (main_v10 : DevRef τ sig)) (X (main_v17 : DevRef τ sig))
          (X (main_arg3 : DevRef τ sig)) (X (main_arg4 : DevRef τ sig)) (X (main_arg5 : DevRef τ sig)) (X (main_arg6 : DevRef τ sig))
          (X (main_arg7 : DevRef τ sig)) (X (main_arg8 : DevRef τ sig)) (X (main_arg9 : DevRef τ sig)) (X (main_arg10 : DevRef τ sig))
          (X (main_arg11 : DevRef τ sig)) := by
  after_results_simp
  rfl

end Stages

section StageLemmas

open Idealize.ShloMosaic.ValueIdx Cert.RowMath Cert.Consts Cert.LibRowOps Cert.LibMatProd

/-- The host's square root at an index. -/
theorem hostSqrt_apply {s : Shape} {φ : FTy} (a : FVec Ideal s φ) (i : s.Idx) : Host.sqrt a i = Ideal.sqrt (a i) := rfl

/-- The mean column at row `r` is the mean of the row. -/
theorem meanCol_apply (x : FVec Ideal S400000x384 .f32) (r : Fin 400000) (q : Fin 1) :
    meanCol x (ix2 r q) = mean N384 (fun k => x (ix2 r k)) := by
  unfold meanCol
  rw [hostDivf_apply, bcastInDim_col_apply, rowSum_host, broadcastInDim_scalar_apply, constant_apply, constant_apply,
    ofBits_zero, zero_add]
  rfl

/-- The corrected width is the width. -/
theorem widthLess_apply : widthLess ix0 = N384 := by
  unfold widthLess
  rw [subf_apply, constant_apply, sitofp_apply]
  exact N384_sub_zero

/-- The variance column at row `r` is the variance of the row: the guard holds. -/
theorem varCol_apply (x : FVec Ideal S400000x384 .f32) (r : Fin 400000) (q : Fin 1) :
    varCol x (ix2 r q) = var N384 (fun k => x (ix2 r k)) := by
  unfold varCol
  rw [select_apply, broadcastInDim_scalar_apply, cmpf_apply, widthLess_apply, constant_apply, N384_gt_zero, select_one,
    hostDivf_apply, bcastInDim_col_apply, rowSum_host, broadcastInDim_scalar_apply, widthLess_apply, constant_apply,
    ofBits_zero, zero_add]
  unfold var
  refine congrArg (fun s => Ideal.div s N384) (Finset.sum_congr rfl fun k _ => ?_)
  rw [mulf_apply, subf_apply, bcastInDim_colRC_apply, meanCol_apply]

/-- The normalised rows at `(r, k)`: the normalisation of row `r` that divides by the square root. -/
theorem normed_apply (x : FVec Ideal S400000x384 .f32) (g b : FVec Ideal S384 .f32) (r : Fin 400000) (k : Fin 384) :
    normed x g b (ix2 r k) = lnR N384 eps (fun a => x (ix2 r a)) (fun a => g (ix1 a)) (fun a => b (ix1 a)) k := by
  unfold normed
  rw [addf_apply, mulf_apply, hostDivf_apply, subf_apply, bcastInDim_colRC_apply, meanCol_apply, bcastInDim_colRC_apply,
    hostSqrt_apply, addf_apply, varCol_apply, broadcastInDim_scalar_apply, constant_apply, bcastInDim_rowRC_apply,
    bcastInDim_row_apply, bcastInDim_rowRC_apply, bcastInDim_row_apply]
  rfl

/-- The first dense layer at `(r, c)`. -/
theorem layer0_apply (x : FVec Ideal S400000x384 .f32) (W : FVec Ideal S384x256 .f32) (b : FVec Ideal S256 .f32)
    (r : Fin 400000) (c : Fin 256) :
    layer0 x W b (ix2 r c) = dense (fun k => x (ix2 r k)) (fun k c => W (ix2 k c)) (fun c => b (ix1 c)) c := by
  unfold layer0
  rw [maximumf_apply, addf_apply, dotGeneral_apply dot_S400000x384_S384x256_S400000x256_1_0_0_1_n_n rfl none,
    bcastInDim_rowRC_apply, bcastInDim_row_apply, broadcastInDim_scalar_apply, constant_apply, ofBits_zero]
  rfl

/-- The second dense layer at `(r, c)`. -/
theorem layer1_apply (x : FVec Ideal S400000x256 .f32) (W : FVec Ideal S256x256 .f32) (b : FVec Ideal S256 .f32)
    (r : Fin 400000) (c : Fin 256) :
    layer1 x W b (ix2 r c) = dense (fun k => x (ix2 r k)) (fun k c => W (ix2 k c)) (fun c => b (ix1 c)) c := by
  unfold layer1
  rw [maximumf_apply, addf_apply, dotGeneral_apply dot_S400000x256_S256x256_S400000x256_1_0_0_1_n_n rfl none,
    bcastInDim_rowRC_apply, bcastInDim_row_apply, broadcastInDim_scalar_apply, constant_apply, ofBits_zero]
  rfl

/-- The third dense layer at `(r, c)`. -/
theorem layer2_apply (x : FVec Ideal S400000x256 .f32) (W : FVec Ideal S256x128 .f32) (b : FVec Ideal S128 .f32)
    (r : Fin 400000) (c : Fin 128) :
    layer2 x W b (ix2 r c) = dense (fun k => x (ix2 r k)) (fun k c => W (ix2 k c)) (fun c => b (ix1 c)) c := by
  unfold layer2
  rw [maximumf_apply, addf_apply, dotGeneral_apply dot_S400000x256_S256x128_S400000x128_1_0_0_1_n_n rfl none,
    bcastInDim_rowRC_apply, bcastInDim_row_apply, broadcastInDim_scalar_apply, constant_apply, ofBits_zero]
  rfl

/-- The concatenation at `(r, k)`. -/
theorem catRows_apply (e vr vc : FVec Ideal S400000x128 .f32) (r : Fin 400000) (k : Fin 384) :
    catRows e vr vc (ix2 r k) = cat3 (fun a => e (ix2 r a)) (fun a => vr (ix2 r a)) (fun a => vc (ix2 r a)) k :=
  concat3_apply e vr vc _ r k

/-- The updated edge rows at `(r, j)`: the edge update of row `r`. -/
theorem enew_row (e vr vc : FVec Ideal S400000x128 .f32) (g b : FVec Ideal S384 .f32)
    (W0 : FVec Ideal S384x256 .f32) (b0 : FVec Ideal S256 .f32) (W1 : FVec Ideal S256x256 .f32) (b1 : FVec Ideal S256 .f32)
    (W2 : FVec Ideal S256x128 .f32) (b2 : FVec Ideal S128 .f32) (L : FVec Ideal S128x128 .f32) (r : Fin 400000) (j : Fin 128) :
    enew e vr vc g b W0 b0 W1 b1 W2 b2 L (ix2 r j)
      = edgeRow (lnR N384 eps) (fun a => e (ix2 r a)) (fun a => vr (ix2 r a)) (fun a => vc (ix2 r a))
          (fun k => g (ix1 k)) (fun k => b (ix1 k)) (fun k c => W0 (ix2 k c)) (fun c => b0 (ix1 c))
          (fun k c => W1 (ix2 k c)) (fun c => b1 (ix1 c)) (fun k c => W2 (ix2 k c)) (fun c => b2 (ix1 c))
          (fun k c => L (ix2 k c)) j := by
  unfold enew
  rw [addf_apply, dotGeneral_apply dot_S400000x128_S128x128_S400000x128_1_0_0_1_n_n rfl none, layer2_apply]
  simp only [layer1_apply, layer0_apply, normed_apply, catRows_apply]
  rfl

end StageLemmas

open Idealize.ShloMosaic.ValueIdx in
/-- From any contents of the buffers the stretch reads, the last buffer at `(r, j)` is the edge update of row
    `r`: the edge row, its two gathered node rows, the scale and shift, the three layers' weights and biases,
    the residual matrix, each read at its own buffer. -/
theorem enew_apply (X : Valuation τ sig (Elt Ideal)) (r : Fin 400000) (j : Fin 128) :
    (after (seg2 (F := Ideal)) X (main_v53 : DevRef τ sig) : S400000x128.Idx → EReal) (ix2 r j)
      = Cert.RowMath.edgeRow (Cert.RowMath.lnR Cert.Consts.N384 Cert.Consts.eps)
          (fun a => (X (main_arg1 : DevRef τ sig) : S400000x128.Idx → EReal) (ix2 r a))
          (fun a => (X (main_v10 : DevRef τ sig) : S400000x128.Idx → EReal) (ix2 r a))
          (fun a => (X (main_v17 : DevRef τ sig) : S400000x128.Idx → EReal) (ix2 r a))
          (fun k => (X (main_arg3 : DevRef τ sig) : S384.Idx → EReal) (ix1 k))
          (fun k => (X (main_arg4 : DevRef τ sig) : S384.Idx → EReal) (ix1 k))
          (fun k c => (X (main_arg5 : DevRef τ sig) : S384x256.Idx → EReal) (ix2 k c))
          (fun c => (X (main_arg6 : DevRef τ sig) : S256.Idx → EReal) (ix1 c))
          (fun k c => (X (main_arg7 : DevRef τ sig) : S256x256.Idx → EReal) (ix2 k c))
          (fun c => (X (main_arg8 : DevRef τ sig) : S256.Idx → EReal) (ix1 c))
          (fun k c => (X (main_arg9 : DevRef τ sig) : S256x128.Idx → EReal) (ix2 k c))
          (fun c => (X (main_arg10 : DevRef τ sig) : S128.Idx → EReal) (ix1 c))
          (fun k c => (X (main_arg11 : DevRef τ sig) : S128x128.Idx → EReal) (ix2 k c)) j := by
  rw [after_enew X]
  exact enew_row _ _ _ _ _ _ _ _ _ _ _ _ r j

end Cert.ReferenceIdeal.SegEdge

end
-- ==== Proof.RefSegNode.lean ====
/-
  The node update of the reference program as a list of host operations, and its value row by row.

  The list is the reference's operations from the concatenation of the aggregated edge rows with the node
  rows to the final sum, in the program's order, the outlined functions (the variance with its select, the
  three clamps at zero) written out at their calls over the calls' own buffers.  Read at row `r` and column
  `j`, the value the list leaves in its last buffer is the node update of row `r`: the residual product of
  the node row plus three dense layers of the normalised concatenation, the normalisation dividing by the
  square root of the variance plus the small constant.
-/
import proofs.«417122_j62947040690377_3_alg».proof.ReferenceIdeal
import proofs.«417122_j62947040690377_3_alg».proof.Proof.Gen.ReferenceIdeal
import Idealize.ShloMosaic.Lib.StableHlo.Run
import proofs.«417122_j62947040690377_3_alg».proof.Proof.RowMath
import proofs.«417122_j62947040690377_3_alg».proof.Proof.Consts
import proofs.«417122_j62947040690377_3_alg».proof.Proof.LibRowOps
import proofs.«417122_j62947040690377_3_alg».proof.Proof.LibMatProd

noncomputable section

namespace Cert.ReferenceIdeal.SegNode

open Cert.ReferenceIdeal Cert.ReferenceIdeal.Gen Idealize.ShloMosaic Idealize.ShloMosaic.TcCoe Idealize.SL.Sem Idealize.ShloMosaic.StableHlo

section List

variable {F : FTy → Type} [FloatOps F]

/-- The node update's 68 operations, in the program's order. -/
abbrev seg4 : List (HloOp τ sig (Elt F)) :=
  [ binary main_v64 main_arg0 main_v65 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_arg0 main_arg20 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_10 (constant S_ .f32 0x00000000#32),
    binary main_v65 main_cst_10 main_v67 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v67 main_v68 (broadcastInDim S50000x1 ![0] bcast_S50000_S50000x1_0 : (⟨S50000, .f32⟩ : BufTy).Contents (Elt F) → (⟨S50000x1, .f32⟩ : BufTy).Contents (Elt F)),
    nullary main_cst_11 (constant S_ .f32 0x43800000#32),
    unary main_cst_11 main_v69 (broadcastInDim S50000x1 ![] bcast_S_S50000x1 : (⟨S_, .f32⟩ : BufTy).Contents (Elt F) → (⟨S50000x1, .f32⟩ : BufTy).Contents (Elt F)),
    binary main_v68 main_v69 main_v70 (Host.divf : (⟨S50000x1, .f32⟩ : BufTy).Contents (Elt F) → (⟨S50000x1, .f32⟩ : BufTy).Contents (Elt F) → (⟨S50000x1, .f32⟩ : BufTy).Contents (Elt F)),
    nullary main_c_12 (constantI S_ 32 0#32),
    TRef.nullary main_call5.cst (constant S_ .f32 0x00000000#32),
    TRef.binary (.of main_v65) main_call5.cst main_call5.v0 (fun x v => Host.reduceAdd x v reducesTo_S50000x256_S50000_d1 h_S_),
    TRef.unary main_call5.v0 main_call5.v1 (broadcastInDim S50000x1 ![0] bcast_S50000_S50000x1_0),
    TRef.nullary main_call5.cst_0 (constant S_ .f32 0x43800000#32),
    TRef.unary main_call5.cst_0 main_call5.v2 (broadcastInDim S50000x1 ![] bcast_S_S50000x1),
    TRef.binary main_call5.v1 main_call5.v2 main_call5.v3 Host.divf,
    TRef.unary main_call5.v3 main_call5.v4 (broadcastInDim S50000x256 ![0, 1] bcast_S50000x1_S50000x256_0_1),
    TRef.binary (.of main_v65) main_call5.v4 main_call5.v5 subf,
    TRef.binary main_call5.v5 main_call5.v5 main_call5.v6 mulf,
    TRef.unary (.of main_c_12) main_call5.v7 (sitofp .f32),
    TRef.nullary main_call5.cst_1 (constant S_ .f32 0x43800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x256_S50000_d1 h_S_),
    TRef.unary main_call5.v9 main_call5.v10 (broadcastInDim S50000x1 ![0] bcast_S50000_S50000x1_0),
    TRef.unary main_call5.v8 main_call5.v11 (broadcastInDim S50000x1 ![] bcast_S_S50000x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S50000x1 ![] bcast_S_S50000x1),
    TRef.ternary main_call5.v13 main_call5.v12 main_call5.call0.v1 main_call5.call0.v2 (fun p a b => select (broadcastInDim S50000x1 ![] bcast_S_S50000x1 p) a b),
    unary main_v70 main_v72 (broadcastInDim S50000x256 ![0, 1] bcast_S50000x1_S50000x256_0_1 : (⟨S50000x1, .f32⟩ : BufTy).Contents (Elt F) → (⟨S50000x256, .f32⟩ : BufTy).Contents (Elt F)),
    binary main_v65 main_v72 main_v73 (subf : (⟨S50000x256, .f32⟩ : BufTy).Contents (Elt F) → (⟨S50000x256, .f32⟩ : BufTy).Contents (Elt F) → (⟨S50000x256, .f32⟩ : BufTy).Contents (Elt F)),
    nullary main_cst_13 (constant S_ .f32 0x3727C5AC#32),
    unary main_cst_13 main_v74 (broadcastInDim S50000x1 ![] bcast_S_S50000x1 : (⟨S_, .f32⟩ : BufTy).Contents (Elt F) → (⟨S50000x1, .f32⟩ : BufTy).Contents (Elt F)),
    binary main_v71 main_v74 main_v75 (addf : (⟨S50000x1, .f32⟩ : BufTy).Contents (Elt F) → (⟨S50000x1, .f32⟩ : BufTy).Contents (Elt F) → (⟨S50000x1, .f32⟩ : BufTy).Contents (Elt F)),
    unary main_v75 main_v76 (Host.sqrt : (⟨S50000x1, .f32⟩ : BufTy).Contents (Elt F) → (⟨S50000x1, .f32⟩ : BufTy).Contents (Elt F)),
    unary main_v76 main_v77 (broadcastInDim S50000x256 ![0, 1] bcast_S50000x1_S50000x256_0_1 : (⟨S50000x1, .f32⟩ : BufTy).Contents (Elt F) → (⟨S50000x256, .f32⟩ : BufTy).Contents (Elt F)),
    binary main_v73 main_v77 main_v78 (Host.divf : (⟨S50000x256, .f32⟩ : BufTy).Contents (Elt F) → (⟨S50000x256, .f32⟩ : BufTy).Contents (Elt F) → (⟨S50000x256, .f32⟩ : BufTy).Contents (Elt F)),
    unary main_arg12 main_v79 (broadcastInDim S1x256 ![1] bcast_S256_S1x256_1 : (⟨S256, .f32⟩ : BufTy).Contents (Elt F) → (⟨S1x256, .f32⟩ : BufTy).Contents (Elt F)),
    unary main_v79 main_v80 (broadcastInDim S50000x256 ![0, 1] bcast_S1x256_S50000x256_0_1 : (⟨S1x256, .f32⟩ : BufTy).Contents (Elt F) → (⟨S50000x256, .f32⟩ : BufTy).Contents (Elt F)),
    binary main_v78 main_v80 main_v81 (mulf : (⟨S50000x256, .f32⟩ : BufTy).Contents (Elt F) → (⟨S50000x256, .f32⟩ : BufTy).Contents (Elt F) → (⟨S50000x256, .f32⟩ : BufTy).Contents (Elt F)),
    unary main_arg13 main_v82 (broadcastInDim S1x256 ![1] bcast_S256_S1x256_1 : (⟨S256, .f32⟩ : BufTy).Contents (Elt F) → (⟨S1x256, .f32⟩ : BufTy).Contents (Elt F)),
    unary main_v82 main_v83 (broadcastInDim S50000x256 ![0, 1] bcast_S1x256_S50000x256_0_1 : (⟨S1x256, .f32⟩ : BufTy).Contents (Elt F) → (⟨S50000x256, .f32⟩ : BufTy).Contents (Elt F)),
    binary main_v81 main_v83 main_v84 (addf : (⟨S50000x256, .f32⟩ : BufTy).Contents (Elt F) → (⟨S50000x256, .f32⟩ : BufTy).Contents (Elt F) → (⟨S50000x256, .f32⟩ : BufTy).Contents (Elt F)),
    binary main_v84 main_arg14 main_v85 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg15 main_v86 (broadcastInDim S1x256 ![1] bcast_S256_S1x256_1 : (⟨S256, .f32⟩ : BufTy).Contents (Elt F) → (⟨S1x256, .f32⟩ : BufTy).Contents (Elt F)),
    unary main_v86 main_v87 (broadcastInDim S50000x256 ![0, 1] bcast_S1x256_S50000x256_0_1 : (⟨S1x256, .f32⟩ : BufTy).Contents (Elt F) → (⟨S50000x256, .f32⟩ : BufTy).Contents (Elt F)),
    binary main_v85 main_v87 main_v88 (addf : (⟨S50000x256, .f32⟩ : BufTy).Contents (Elt F) → (⟨S50000x256, .f32⟩ : BufTy).Contents (Elt F) → (⟨S50000x256, .f32⟩ : BufTy).Contents (Elt F)),
    TRef.nullary main_call6.cst (constant S_ .f32 0x00000000#32),
    TRef.unary main_call6.cst main_call6.v0 (broadcastInDim S50000x256 ![] bcast_S_S50000x256),
    TRef.binary (.of main_v88) main_call6.v0 main_call6.v1 maximumf,
    binary main_v89 main_arg16 main_v90 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg17 main_v91 (broadcastInDim S1x256 ![1] bcast_S256_S1x256_1 : (⟨S256, .f32⟩ : BufTy).Contents (Elt F) → (⟨S1x256, .f32⟩ : BufTy).Contents (Elt F)),
    unary main_v91 main_v92 (broadcastInDim S50000x256 ![0, 1] bcast_S1x256_S50000x256_0_1 : (⟨S1x256, .f32⟩ : BufTy).Contents (Elt F) → (⟨S50000x256, .f32⟩ : BufTy).Contents (Elt F)),
    binary main_v90 main_v92 main_v93 (addf : (⟨S50000x256, .f32⟩ : BufTy).Contents (Elt F) → (⟨S50000x256, .f32⟩ : BufTy).Contents (Elt F) → (⟨S50000x256, .f32⟩ : BufTy).Contents (Elt F)),
    TRef.nullary main_call7.cst (constant S_ .f32 0x00000000#32),
    TRef.unary main_call7.cst main_call7.v0 (broadcastInDim S50000x256 ![] bcast_S_S50000x256),
    TRef.binary (.of main_v93) main_call7.v0 main_call7.v1 maximumf,
    binary main_v94 main_arg18 main_v95 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg19 main_v96 (broadcastInDim S1x128 ![1] bcast_S128_S1x128_1 : (⟨S128, .f32⟩ : BufTy).Contents (Elt F) → (⟨S1x128, .f32⟩ : BufTy).Contents (Elt F)),
    unary main_v96 main_v97 (broadcastInDim S50000x128 ![0, 1] bcast_S1x128_S50000x128_0_1 : (⟨S1x128, .f32⟩ : BufTy).Contents (Elt F) → (⟨S50000x128, .f32⟩ : BufTy).Contents (Elt F)),
    binary main_v95 main_v97 main_v98 (addf : (⟨S50000x128, .f32⟩ : BufTy).Contents (Elt F) → (⟨S50000x128, .f32⟩ : BufTy).Contents (Elt F) → (⟨S50000x128, .f32⟩ : BufTy).Contents (Elt F)),
    TRef.nullary main_call8.cst (constant S_ .f32 0x00000000#32),
    TRef.unary main_call8.cst main_call8.v0 (broadcastInDim S50000x128 ![] bcast_S_S50000x128),
    TRef.binary (.of main_v98) main_call8.v0 main_call8.v1 maximumf,
    binary main_v66 main_v99 main_v100 (addf : (⟨S50000x128, .f32⟩ : BufTy).Contents (Elt F) → (⟨S50000x128, .f32⟩ : BufTy).Contents (Elt F) → (⟨S50000x128, .f32⟩ : BufTy).Contents (Elt F)) ]

/-- Every operation of the list touches TensorCore references only. -/
theorem seg4_sub : (seg4 : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

end List

section Value

open Idealize.ShloMosaic.ValueIdx Cert.RowMath Cert.Consts Cert.LibRowOps Cert.LibMatProd

/-! ## The node update as one function of the arrays it reads -/

/-- The aggregated edge rows beside the node rows. -/
def catV (a v : FVec Ideal S50000x128 .f32) : FVec Ideal S50000x256 .f32 :=
  concatenate S50000x256 1 [⟨S50000x128, a⟩, ⟨S50000x128, v⟩] concatenates_S50000x128_S50000x128_S50000x256_d1

/-- The row sums, from zero, as a column. -/
def sumCol (x : FVec Ideal S50000x256 .f32) : FVec Ideal S50000x1 .f32 :=
  broadcastInDim S50000x1 ![0] bcast_S50000_S50000x1_0
    (Host.reduceAdd x (constant S_ .f32 0x00000000#32) reducesTo_S50000x256_S50000_d1 h_S_)

/-- The row means: the row sums over the literal 256. -/
def meanV (x : FVec Ideal S50000x256 .f32) : FVec Ideal S50000x1 .f32 :=
  Host.divf (sumCol x) (broadcastInDim S50000x1 ![] bcast_S_S50000x1 (constant S_ .f32 0x43800000#32))

/-- The variance's divisor: the literal 256 minus the integer zero converted. -/
def cntV : FVec Ideal S_ .f32 :=
  subf (constant S_ .f32 0x43800000#32) (sitofp .f32 (constantI S_ 32 0#32))

/-- The deviations from the row mean. -/
def devV (x : FVec Ideal S50000x256 .f32) : FVec Ideal S50000x256 .f32 :=
  subf x (broadcastInDim S50000x256 ![0, 1] bcast_S50000x1_S50000x256_0_1 (meanV x))

/-- The row variances: the sums of the squared deviations over the divisor where the divisor is positive, else
    the not-a-number literal. -/
def varV (x : FVec Ideal S50000x256 .f32) : FVec Ideal S50000x1 .f32 :=
  select (broadcastInDim S50000x1 ![] bcast_S_S50000x1 (cmpf .ogt cntV (constant S_ .f32 0x00000000#32)))
    (Host.divf (sumCol (mulf (devV x) (devV x))) (broadcastInDim S50000x1 ![] bcast_S_S50000x1 cntV))
    (broadcastInDim S50000x1 ![] bcast_S_S50000x1 (constant S_ .f32 0x7FC00000#32))

/-- The normalised rows, scaled and shifted. -/
def lnV (x : FVec Ideal S50000x256 .f32) (g b : FVec Ideal S256 .f32) : FVec Ideal S50000x256 .f32 :=
  addf
    (mulf
      (Host.divf (devV x)
        (broadcastInDim S50000x256 ![0, 1] bcast_S50000x1_S50000x256_0_1
          (Host.sqrt (addf (varV x) (broadcastInDim S50000x1 ![] bcast_S_S50000x1 (constant S_ .f32 0x3727C5AC#32))))))
      (broadcastInDim S50000x256 ![0, 1] bcast_S1x256_S50000x256_0_1 (broadcastInDim S1x256 ![1] bcast_S256_S1x256_1 g)))
    (broadcastInDim S50000x256 ![0, 1] bcast_S1x256_S50000x256_0_1 (broadcastInDim S1x256 ![1] bcast_S256_S1x256_1 b))

/-- A dense layer of width 256 to 256 on every row. -/
def denseA (x : FVec Ideal S50000x256 .f32) (W : FVec Ideal S256x256 .f32) (b : FVec Ideal S256 .f32) :
    FVec Ideal S50000x256 .f32 :=
  maximumf
    (addf (Host.dotGeneral dot_S50000x256_S256x256_S50000x256_1_0_0_1_n_n none x W)
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- A dense layer of width 256 to 128 on every row. -/
def denseB (x : FVec Ideal S50000x256 .f32) (W : FVec Ideal S256x128 .f32) (b : FVec Ideal S128 .f32) :
    FVec Ideal S50000x128 .f32 :=
  maximumf
    (addf (Host.dotGeneral dot_S50000x256_S256x128_S50000x128_1_0_0_1_n_n none x W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The node update of every row: the residual product plus three dense layers of the normalised concatenation. -/
def nodeV (a v : FVec Ideal S50000x128 .f32) (g b : FVec Ideal S256 .f32)
    (W0 : FVec Ideal S256x256 .f32) (b0 : FVec Ideal S256 .f32) (W1 : FVec Ideal S256x256 .f32) (b1 : FVec Ideal S256 .f32)
    (W2 : FVec Ideal S256x128 .f32) (b2 : FVec Ideal S128 .f32) (L : FVec Ideal S128x128 .f32) : FVec Ideal S50000x128 .f32 :=
  addf (Host.dotGeneral dot_S50000x128_S128x128_S50000x128_1_0_0_1_n_n none v L)
    (denseB (denseA (denseA (lnV (catV a v) g b) W0 b0) W1 b1) W2 b2)

set_option maxRecDepth 8192 in
set_option maxHeartbeats 1600000 in
/-- What the list leaves in its last buffer is that function of what it found in the eleven buffers it reads:
    the fold unrolled, every operation's result read at its own buffer, the typed references' transports the
    identity at these literal references. -/
theorem v100_eq (X : Valuation τ sig (Elt Ideal)) :
    after seg4 X (main_v100 : DevRef τ sig)
      = nodeV (X (main_v64 : DevRef τ sig)) (X (main_arg0 : DevRef τ sig)) (X (main_arg12 : DevRef τ sig))
          (X (main_arg13 : DevRef τ sig)) (X (main_arg14 : DevRef τ sig)) (X (main_arg15 : DevRef τ sig))
          (X (main_arg16 : DevRef τ sig)) (X (main_arg17 : DevRef τ sig)) (X (main_arg18 : DevRef τ sig))
          (X (main_arg19 : DevRef τ sig)) (X (main_arg20 : DevRef τ sig)) := by
  after_results_simp
  rfl

/-! ## The function read row by row -/

/-- The host's division and square root at an index are the extended-real ones. -/
theorem hostSqrt_apply {s : Shape} (a : FVec Ideal s .f32) (i : s.Idx) : Host.sqrt a i = Ideal.sqrt (a i) := rfl

theorem catV_apply (a v : FVec Ideal S50000x128 .f32) (r : Fin 50000) (k : Fin 256) :
    catV a v (ix2 r k) = cat2 (fun c => a (ix2 r c)) (fun c => v (ix2 r c)) k :=
  concat2_apply a v _ r k

theorem sumCol_apply (x : FVec Ideal S50000x256 .f32) (r : Fin 50000) (q : Fin 1) :
    sumCol x (ix2 r q) = ∑ k : Fin 256, x (ix2 r k) := by
  unfold sumCol
  rw [bcastInDim_col_apply, rowSum_host, constant_apply, Ideal.ofBits_zero_f32, zero_add]

theorem meanV_apply (x : FVec Ideal S50000x256 .f32) (r : Fin 50000) (q : Fin 1) :
    meanV x (ix2 r q) = mean N256 (fun k => x (ix2 r k)) := by
  unfold meanV mean
  rw [hostDivf_apply, sumCol_apply, broadcastInDim_scalar_apply, constant_apply]

/-- The divisor is the literal 256: the integer zero converts to zero. -/
theorem cntV_apply : cntV ix0 = N256 := by
  show N256 - FloatOps.sitofp (F := Ideal) .f32 (0#32 : BitVec 32) = N256
  exact N256_sub_zero

/-- The divisor is positive. -/
theorem cnt_pos : cmpf .ogt cntV (constant S_ .f32 0x00000000#32) ix0 = 1#1 := by
  rw [cmpf_apply, cntV_apply, constant_apply]
  exact N256_gt_zero

theorem devV_apply (x : FVec Ideal S50000x256 .f32) (r : Fin 50000) (k : Fin 256) :
    devV x (ix2 r k) = x (ix2 r k) - mean N256 (fun k => x (ix2 r k)) := by
  unfold devV
  rw [subf_apply, bcastInDim_colRC_apply, meanV_apply]

theorem varV_apply (x : FVec Ideal S50000x256 .f32) (r : Fin 50000) (q : Fin 1) :
    varV x (ix2 r q) = var N256 (fun k => x (ix2 r k)) := by
  unfold varV var
  rw [select_apply, broadcastInDim_scalar_apply, cnt_pos, select_one, hostDivf_apply, sumCol_apply,
    broadcastInDim_scalar_apply, cntV_apply]
  simp only [mulf_apply, devV_apply]

theorem lnV_apply (x : FVec Ideal S50000x256 .f32) (g b : FVec Ideal S256 .f32) (r : Fin 50000) (k : Fin 256) :
    lnV x g b (ix2 r k) = lnR N256 eps (fun k => x (ix2 r k)) (fun k => g (ix1 k)) (fun k => b (ix1 k)) k := by
  unfold lnV lnR
  rw [addf_apply, mulf_apply, hostDivf_apply, devV_apply, bcastInDim_colRC_apply, hostSqrt_apply, addf_apply, varV_apply,
    broadcastInDim_scalar_apply, constant_apply, bcastInDim_rowRC_apply, bcastInDim_row_apply, bcastInDim_rowRC_apply,
    bcastInDim_row_apply]

theorem denseA_apply (x : FVec Ideal S50000x256 .f32) (W : FVec Ideal S256x256 .f32) (b : FVec Ideal S256 .f32)
    (r : Fin 50000) (c : Fin 256) :
    denseA x W b (ix2 r c) = dense (fun k => x (ix2 r k)) (fun k c => W (ix2 k c)) (fun c => b (ix1 c)) c := by
  unfold denseA dense
  rw [maximumf_apply, addf_apply, dotGeneral_apply dot_S50000x256_S256x256_S50000x256_1_0_0_1_n_n rfl,
    bcastInDim_rowRC_apply, bcastInDim_row_apply, broadcastInDim_scalar_apply, constant_apply, Ideal.ofBits_zero_f32]

theorem denseB_apply (x : FVec Ideal S50000x256 .f32) (W : FVec Ideal S256x128 .f32) (b : FVec Ideal S128 .f32)
    (r : Fin 50000) (c : Fin 128) :
    denseB x W b (ix2 r c) = dense (fun k => x (ix2 r k)) (fun k c => W (ix2 k c)) (fun c => b (ix1 c)) c := by
  unfold denseB dense
  rw [maximumf_apply, addf_apply, dotGeneral_apply dot_S50000x256_S256x128_S50000x128_1_0_0_1_n_n rfl,
    bcastInDim_rowRC_apply, bcastInDim_row_apply, broadcastInDim_scalar_apply, constant_apply, Ideal.ofBits_zero_f32]

theorem nodeV_apply (a v : FVec Ideal S50000x128 .f32) (g b : FVec Ideal S256 .f32)
    (W0 : FVec Ideal S256x256 .f32) (b0 : FVec Ideal S256 .f32) (W1 : FVec Ideal S256x256 .f32) (b1 : FVec Ideal S256 .f32)
    (W2 : FVec Ideal S256x128 .f32) (b2 : FVec Ideal S128 .f32) (L : FVec Ideal S128x128 .f32) (r : Fin 50000) (j : Fin 128) :
    nodeV a v g b W0 b0 W1 b1 W2 b2 L (ix2 r j)
      = nodeRow (lnR N256 eps) (fun c => a (ix2 r c)) (fun c => v (ix2 r c)) (fun k => g (ix1 k)) (fun k => b (ix1 k))
          (fun k c => W0 (ix2 k c)) (fun c => b0 (ix1 c)) (fun k c => W1 (ix2 k c)) (fun c => b1 (ix1 c))
          (fun k c => W2 (ix2 k c)) (fun c => b2 (ix1 c)) (fun k c => L (ix2 k c)) j := by
  unfold nodeV nodeRow
  rw [addf_apply, dotGeneral_apply dot_S50000x128_S128x128_S50000x128_1_0_0_1_n_n rfl]
  simp only [denseB_apply, denseA_apply, lnV_apply, catV_apply]

/-- The node update the list computes, read at row `r` and column `j`: the node update of row `r` of the
    aggregated edge array and the node array, the normalisation dividing by the square root. -/
theorem vnew_apply (X : Valuation τ sig (Elt Ideal)) (r : Fin 50000) (j : Fin 128) :
    (after seg4 X (main_v100 : DevRef τ sig) : S50000x128.Idx → EReal) (ix2 r j)
      = Cert.RowMath.nodeRow (Cert.RowMath.lnR Cert.Consts.N256 Cert.Consts.eps)
          (fun a => X (main_v64 : DevRef τ sig) (ix2 r a)) (fun a => X (main_arg0 : DevRef τ sig) (ix2 r a))
          (fun k => X (main_arg12 : DevRef τ sig) (ix1 k)) (fun k => X (main_arg13 : DevRef τ sig) (ix1 k))
          (fun k c => X (main_arg14 : DevRef τ sig) (ix2 k c)) (fun c => X (main_arg15 : DevRef τ sig) (ix1 c))
          (fun k c => X (main_arg16 : DevRef τ sig) (ix2 k c)) (fun c => X (main_arg17 : DevRef τ sig) (ix1 c))
          (fun k c => X (main_arg18 : DevRef τ sig) (ix2 k c)) (fun c => X (main_arg19 : DevRef τ sig) (ix1 c))
          (fun k c => X (main_arg20 : DevRef τ sig) (ix2 k c)) j := by
  rw [v100_eq]
  exact nodeV_apply _ _ _ _ _ _ _ _ _ _ _ r j

end Value

end Cert.ReferenceIdeal.SegNode

end
-- ==== Proof.RefRun.lean ====
/-
  The reference program's straight line of host operations, read as a list, and the values its index and
  aggregation stretches leave.

  The whole-array reference computes, in order: the two index rows of the edge table (row 0 and row 1 of a
  2 x 400000 integer array, each flattened), each with negative entries wrapped by adding the node count
  50000, and the two gathers of node rows at those indices; then the edge update (stated elsewhere); then the
  scatter-mean of the new edge rows over the destination index row: the count of edges per node (a
  scatter-add of ones into zeros), the sum of edge rows per node (a scatter-add into zeros), the count
  clamped below at one, and the quotient; then the node update (stated elsewhere).

  The list is cut into four consecutive stretches.  A value is carried across a stretch that does not write
  its buffer unchanged; the values the first and third stretches leave are closed terms of what the
  valuation before the stretch holds at the buffers they read.
-/
import proofs.«417122_j62947040690377_3_alg».proof.Proof.Gen.ReferenceIdeal
import Idealize.ShloMosaic.Lib.StableHlo.Run
import proofs.«417122_j62947040690377_3_alg».proof.Proof.RefSegEdge
import proofs.«417122_j62947040690377_3_alg».proof.Proof.RefSegNode

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The two index rows, wrapped, and the gathers -/

/-- The first stretch: both rows of the edge table flattened, negative entries wrapped, the node rows gathered. -/
abbrev seg1 : List (HloOp τ sig (Elt F)) :=
  [ StableHlo.unary main_arg2 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg2 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_c_1 (constantI S_ 32 0#32),
    StableHlo.unary main_c_1 main_v11 (broadcastInDim S400000 ![] bcast_S_S400000 : (⟨S_, .i32⟩ : BufTy).Contents (Elt F) → (⟨S400000, .i32⟩ : BufTy).Contents (Elt F)),
    StableHlo.binary main_v3 main_v11 main_v12 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 50000#32),
    StableHlo.unary main_c_2 main_v13 (broadcastInDim S400000 ![] bcast_S_S400000 : (⟨S_, .i32⟩ : BufTy).Contents (Elt F) → (⟨S400000, .i32⟩ : BufTy).Contents (Elt F)),
    StableHlo.binary main_v3 main_v13 main_v14 (addi : (⟨S400000, .i32⟩ : BufTy).Contents (Elt F) → (⟨S400000, .i32⟩ : BufTy).Contents (Elt F) → (⟨S400000, .i32⟩ : BufTy).Contents (Elt F)),
    StableHlo.ternary main_v12 main_v14 main_v3 main_v15 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v15 main_v16 (broadcastInDim S400000x1 ![0] bcast_S400000_S400000x1_0 : (⟨S400000, .i32⟩ : BufTy).Contents (Elt F) → (⟨S400000x1, .i32⟩ : BufTy).Contents (Elt F)),
    StableHlo.binary main_arg0 main_v16 main_v17 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]

theorem seg1_sub : (seg1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The buffers the first stretch writes. -/
abbrev seg1_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]

theorem seg1_writes : (seg1 : List (HloOp τ sig (Elt F))).Forall fun op =>
    op.writes ⊆ (seg1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

/-- A buffer the first stretch does not write keeps its contents through it. -/
theorem seg1_keep (X : Valuation τ sig (Elt F)) (r : Ref sig .tc) (h : r ∉ seg1_W) :
    after seg1 X (Proc.devRef .tc r) = X (Proc.devRef .tc r) :=
  after_of_writes_sub seg1 _ seg1_writes h

theorem seg1_fresh : ∀ op ∈ (seg1 : List (HloOp τ sig (Elt F))), op.fresh = ∅ := by
  intro _ h; (repeat (cases h with | head => rfl | tail _ h => ?_)); exact nomatch h

/-! ## The scatter-mean -/

/-- The third stretch: edges counted per destination node, new edge rows summed per destination node, the
    count clamped below at one, the quotient. -/
abbrev seg3 : List (HloOp τ sig (Elt F)) :=
  [ StableHlo.nullary main_cst_6 (constant S_ .f32 0x3F800000#32),
    StableHlo.unary main_cst_6 main_v54 (broadcastInDim S400000 ![] bcast_S_S400000 : (⟨S_, .f32⟩ : BufTy).Contents (Elt F) → (⟨S400000, .f32⟩ : BufTy).Contents (Elt F)),
    StableHlo.nullary main_cst_7 (constant S_ .f32 0x00000000#32),
    StableHlo.unary main_cst_7 main_v55 (broadcastInDim S50000 ![] bcast_S_S50000 : (⟨S_, .f32⟩ : BufTy).Contents (Elt F) → (⟨S50000, .f32⟩ : BufTy).Contents (Elt F)),
    StableHlo.unary main_v3 main_v56 (broadcastInDim S400000x1 ![0] bcast_S400000_S400000x1_0 : (⟨S400000, .i32⟩ : BufTy).Contents (Elt F) → (⟨S400000x1, .i32⟩ : BufTy).Contents (Elt F)),
    StableHlo.ternary main_v55 main_v56 main_v54 main_v57 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_8 (constant S_ .f32 0x00000000#32),
    StableHlo.unary main_cst_8 main_v58 (broadcastInDim S50000x128 ![] bcast_S_S50000x128 : (⟨S_, .f32⟩ : BufTy).Contents (Elt F) → (⟨S50000x128, .f32⟩ : BufTy).Contents (Elt F)),
    StableHlo.unary main_v3 main_v59 (broadcastInDim S400000x1 ![0] bcast_S400000_S400000x1_0 : (⟨S400000, .i32⟩ : BufTy).Contents (Elt F) → (⟨S400000x1, .i32⟩ : BufTy).Contents (Elt F)),
    StableHlo.ternary main_v58 main_v59 main_v53 main_v60 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.nullary main_cst_9 (constant S_ .f32 0x3F800000#32),
    StableHlo.TRef.unary (.of main_cst_9) main_call4.v0 id,
    StableHlo.TRef.unary main_call4.v0 main_call4.v1 (broadcastInDim S50000 ![] bcast_S_S50000),
    StableHlo.TRef.binary main_call4.v1 (.of main_v57) main_call4.v2 maximumf,
    StableHlo.unary main_v61 main_v62 (broadcastInDim S50000x1 ![0] bcast_S50000_S50000x1_0 : (⟨S50000, .f32⟩ : BufTy).Contents (Elt F) → (⟨S50000x1, .f32⟩ : BufTy).Contents (Elt F)),
    StableHlo.unary main_v62 main_v63 (broadcastInDim S50000x128 ![0, 1] bcast_S50000x1_S50000x128_0_1 : (⟨S50000x1, .f32⟩ : BufTy).Contents (Elt F) → (⟨S50000x128, .f32⟩ : BufTy).Contents (Elt F)),
    StableHlo.binary main_v60 main_v63 main_v64 (Host.divf : (⟨S50000x128, .f32⟩ : BufTy).Contents (Elt F) → (⟨S50000x128, .f32⟩ : BufTy).Contents (Elt F) → (⟨S50000x128, .f32⟩ : BufTy).Contents (Elt F)) ]

theorem seg3_sub : (seg3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩

/-- The buffers the third stretch writes. -/
abbrev seg3_W : List (Ref sig .tc) := [main_cst_6, main_v54, main_cst_7, main_v55, main_v56, main_v57, main_cst_8, main_v58, main_v59, main_v60, main_cst_9, main_call4_v0, main_call4_v1, main_v61, main_v62, main_v63, main_v64]

theorem seg3_writes : (seg3 : List (HloOp τ sig (Elt F))).Forall fun op =>
    op.writes ⊆ (seg3_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

/-- A buffer the third stretch does not write keeps its contents through it. -/
theorem seg3_keep (X : Valuation τ sig (Elt F)) (r : Ref sig .tc) (h : r ∉ seg3_W) :
    after seg3 X (Proc.devRef .tc r) = X (Proc.devRef .tc r) :=
  after_of_writes_sub seg3 _ seg3_writes h

theorem seg3_fresh : ∀ op ∈ (seg3 : List (HloOp τ sig (Elt F))), op.fresh = ∅ := by
  intro _ h; (repeat (cases h with | head => rfl | tail _ h => ?_)); exact nomatch h

/-! ## What the first stretch leaves -/

/-- Row 0 of the edge table, flattened: the source node of each edge. -/
def rowIdx (ei : IVec S2x400000 32) : IVec S400000 32 :=
  shapeCast S400000 (extractStridedSlice S1x400000 ![0, 0] ei slices_S2x400000_S1x400000_0_0) shapeCasts_S1x400000_S400000

/-- Row 1 of the edge table, flattened: the destination node of each edge. -/
def colIdx (ei : IVec S2x400000 32) : IVec S400000 32 :=
  shapeCast S400000 (extractStridedSlice S1x400000 ![1, 0] ei slices_S2x400000_S1x400000_1_0) shapeCasts_S1x400000_S400000

/-- An index row with its negative entries wrapped (the node count 50000 added), as a column of indices. -/
def wrapIdx (r : IVec S400000 32) : IVec S400000x1 32 :=
  broadcastInDim S400000x1 ![0] bcast_S400000_S400000x1_0
    (select (cmpi .slt r (broadcastInDim S400000 ![] bcast_S_S400000 (constantI S_ 32 0#32)))
      (addi r (broadcastInDim S400000 ![] bcast_S_S400000 (constantI S_ 32 50000#32))) r)

/-- The node rows at the edges' source nodes. -/
def gatherRow (v : FVec F S50000x128 .f32) (ei : IVec S2x400000 32) : FVec F S400000x128 .f32 :=
  Host.gather gather_S50000x128_S400000x1_S400000x128_1_0_n_n_0_1_1128 v (wrapIdx (rowIdx ei))

/-- The node rows at the edges' destination nodes. -/
def gatherCol (v : FVec F S50000x128 .f32) (ei : IVec S2x400000 32) : FVec F S400000x128 .f32 :=
  Host.gather gather_S50000x128_S400000x1_S400000x128_1_0_n_n_0_1_1128 v (wrapIdx (colIdx ei))

attribute [local irreducible] Host.gather Host.scatterAdd in
theorem seg1_v3 (X : Valuation τ sig (Elt F)) :
    after seg1 X (main_v3 : DevRef τ sig) = colIdx (X (main_arg2 : DevRef τ sig)) := by
  after_results; rfl

attribute [local irreducible] Host.gather Host.scatterAdd in
theorem seg1_v10 (X : Valuation τ sig (Elt F)) :
    after seg1 X (main_v10 : DevRef τ sig)
      = gatherRow (X (main_arg0 : DevRef τ sig)) (X (main_arg2 : DevRef τ sig)) := by
  after_results; rfl

attribute [local irreducible] Host.gather Host.scatterAdd in
theorem seg1_v17 (X : Valuation τ sig (Elt F)) :
    after seg1 X (main_v17 : DevRef τ sig)
      = gatherCol (X (main_arg0 : DevRef τ sig)) (X (main_arg2 : DevRef τ sig)) := by
  after_results; rfl

/-! ## What the third stretch leaves -/

/-- How many edges end at each node: ones scattered-and-added into zeros at the destination indices. -/
def cnt (col : IVec S400000 32) : FVec F S50000 .f32 :=
  Host.scatterAdd scatter_S50000_S400000x1_S400000_n_0_0_1
    (broadcastInDim S50000 ![] bcast_S_S50000 (constant S_ .f32 0x00000000#32))
    (broadcastInDim S400000x1 ![0] bcast_S400000_S400000x1_0 col)
    (broadcastInDim S400000 ![] bcast_S_S400000 (constant S_ .f32 0x3F800000#32))

/-- The sum of the edge rows ending at each node: the rows scattered-and-added into zeros. -/
def esum (e : FVec F S400000x128 .f32) (col : IVec S400000 32) : FVec F S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 col) e

/-- The scatter-mean: each node's sum of incoming edge rows over its count of incoming edges, the count
    clamped below at one. -/
def aggr (e : FVec F S400000x128 .f32) (col : IVec S400000 32) : FVec F S50000x128 .f32 :=
  Host.divf (esum e col)
    (broadcastInDim S50000x128 ![0, 1] bcast_S50000x1_S50000x128_0_1
      (broadcastInDim S50000x1 ![0] bcast_S50000_S50000x1_0
        (maximumf (broadcastInDim S50000 ![] bcast_S_S50000 (constant S_ .f32 0x3F800000#32)) (cnt col))))

attribute [local irreducible] Host.gather Host.scatterAdd in
theorem seg3_v64 (X : Valuation τ sig (Elt F)) :
    after seg3 X (main_v64 : DevRef τ sig)
      = aggr (X (main_v53 : DevRef τ sig)) (X (main_v3 : DevRef τ sig)) := by
  after_results; rfl

/-! ## The second and fourth stretches: what they write -/

/-- The buffers the second stretch (the edge update) writes. -/
abbrev seg2_W : List (Ref sig .tc) := [main_v18, main_v19, main_cst, main_v20, main_v21, main_cst_3, main_v22, main_v23, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v24, main_v25, main_v26, main_cst_5, main_v27, main_v28, main_v29, main_v30, main_v31, main_v32, main_v33, main_v34, main_v35, main_v36, main_v37, main_v38, main_v39, main_v40, main_v41, main_call1_cst, main_call1_v0, main_v42, main_v43, main_v44, main_v45, main_v46, main_call2_cst, main_call2_v0, main_v47, main_v48, main_v49, main_v50, main_v51, main_call3_cst, main_call3_v0, main_v52, main_v53]

theorem seg2_writes : (SegEdge.seg2 : List (HloOp τ sig (Elt F))).Forall fun op =>
    op.writes ⊆ (seg2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

/-- A buffer the second stretch does not write keeps its contents through it. -/
theorem seg2_keep (X : Valuation τ sig (Elt F)) (r : Ref sig .tc) (h : r ∉ seg2_W) :
    after SegEdge.seg2 X (Proc.devRef .tc r) = X (Proc.devRef .tc r) :=
  after_of_writes_sub SegEdge.seg2 _ seg2_writes h

theorem seg2_fresh : ∀ op ∈ (SegEdge.seg2 : List (HloOp τ sig (Elt F))), op.fresh = ∅ := by
  intro _ h; (repeat (cases h with | head => rfl | tail _ h => ?_)); exact nomatch h

/-- The buffers the fourth stretch (the node update) writes. -/
abbrev seg4_W : List (Ref sig .tc) := [main_v65, main_v66, main_cst_10, main_v67, main_v68, main_cst_11, main_v69, main_v70, main_c_12, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v71, main_v72, main_v73, main_cst_13, main_v74, main_v75, main_v76, main_v77, main_v78, main_v79, main_v80, main_v81, main_v82, main_v83, main_v84, main_v85, main_v86, main_v87, main_v88, main_call6_cst, main_call6_v0, main_v89, main_v90, main_v91, main_v92, main_v93, main_call7_cst, main_call7_v0, main_v94, main_v95, main_v96, main_v97, main_v98, main_call8_cst, main_call8_v0, main_v99, main_v100]

theorem seg4_writes : (SegNode.seg4 : List (HloOp τ sig (Elt F))).Forall fun op =>
    op.writes ⊆ (seg4_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)⟩

/-- A buffer the fourth stretch does not write keeps its contents through it. -/
theorem seg4_keep (X : Valuation τ sig (Elt F)) (r : Ref sig .tc) (h : r ∉ seg4_W) :
    after SegNode.seg4 X (Proc.devRef .tc r) = X (Proc.devRef .tc r) :=
  after_of_writes_sub SegNode.seg4 _ seg4_writes h

theorem seg4_fresh : ∀ op ∈ (SegNode.seg4 : List (HloOp τ sig (Elt F))), op.fresh = ∅ := by
  intro _ h; (repeat (cases h with | head => rfl | tail _ h => ?_)); exact nomatch h

/-! ## The whole line -/

/-- The fold over two lists run one after the other is the second's fold over the first's. -/
theorem after_app (l₁ l₂ : List (HloOp τ sig (Elt F))) (X : Valuation τ sig (Elt F)) :
    after (l₁ ++ l₂) X = after l₂ (after l₁ X) := by
  induction l₁ generalizing X with
  | nil => rfl
  | cons op l ih => rw [List.cons_append, after_cons, after_cons, ih]

theorem forall_app {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The reference's operations, in order: the four stretches. -/
abbrev ops : List (HloOp τ sig (Elt F)) := seg1 ++ SegEdge.seg2 ++ seg3 ++ SegNode.seg4

theorem after_ops (X : Valuation τ sig (Elt F)) :
    after ops X = after SegNode.seg4 (after seg3 (after SegEdge.seg2 (after seg1 X))) := by
  show after (seg1 ++ SegEdge.seg2 ++ seg3 ++ SegNode.seg4) X = _
  rw [after_app, after_app, after_app]

theorem ops_sub : (ops : List (HloOp τ sig (Elt F))).Forall fun op => op.bufs ⊆ tcRefs τ sig :=
  forall_app (forall_app (forall_app seg1_sub SegEdge.seg2_sub) seg3_sub) SegNode.seg4_sub

theorem ops_fresh : ∀ op ∈ (ops : List (HloOp τ sig (Elt F))), op.fresh = ∅ := by
  intro op h
  rcases List.mem_append.mp h with h | h4
  · rcases List.mem_append.mp h with h | h3
    · rcases List.mem_append.mp h with h1 | h2
      · exact seg1_fresh op h1
      · exact seg2_fresh op h2
    · exact seg3_fresh op h3
  · exact seg4_fresh op h4

theorem scopedRefs_eq : (Finset.univ.filter fun b : Ref sig .tc => b.isScoped) = ∅ := by decide
theorem scopedSems_eq : (Finset.univ.filter fun sm : SemLoc sig => sm.isScoped .tc) = ∅ := by decide

/-! ## Values carried across the whole line -/

/-- A buffer no stretch writes (every argument of the program is one) holds at the end what it held at the
    start. -/
theorem ops_keep (X : Valuation τ sig (Elt F)) (r : Ref sig .tc)
    (h1 : r ∉ seg1_W) (h2 : r ∉ seg2_W) (h3 : r ∉ seg3_W) (h4 : r ∉ seg4_W) :
    after ops X (Proc.devRef .tc r) = X (Proc.devRef .tc r) := by
  rw [after_ops, seg4_keep _ r h4, seg3_keep _ r h3, seg2_keep _ r h2, seg1_keep _ r h1]

/-- The updated edge rows at the end are what the second stretch leaves: the later stretches do not write
    them. -/
theorem ops_v53 (X : Valuation τ sig (Elt F)) :
    after ops X (main_v53 : DevRef τ sig) = after SegEdge.seg2 (after seg1 X) (main_v53 : DevRef τ sig) := by
  rw [after_ops, seg4_keep _ main_v53 (by decide), seg3_keep _ main_v53 (by decide)]

/-- The updated node rows at the end are what the fourth stretch leaves. -/
theorem ops_v100 (X : Valuation τ sig (Elt F)) :
    after ops X (main_v100 : DevRef τ sig)
      = after SegNode.seg4 (after seg3 (after SegEdge.seg2 (after seg1 X))) (main_v100 : DevRef τ sig) := by
  rw [after_ops]

/-- The aggregated edge rows after the first three stretches: the scatter-mean of the updated edge rows over
    the destination row of the edge table. -/
theorem seg123_v64 (X : Valuation τ sig (Elt F)) :
    after seg3 (after SegEdge.seg2 (after seg1 X)) (main_v64 : DevRef τ sig)
      = aggr (after SegEdge.seg2 (after seg1 X) (main_v53 : DevRef τ sig)) (colIdx (X (main_arg2 : DevRef τ sig))) := by
  rw [seg3_v64, seg2_keep _ main_v3 (by decide), seg1_v3]

/-- A buffer the first three stretches do not write holds after them what it held at the start. -/
theorem seg123_keep (X : Valuation τ sig (Elt F)) (r : Ref sig .tc)
    (h1 : r ∉ seg1_W) (h2 : r ∉ seg2_W) (h3 : r ∉ seg3_W) :
    after seg3 (after SegEdge.seg2 (after seg1 X)) (Proc.devRef .tc r) = X (Proc.devRef .tc r) := by
  rw [seg3_keep _ r h3, seg2_keep _ r h2, seg1_keep _ r h1]

set_option maxRecDepth 8192 in
set_option maxHeartbeats 4000000 in
/-- The program is that straight line: the outlined functions unfolded at their calls, both sides are one
    chain of steps once sequencing is reassociated. -/
theorem main_eq (c : Dev nD) : main (F := F) c = seq ops := by
  show main (F := F) c = seq (seg1 ++ SegEdge.seg2 ++ seg3 ++ SegNode.seg4)
  rw [seq_append, seq_append, seq_append]
  simp only [main, main_part0, main_part1, fn_var.body, fn_where.body, fn_relu.body, fn_relu_0.body, fn_clip.body,
    fn_var_1.body, fn_where_2.body, fn_relu_3.body, fn_relu_4.body, seq, bind_assoc, pure_bind]

/-- From any memory with zero counters every weakly fair execution of the reference terminates, each buffer
    at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefGlue.lean ====
/-
  The reference's two results, read at an entry, as the row functions of the launch contents.

  The updated edge rows: entry (r, j) of the edge result is the edge update of row r, over the edge row, the
  node rows gathered at the edge's source and destination (negative indices wrapped), and the weights.  The
  updated node rows: entry (r, j) of the node result is the node update of row r, over row r of the
  scatter-mean of the updated edge rows and of the node array, and the weights.  No stretch of the line
  writes an argument, so each argument is read at the launch contents.
-/
import proofs.«417122_j62947040690377_3_alg».proof.Proof.RefRun
import proofs.«417122_j62947040690377_3_alg».proof.Proof.RefSegEdge
import proofs.«417122_j62947040690377_3_alg».proof.Proof.RefSegNode
import proofs.«417122_j62947040690377_3_alg».proof.Proof.RowMath
import proofs.«417122_j62947040690377_3_alg».proof.Proof.Consts
import Idealize.ShloMosaic.Lib.ValueIdx

noncomputable section

namespace Cert.ReferenceIdeal.RefGlue

open Cert.ReferenceIdeal Cert.ReferenceIdeal.Gen Idealize.ShloMosaic Idealize.ShloMosaic.TcCoe Idealize.SL.Sem
  Idealize.ShloMosaic.StableHlo Idealize.ShloMosaic.ValueIdx Cert.RowMath Cert.Consts Cert.ReferenceIdeal.RefRun

/-! ## The arguments are never written -/

section Args

variable {F : FTy → Type} [FloatOps F]

/-- The program's twenty-one arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- Every argument holds at the end of the line what it held at its start. -/
theorem ops_args (V : Valuation τ sig (Elt F)) :
    ∀ r ∈ argRefs, after ops V (Proc.devRef .tc r) = V (Proc.devRef .tc r) := fun r hr =>
  ops_keep V r ((by decide : ∀ r ∈ argRefs, r ∉ seg1_W) r hr) ((by decide : ∀ r ∈ argRefs, r ∉ seg2_W) r hr)
    ((by decide : ∀ r ∈ argRefs, r ∉ seg3_W) r hr) ((by decide : ∀ r ∈ argRefs, r ∉ seg4_W) r hr)

theorem ops_arg0 (V : Valuation τ sig (Elt F)) :
    after ops V (main_arg0 : DevRef τ sig) = V (main_arg0 : DevRef τ sig) :=
  ops_keep V main_arg0 (by decide) (by decide) (by decide) (by decide)
theorem ops_arg1 (V : Valuation τ sig (Elt F)) :
    after ops V (main_arg1 : DevRef τ sig) = V (main_arg1 : DevRef τ sig) :=
  ops_keep V main_arg1 (by decide) (by decide) (by decide) (by decide)
theorem ops_arg2 (V : Valuation τ sig (Elt F)) :
    after ops V (main_arg2 : DevRef τ sig) = V (main_arg2 : DevRef τ sig) :=
  ops_keep V main_arg2 (by decide) (by decide) (by decide) (by decide)
theorem ops_arg3 (V : Valuation τ sig (Elt F)) :
    after ops V (main_arg3 : DevRef τ sig) = V (main_arg3 : DevRef τ sig) :=
  ops_keep V main_arg3 (by decide) (by decide) (by decide) (by decide)
theorem ops_arg4 (V : Valuation τ sig (Elt F)) :
    after ops V (main_arg4 : DevRef τ sig) = V (main_arg4 : DevRef τ sig) :=
  ops_keep V main_arg4 (by decide) (by decide) (by decide) (by decide)
theorem ops_arg5 (V : Valuation τ sig (Elt F)) :
    after ops V (main_arg5 : DevRef τ sig) = V (main_arg5 : DevRef τ sig) :=
  ops_keep V main_arg5 (by decide) (by decide) (by decide) (by decide)
theorem ops_arg6 (V : Valuation τ sig (Elt F)) :
    after ops V (main_arg6 : DevRef τ sig) = V (main_arg6 : DevRef τ sig) :=
  ops_keep V main_arg6 (by decide) (by decide) (by decide) (by decide)
theorem ops_arg7 (V : Valuation τ sig (Elt F)) :
    after ops V (main_arg7 : DevRef τ sig) = V (main_arg7 : DevRef τ sig) :=
  ops_keep V main_arg7 (by decide) (by decide) (by decide) (by decide)
theorem ops_arg8 (V : Valuation τ sig (Elt F)) :
    after ops V (main_arg8 : DevRef τ sig) = V (main_arg8 : DevRef τ sig) :=
  ops_keep V main_arg8 (by decide) (by decide) (by decide) (by decide)
theorem ops_arg9 (V : Valuation τ sig (Elt F)) :
    after ops V (main_arg9 : DevRef τ sig) = V (main_arg9 : DevRef τ sig) :=
  ops_keep V main_arg9 (by decide) (by decide) (by decide) (by decide)
theorem ops_arg10 (V : Valuation τ sig (Elt F)) :
    after ops V (main_arg10 : DevRef τ sig) = V (main_arg10 : DevRef τ sig) :=
  ops_keep V main_arg10 (by decide) (by decide) (by decide) (by decide)
theorem ops_arg11 (V : Valuation τ sig (Elt F)) :
    after ops V (main_arg11 : DevRef τ sig) = V (main_arg11 : DevRef τ sig) :=
  ops_keep V main_arg11 (by decide) (by decide) (by decide) (by decide)
theorem ops_arg12 (V : Valuation τ sig (Elt F)) :
    after ops V (main_arg12 : DevRef τ sig) = V (main_arg12 : DevRef τ sig) :=
  ops_keep V main_arg12 (by decide) (by decide) (by decide) (by decide)
theorem ops_arg13 (V : Valuation τ sig (Elt F)) :
    after ops V (main_arg13 : DevRef τ sig) = V (main_arg13 : DevRef τ sig) :=
  ops_keep V main_arg13 (by decide) (by decide) (by decide) (by decide)
theorem ops_arg14 (V : Valuation τ sig (Elt F)) :
    after ops V (main_arg14 : DevRef τ sig) = V (main_arg14 : DevRef τ sig) :=
  ops_keep V main_arg14 (by decide) (by decide) (by decide) (by decide)
theorem ops_arg15 (V : Valuation τ sig (Elt F)) :
    after ops V (main_arg15 : DevRef τ sig) = V (main_arg15 : DevRef τ sig) :=
  ops_keep V main_arg15 (by decide) (by decide) (by decide) (by decide)
theorem ops_arg16 (V : Valuation τ sig (Elt F)) :
    after ops V (main_arg16 : DevRef τ sig) = V (main_arg16 : DevRef τ sig) :=
  ops_keep V main_arg16 (by decide) (by decide) (by decide) (by decide)
theorem ops_arg17 (V : Valuation τ sig (Elt F)) :
    after ops V (main_arg17 : DevRef τ sig) = V (main_arg17 : DevRef τ sig) :=
  ops_keep V main_arg17 (by decide) (by decide) (by decide) (by decide)
theorem ops_arg18 (V : Valuation τ sig (Elt F)) :
    after ops V (main_arg18 : DevRef τ sig) = V (main_arg18 : DevRef τ sig) :=
  ops_keep V main_arg18 (by decide) (by decide) (by decide) (by decide)
theorem ops_arg19 (V : Valuation τ sig (Elt F)) :
    after ops V (main_arg19 : DevRef τ sig) = V (main_arg19 : DevRef τ sig) :=
  ops_keep V main_arg19 (by decide) (by decide) (by decide) (by decide)
theorem ops_arg20 (V : Valuation τ sig (Elt F)) :
    after ops V (main_arg20 : DevRef τ sig) = V (main_arg20 : DevRef τ sig) :=
  ops_keep V main_arg20 (by decide) (by decide) (by decide) (by decide)

end Args

/-! ## The updated edge rows -/

/-- Entry (r, j) of the edge result is the edge update of row r of the launch contents. -/
theorem ref_enew_apply (V : Valuation τ sig (Elt Ideal)) (r : Fin 400000) (j : Fin 128) :
    (after (ops (F := Ideal)) V (main_v53 : DevRef τ sig) : S400000x128.Idx → EReal) (ix2 r j)
      = edgeRow (lnR N384 eps)
          (fun a => (V (main_arg1 : DevRef τ sig) : S400000x128.Idx → EReal) (ix2 r a))
          (fun a => (gatherRow (F := Ideal) (V (main_arg0 : DevRef τ sig)) (V (main_arg2 : DevRef τ sig)) : S400000x128.Idx → EReal) (ix2 r a))
          (fun a => (gatherCol (F := Ideal) (V (main_arg0 : DevRef τ sig)) (V (main_arg2 : DevRef τ sig)) : S400000x128.Idx → EReal) (ix2 r a))
          (fun k => (V (main_arg3 : DevRef τ sig) : S384.Idx → EReal) (ix1 k)) (fun k => (V (main_arg4 : DevRef τ sig) : S384.Idx → EReal) (ix1 k))
          (fun k c => (V (main_arg5 : DevRef τ sig) : S384x256.Idx → EReal) (ix2 k c)) (fun k => (V (main_arg6 : DevRef τ sig) : S256.Idx → EReal) (ix1 k))
          (fun k c => (V (main_arg7 : DevRef τ sig) : S256x256.Idx → EReal) (ix2 k c)) (fun k => (V (main_arg8 : DevRef τ sig) : S256.Idx → EReal) (ix1 k))
          (fun k c => (V (main_arg9 : DevRef τ sig) : S256x128.Idx → EReal) (ix2 k c)) (fun k => (V (main_arg10 : DevRef τ sig) : S128.Idx → EReal) (ix1 k))
          (fun k c => (V (main_arg11 : DevRef τ sig) : S128x128.Idx → EReal) (ix2 k c)) j := by
  rw [ops_v53, SegEdge.enew_apply (after seg1 V) r j, seg1_v10, seg1_v17,
    seg1_keep V main_arg1 (by decide), seg1_keep V main_arg3 (by decide), seg1_keep V main_arg4 (by decide), seg1_keep V main_arg5 (by decide), seg1_keep V main_arg6 (by decide), seg1_keep V main_arg7 (by decide), seg1_keep V main_arg8 (by decide), seg1_keep V main_arg9 (by decide), seg1_keep V main_arg10 (by decide), seg1_keep V main_arg11 (by decide)]

/-! ## The updated node rows -/

/-- Entry (r, j) of the node result is the node update of row r: of the scatter-mean of the updated edge rows
    over the destination row of the edge table, and of the node array. -/
theorem ref_vnew_apply (V : Valuation τ sig (Elt Ideal)) (r : Fin 50000) (j : Fin 128) :
    (after (ops (F := Ideal)) V (main_v100 : DevRef τ sig) : S50000x128.Idx → EReal) (ix2 r j)
      = nodeRow (lnR N256 eps)
          (fun a => (aggr (F := Ideal) (after (ops (F := Ideal)) V (main_v53 : DevRef τ sig)) (colIdx (V (main_arg2 : DevRef τ sig))) : S50000x128.Idx → EReal) (ix2 r a))
          (fun a => (V (main_arg0 : DevRef τ sig) : S50000x128.Idx → EReal) (ix2 r a))
          (fun k => (V (main_arg12 : DevRef τ sig) : S256.Idx → EReal) (ix1 k)) (fun k => (V (main_arg13 : DevRef τ sig) : S256.Idx → EReal) (ix1 k))
          (fun k c => (V (main_arg14 : DevRef τ sig) : S256x256.Idx → EReal) (ix2 k c)) (fun k => (V (main_arg15 : DevRef τ sig) : S256.Idx → EReal) (ix1 k))
          (fun k c => (V (main_arg16 : DevRef τ sig) : S256x256.Idx → EReal) (ix2 k c)) (fun k => (V (main_arg17 : DevRef τ sig) : S256.Idx → EReal) (ix1 k))
          (fun k c => (V (main_arg18 : DevRef τ sig) : S256x128.Idx → EReal) (ix2 k c)) (fun k => (V (main_arg19 : DevRef τ sig) : S128.Idx → EReal) (ix1 k))
          (fun k c => (V (main_arg20 : DevRef τ sig) : S128x128.Idx → EReal) (ix2 k c)) j := by
  rw [ops_v100, SegNode.vnew_apply (after seg3 (after SegEdge.seg2 (after seg1 V))) r j, seg123_v64, ← ops_v53,
    seg123_keep V main_arg0 (by decide) (by decide) (by decide), seg123_keep V main_arg12 (by decide) (by decide) (by decide), seg123_keep V main_arg13 (by decide) (by decide) (by decide), seg123_keep V main_arg14 (by decide) (by decide) (by decide), seg123_keep V main_arg15 (by decide) (by decide) (by decide), seg123_keep V main_arg16 (by decide) (by decide) (by decide), seg123_keep V main_arg17 (by decide) (by decide) (by decide), seg123_keep V main_arg18 (by decide) (by decide) (by decide), seg123_keep V main_arg19 (by decide) (by decide) (by decide), seg123_keep V main_arg20 (by decide) (by decide) (by decide)]

end Cert.ReferenceIdeal.RefGlue

end
-- ==== Proof.KerEdgeRow.lean ====
/-
  The edge body's stored value, read at one entry, is the edge update of that row.

  Every operation of the body is either pointwise or acts along a row: the concatenation puts three rows of
  width 128 side by side, the two sums run along axis 1, the column of means and the column of reciprocal
  square roots are broadcast back along the rows, scale, shift and the three biases are one row broadcast over
  all rows, and each matrix product into a zero accumulator is, at an entry, the sum over the shared axis.
  Reading the stored value at entry `(p, j)` from the outermost operation inwards therefore leaves a term in
  the entries of row `p` of the three data blocks and of the parameters only, and that term is the edge update
  of the row, with the normalisation spelt with the reciprocal square root.
-/
import proofs.«417122_j62947040690377_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«417122_j62947040690377_3_alg».proof.Proof.RowMath
import proofs.«417122_j62947040690377_3_alg».proof.Proof.Consts
import proofs.«417122_j62947040690377_3_alg».proof.Proof.LibRowOps
import proofs.«417122_j62947040690377_3_alg».proof.Proof.LibMatProd

noncomputable section

namespace Cert.KernelIdeal.EdgeRow

open Cert.KernelIdeal Cert.KernelIdeal.Gen Idealize.ShloMosaic Idealize.ShloMosaic.ValueIdx

/-- The reciprocal square root acts entry by entry. -/
theorem rsqrt_apply {s : Shape} {φ : FTy} (v : FVec Ideal s φ) (i : s.Idx) : rsqrt v i = Ideal.rsqrt (v i) := rfl

/-- A sum along axis 1 from the zero accumulator, at row `r`, is the sum of the row; the accumulator's
    neutrality is stated as the printed body carries it, `0 = 0`. -/
theorem rowSum_apply {R C : ℕ} (v : FVec Ideal ⟨2, ![R, C]⟩ .f32) (h : (⟨2, ![R, C]⟩ : Shape).Reduces [1] ⟨1, ![R]⟩)
    (hφ : FKind.Formats .f32) (hacc : (0x00000000#32 : BitVec 32) = 0x00000000#32) (r : Fin R) :
    multiReduction (F := Ideal) .add [1] ⟨1, ![R]⟩ v 0x00000000#32 h hφ hacc (ix1 r) = ∑ k : Fin C, v (ix2 r k) :=
  Cert.LibRowOps.rowSum_kernel v h hφ hacc r

/-- The stored value of the edge body at entry `(p, j)`: the residual product of row `p` of the edge block
    plus three dense layers of the normalised concatenation of row `p` of the three blocks. -/
theorem pay_edge_apply (x0 x1 x2 : FVec Ideal S3200x128 .f32) (x3 x4 : FVec Ideal S1x384 .f32)
    (x5 : FVec Ideal S384x256 .bf16) (x6 : FVec Ideal S1x256 .f32) (x7 : FVec Ideal S256x256 .bf16)
    (x8 : FVec Ideal S1x256 .f32) (x9 : FVec Ideal S256x128 .bf16) (x10 : FVec Ideal S1x128 .f32)
    (x11 : FVec Ideal S128x128 .bf16) (p : Fin 3200) (j : Fin 128) :
    k0_pay1 (F := Ideal) x0 (k0_pay2 (F := Ideal) x0 x1 x2 x3 x4 x5) x6 x7 x8 x9 x10 x11 (ix2 p j)
      = Cert.RowMath.edgeRow (Cert.RowMath.lnK Cert.Consts.N384 Cert.Consts.eps)
          (fun a => x0 (ix2 p a)) (fun a => x1 (ix2 p a)) (fun a => x2 (ix2 p a))
          (fun k => x3 (ix2 (0 : Fin 1) k)) (fun k => x4 (ix2 (0 : Fin 1) k))
          (fun k c => x5 (ix2 k c)) (fun c => x6 (ix2 (0 : Fin 1) c))
          (fun k c => x7 (ix2 k c)) (fun c => x8 (ix2 (0 : Fin 1) c))
          (fun k c => x9 (ix2 k c)) (fun c => x10 (ix2 (0 : Fin 1) c))
          (fun k c => x11 (ix2 k c)) j := by
  unfold k0_pay1 k0_pay2
  -- Pointwise operations, broadcasts and matrix products read at the entry; the sums along axis 1 appear
  -- at row `p`: the sum of the concatenated row (the mean) and the sum of the squared deviations.
  simp only [shapeCast_self, addf_apply, mulf_apply, subf_apply, divf_apply, maximumf_apply, truncf_apply, broadcast_apply,
    rsqrt_apply, broadcastTo_1b_ab_apply, Cert.LibRowOps.broadcastTo_col_apply, Cert.LibRowOps.shapeCast_col_apply,
    Cert.LibRowOps.concat3_apply,
    Cert.LibMatProd.matmul_zero_apply dot_S3200x128_S128x128_S3200x128_1_0_0_1_n_n rfl,
    Cert.LibMatProd.matmul_zero_apply dot_S3200x256_S256x128_S3200x128_1_0_0_1_n_n rfl,
    Cert.LibMatProd.matmul_zero_apply dot_S3200x256_S256x256_S3200x256_1_0_0_1_n_n rfl,
    Cert.LibMatProd.matmul_zero_apply dot_S3200x384_S384x256_S3200x256_1_0_0_1_n_n rfl]
  rw [rowSum_apply, rowSum_apply]
  -- Inside the sum of squared deviations each deviation is read at its entry; the mean appears again.
  simp only [shapeCast_self, addf_apply, mulf_apply, subf_apply, divf_apply, maximumf_apply, truncf_apply, broadcast_apply,
    rsqrt_apply, broadcastTo_1b_ab_apply, Cert.LibRowOps.broadcastTo_col_apply, Cert.LibRowOps.shapeCast_col_apply,
    Cert.LibRowOps.concat3_apply,
    Cert.LibMatProd.matmul_zero_apply dot_S3200x128_S128x128_S3200x128_1_0_0_1_n_n rfl,
    Cert.LibMatProd.matmul_zero_apply dot_S3200x256_S256x128_S3200x128_1_0_0_1_n_n rfl,
    Cert.LibMatProd.matmul_zero_apply dot_S3200x256_S256x256_S3200x256_1_0_0_1_n_n rfl,
    Cert.LibMatProd.matmul_zero_apply dot_S3200x384_S384x256_S3200x256_1_0_0_1_n_n rfl]
  rw [rowSum_apply]
  simp only [shapeCast_self, addf_apply, mulf_apply, subf_apply, divf_apply, maximumf_apply, truncf_apply, broadcast_apply,
    rsqrt_apply, broadcastTo_1b_ab_apply, Cert.LibRowOps.broadcastTo_col_apply, Cert.LibRowOps.shapeCast_col_apply,
    Cert.LibRowOps.concat3_apply,
    Cert.LibMatProd.matmul_zero_apply dot_S3200x128_S128x128_S3200x128_1_0_0_1_n_n rfl,
    Cert.LibMatProd.matmul_zero_apply dot_S3200x256_S256x128_S3200x128_1_0_0_1_n_n rfl,
    Cert.LibMatProd.matmul_zero_apply dot_S3200x256_S256x256_S3200x256_1_0_0_1_n_n rfl,
    Cert.LibMatProd.matmul_zero_apply dot_S3200x384_S384x256_S3200x256_1_0_0_1_n_n rfl]
  -- Both sides are now the same term in the entries of row `p`; the clamp's zero literal is zero.
  unfold Cert.RowMath.edgeRow Cert.RowMath.dense Cert.RowMath.lnK Cert.RowMath.var Cert.RowMath.mean
  have hz : (FloatOps.ofBits (F := Ideal) FTy.f32 0x00000000#32 : Ideal .f32) = 0 := Cert.Consts.ofBits_zero
  simp only [hz]
  rfl

end Cert.KernelIdeal.EdgeRow

end
-- ==== Proof.KerNodeRow.lean ====
/-
  The node body's stored value, read at one entry, is the node update of that row.

  The body concatenates the aggregated edge block with the node block, normalises each row (mean and variance
  as row sums over the literal 256, the deviation times the reciprocal square root of the variance plus the
  small constant, scaled and shifted), applies three dense layers (a product with the weights, the bias, the
  clamp at zero) and adds the residual product of the node block.  Read at row `p` and column `j`, every
  pointwise and layout operation is its entry's, every product a sum over the shared axis, every reduction the
  sum of row `p`: what is left is the row function with the reciprocal-square-root normalisation.
-/
import proofs.«417122_j62947040690377_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«417122_j62947040690377_3_alg».proof.Proof.RowMath
import proofs.«417122_j62947040690377_3_alg».proof.Proof.Consts
import proofs.«417122_j62947040690377_3_alg».proof.Proof.LibRowOps
import proofs.«417122_j62947040690377_3_alg».proof.Proof.LibMatProd

noncomputable section

namespace Cert.KernelIdeal.NodeRow

open Cert.KernelIdeal Cert.KernelIdeal.Gen Idealize.ShloMosaic Idealize.ShloMosaic.ValueIdx

/-- The reciprocal square root of a vector at an index. -/
theorem rsqrt_apply {s : Shape} {φ : FTy} (v : FVec Ideal s φ) (i : s.Idx) : rsqrt v i = Ideal.rsqrt (v i) := rfl

/-- A sum along axis 1 from the zero accumulator, at row `r`: the sum of the row (the accumulator's evidence
    stated at the literal, so that the equation applies to the printed reductions). -/
theorem rowSum_apply {R C : ℕ} (v : FVec Ideal ⟨2, ![R, C]⟩ .f32) (h : (⟨2, ![R, C]⟩ : Shape).Reduces [1] ⟨1, ![R]⟩)
    (hφ : FKind.Formats .f32) (hacc : (0x00000000#32 : BitVec 32) = 0x00000000#32) (r : Fin R) :
    multiReduction (F := Ideal) .add [1] ⟨1, ![R]⟩ v 0x00000000#32 h hφ hacc (ix1 r) = ∑ k : Fin C, v (ix2 r k) :=
  Cert.LibRowOps.rowSum_kernel v h hφ hacc r

/-- Every pointwise, layout and product operation of the body read at an entry. -/
local macro "read_entry" : tactic =>
  `(tactic| simp only [shapeCast_self, addf_apply, mulf_apply, subf_apply, divf_apply, maximumf_apply, truncf_apply,
    broadcast_apply, rsqrt_apply, broadcastTo_1b_ab_apply, Cert.LibRowOps.broadcastTo_col_apply,
    Cert.LibRowOps.shapeCast_col_apply, Cert.LibRowOps.concat2_apply,
    Cert.LibMatProd.matmul_zero_apply dot_S2000x128_S128x128_S2000x128_1_0_0_1_n_n rfl,
    Cert.LibMatProd.matmul_zero_apply dot_S2000x256_S256x128_S2000x128_1_0_0_1_n_n rfl,
    Cert.LibMatProd.matmul_zero_apply dot_S2000x256_S256x256_S2000x256_1_0_0_1_n_n rfl])

theorem pay_node_apply (x0 x1 : FVec Ideal S2000x128 .f32) (x2 x3 : FVec Ideal S1x256 .f32)
    (x4 : FVec Ideal S256x256 .bf16) (x5 : FVec Ideal S1x256 .f32) (x6 : FVec Ideal S256x256 .bf16)
    (x7 : FVec Ideal S1x256 .f32) (x8 : FVec Ideal S256x128 .bf16) (x9 : FVec Ideal S1x128 .f32)
    (x10 : FVec Ideal S128x128 .bf16) (p : Fin 2000) (j : Fin 128) :
    k1_pay1 (F := Ideal) x1 (k1_pay2 (F := Ideal) x0 x1 x2 x3 x4 x5) (Scalar.ofBits .f32 0x00000000#32) x6 x7 x8 x9 x10 (ix2 p j)
      = Cert.RowMath.nodeRow (Cert.RowMath.lnK Cert.Consts.N256 Cert.Consts.eps)
          (fun a => x0 (ix2 p a)) (fun a => x1 (ix2 p a))
          (fun k => x2 (ix2 (0 : Fin 1) k)) (fun k => x3 (ix2 (0 : Fin 1) k))
          (fun k c => x4 (ix2 k c)) (fun c => x5 (ix2 (0 : Fin 1) c))
          (fun k c => x6 (ix2 k c)) (fun c => x7 (ix2 (0 : Fin 1) c))
          (fun k c => x8 (ix2 k c)) (fun c => x9 (ix2 (0 : Fin 1) c))
          (fun k c => x10 (ix2 k c)) j := by
  unfold k1_pay1 k1_pay2
  -- the outer layers at the entry, down to the two row sums of the normalisation
  read_entry
  rw [rowSum_apply, rowSum_apply]
  -- the summand of the variance's sum at each column, down to the mean's row sum inside it
  read_entry
  rw [rowSum_apply]
  read_entry
  -- both sides are now the same expression in the rows: the literals 256 and 1e-5 by name, the clamp's zero
  unfold Cert.RowMath.nodeRow Cert.RowMath.dense Cert.RowMath.lnK Cert.RowMath.var Cert.RowMath.mean
  have hz : (FloatOps.ofBits (F := Ideal) FTy.f32 0x00000000#32 : Ideal .f32) = 0 := Cert.Consts.ofBits_zero
  simp only [hz]
  rfl

end Cert.KernelIdeal.NodeRow

end
-- ==== Proof.KerRegions.lean ====
/-
  What each region leaves in its output array, entry by entry, for any contents of the arrays at the region's entry.

  The edge region runs over 125 blocks of 3200 rows, the node region over 25 blocks of 2000 rows.  In either, the
  point t reads rows [rows * t, rows * t + rows) of the row-blocked arrays and the whole of each parameter array,
  computes the row update on every row of its block, and writes the block back at the same rows.  Since the update of
  a row depends on that row alone, the block written at point t is block t of one whole-array function (the row
  update applied to every row), and since row r lies in block r / rows, the blocks cover the array: after the region
  the output array is that function.
-/
import proofs.«417122_j62947040690377_3_alg».proof.Proof.Gen.KernelIdeal.Frame
import Idealize.ShloMosaic.Lib.Pipeline.Value
import Idealize.ShloMosaic.Lib.ValueIdx
import proofs.«417122_j62947040690377_3_alg».proof.Proof.RowMath
import proofs.«417122_j62947040690377_3_alg».proof.Proof.Consts
import proofs.«417122_j62947040690377_3_alg».proof.Proof.KerEdgeRow
import proofs.«417122_j62947040690377_3_alg».proof.Proof.KerNodeRow

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two zero offsets of a whole-buffer load or store, as the constant function. -/
theorem zeros2 : (![0, 0] : Fin 2 → Nat) = fun _ => 0 := funext fun a => by fin_cases a <;> rfl

/-! ## The edge region -/

/-- The edge array after the update, as one function of the arrays the region finds: row by row. -/
def edgeArr (c : Dev nD) : S400000x128.Idx → EReal := fun i =>
  Cert.RowMath.edgeRow (Cert.RowMath.lnK Cert.Consts.N384 Cert.Consts.eps)
    (fun a => (V c main_arg1 : S400000x128.Idx → EReal) (ix2 (⟨(i 0).val, idx2_lt0 i⟩ : Fin 400000) a))
    (fun a => (V c main_v4 : S400000x128.Idx → EReal) (ix2 (⟨(i 0).val, idx2_lt0 i⟩ : Fin 400000) a))
    (fun a => (V c main_v5 : S400000x128.Idx → EReal) (ix2 (⟨(i 0).val, idx2_lt0 i⟩ : Fin 400000) a))
    (fun k => (V c main_v10 : S1x384.Idx → EReal) (ix2 (0 : Fin 1) k))
    (fun k => (V c main_v11 : S1x384.Idx → EReal) (ix2 (0 : Fin 1) k))
    (fun k c' => (V c main_v6 : S384x256.Idx → EReal) (ix2 k c'))
    (fun k => (V c main_v12 : S1x256.Idx → EReal) (ix2 (0 : Fin 1) k))
    (fun k c' => (V c main_v7 : S256x256.Idx → EReal) (ix2 k c'))
    (fun k => (V c main_v13 : S1x256.Idx → EReal) (ix2 (0 : Fin 1) k))
    (fun k c' => (V c main_v8 : S256x128.Idx → EReal) (ix2 k c'))
    (fun k => (V c main_v14 : S1x128.Idx → EReal) (ix2 (0 : Fin 1) k))
    (fun k c' => (V c main_v9 : S128x128.Idx → EReal) (ix2 k c'))
    (⟨(i 1).val, idx2_lt1 i⟩ : Fin 128)

/-- The block indices of the edge region's windows, decided over the grid: a row-blocked window sits at block
    (t, 0), a parameter window at block (0, 0). -/
theorem edge_idx : ∀ t : Fin cfg0.N,
    (win0_0.index t (0 : Fin 2) = t.val ∧ win0_0.index t (1 : Fin 2) = 0)
    ∧     (win0_1.index t (0 : Fin 2) = t.val ∧ win0_1.index t (1 : Fin 2) = 0)
    ∧     (win0_2.index t (0 : Fin 2) = t.val ∧ win0_2.index t (1 : Fin 2) = 0)
    ∧     (win0_3.index t (0 : Fin 2) = 0 ∧ win0_3.index t (1 : Fin 2) = 0)
    ∧     (win0_4.index t (0 : Fin 2) = 0 ∧ win0_4.index t (1 : Fin 2) = 0)
    ∧     (win0_5.index t (0 : Fin 2) = 0 ∧ win0_5.index t (1 : Fin 2) = 0)
    ∧     (win0_6.index t (0 : Fin 2) = 0 ∧ win0_6.index t (1 : Fin 2) = 0)
    ∧     (win0_7.index t (0 : Fin 2) = 0 ∧ win0_7.index t (1 : Fin 2) = 0)
    ∧     (win0_8.index t (0 : Fin 2) = 0 ∧ win0_8.index t (1 : Fin 2) = 0)
    ∧     (win0_9.index t (0 : Fin 2) = 0 ∧ win0_9.index t (1 : Fin 2) = 0)
    ∧     (win0_10.index t (0 : Fin 2) = 0 ∧ win0_10.index t (1 : Fin 2) = 0)
    ∧     (win0_11.index t (0 : Fin 2) = 0 ∧ win0_11.index t (1 : Fin 2) = 0)
    ∧ (win0_12.index t (0 : Fin 2) = t.val ∧ win0_12.index t (1 : Fin 2) = 0) :=
  (by decide +kernel : ∀ t : Fin grid0.N, _)

/-- Window 0's block at point t, read at (p, a), is its array at row 3200 t + p. -/
theorem edge_blk0 (c : Dev nD) (t : Fin cfg0.N) (p : Fin 3200) (a : Fin 128) (r : Fin 400000) (hr : r.val = 3200 * t.val + p.val) :
    (iblk0 V c 0 t : S3200x128.Idx → EReal) (ix2 p a) = (V c main_arg1 : S400000x128.Idx → EReal) (ix2 r a) := by
  obtain ⟨e0, e1⟩ := (edge_idx t).1
  unfold iblk0
  rw [View.read_apply]
  show (V c main_arg1 : S400000x128.Idx → EReal) _ = (V c main_arg1 : S400000x128.Idx → EReal) _
  congr 1
  funext b
  apply Fin.ext
  match b with
  | ⟨0, _⟩ => show win0_0.index t (0 : Fin 2) * 3200 + 1 * p.val = r.val; rw [e0, hr]; omega
  | ⟨1, _⟩ => show win0_0.index t (1 : Fin 2) * 128 + 1 * a.val = a.val; rw [e1]; omega

/-- Window 1's block at point t, read at (p, a), is its array at row 3200 t + p. -/
theorem edge_blk1 (c : Dev nD) (t : Fin cfg0.N) (p : Fin 3200) (a : Fin 128) (r : Fin 400000) (hr : r.val = 3200 * t.val + p.val) :
    (iblk0 V c 1 t : S3200x128.Idx → EReal) (ix2 p a) = (V c main_v4 : S400000x128.Idx → EReal) (ix2 r a) := by
  obtain ⟨e0, e1⟩ := (edge_idx t).2.1
  unfold iblk0
  rw [View.read_apply]
  show (V c main_v4 : S400000x128.Idx → EReal) _ = (V c main_v4 : S400000x128.Idx → EReal) _
  congr 1
  funext b
  apply Fin.ext
  match b with
  | ⟨0, _⟩ => show win0_1.index t (0 : Fin 2) * 3200 + 1 * p.val = r.val; rw [e0, hr]; omega
  | ⟨1, _⟩ => show win0_1.index t (1 : Fin 2) * 128 + 1 * a.val = a.val; rw [e1]; omega

/-- Window 2's block at point t, read at (p, a), is its array at row 3200 t + p. -/
theorem edge_blk2 (c : Dev nD) (t : Fin cfg0.N) (p : Fin 3200) (a : Fin 128) (r : Fin 400000) (hr : r.val = 3200 * t.val + p.val) :
    (iblk0 V c 2 t : S3200x128.Idx → EReal) (ix2 p a) = (V c main_v5 : S400000x128.Idx → EReal) (ix2 r a) := by
  obtain ⟨e0, e1⟩ := (edge_idx t).2.2.1
  unfold iblk0
  rw [View.read_apply]
  show (V c main_v5 : S400000x128.Idx → EReal) _ = (V c main_v5 : S400000x128.Idx → EReal) _
  congr 1
  funext b
  apply Fin.ext
  match b with
  | ⟨0, _⟩ => show win0_2.index t (0 : Fin 2) * 3200 + 1 * p.val = r.val; rw [e0, hr]; omega
  | ⟨1, _⟩ => show win0_2.index t (1 : Fin 2) * 128 + 1 * a.val = a.val; rw [e1]; omega

/-- Window 3's block at any point is its whole array. -/
theorem edge_blk3 (c : Dev nD) (t : Fin cfg0.N) :
    (iblk0 V c 3 t : S1x384.Idx → EReal) = (V c main_v10 : S1x384.Idx → EReal) := by
  obtain ⟨e0, e1⟩ := (edge_idx t).2.2.2.1
  funext x
  unfold iblk0
  rw [View.read_apply]
  show (V c main_v10 : S1x384.Idx → EReal) _ = (V c main_v10 : S1x384.Idx → EReal) _
  congr 1
  funext b
  apply Fin.ext
  match b with
  | ⟨0, _⟩ => show win0_3.index t (0 : Fin 2) * 1 + 1 * (x 0).val = (x 0).val; rw [e0]; omega
  | ⟨1, _⟩ => show win0_3.index t (1 : Fin 2) * 384 + 1 * (x 1).val = (x 1).val; rw [e1]; omega

/-- Window 4's block at any point is its whole array. -/
theorem edge_blk4 (c : Dev nD) (t : Fin cfg0.N) :
    (iblk0 V c 4 t : S1x384.Idx → EReal) = (V c main_v11 : S1x384.Idx → EReal) := by
  obtain ⟨e0, e1⟩ := (edge_idx t).2.2.2.2.1
  funext x
  unfold iblk0
  rw [View.read_apply]
  show (V c main_v11 : S1x384.Idx → EReal) _ = (V c main_v11 : S1x384.Idx → EReal) _
  congr 1
  funext b
  apply Fin.ext
  match b with
  | ⟨0, _⟩ => show win0_4.index t (0 : Fin 2) * 1 + 1 * (x 0).val = (x 0).val; rw [e0]; omega
  | ⟨1, _⟩ => show win0_4.index t (1 : Fin 2) * 384 + 1 * (x 1).val = (x 1).val; rw [e1]; omega

/-- Window 5's block at any point is its whole array. -/
theorem edge_blk5 (c : Dev nD) (t : Fin cfg0.N) :
    (iblk0 V c 5 t : S384x256.Idx → EReal) = (V c main_v6 : S384x256.Idx → EReal) := by
  obtain ⟨e0, e1⟩ := (edge_idx t).2.2.2.2.2.1
  funext x
  unfold iblk0
  rw [View.read_apply]
  show (V c main_v6 : S384x256.Idx → EReal) _ = (V c main_v6 : S384x256.Idx → EReal) _
  congr 1
  funext b
  apply Fin.ext
  match b with
  | ⟨0, _⟩ => show win0_5.index t (0 : Fin 2) * 384 + 1 * (x 0).val = (x 0).val; rw [e0]; omega
  | ⟨1, _⟩ => show win0_5.index t (1 : Fin 2) * 256 + 1 * (x 1).val = (x 1).val; rw [e1]; omega

/-- Window 6's block at any point is its whole array. -/
theorem edge_blk6 (c : Dev nD) (t : Fin cfg0.N) :
    (iblk0 V c 6 t : S1x256.Idx → EReal) = (V c main_v12 : S1x256.Idx → EReal) := by
  obtain ⟨e0, e1⟩ := (edge_idx t).2.2.2.2.2.2.1
  funext x
  unfold iblk0
  rw [View.read_apply]
  show (V c main_v12 : S1x256.Idx → EReal) _ = (V c main_v12 : S1x256.Idx → EReal) _
  congr 1
  funext b
  apply Fin.ext
  match b with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega

/-- Window 7's block at any point is its whole array. -/
theorem edge_blk7 (c : Dev nD) (t : Fin cfg0.N) :
    (iblk0 V c 7 t : S256x256.Idx → EReal) = (V c main_v7 : S256x256.Idx → EReal) := by
  obtain ⟨e0, e1⟩ := (edge_idx t).2.2.2.2.2.2.2.1
  funext x
  unfold iblk0
  rw [View.read_apply]
  show (V c main_v7 : S256x256.Idx → EReal) _ = (V c main_v7 : S256x256.Idx → EReal) _
  congr 1
  funext b
  apply Fin.ext
  match b with
  | ⟨0, _⟩ => show win0_7.index t (0 : Fin 2) * 256 + 1 * (x 0).val = (x 0).val; rw [e0]; omega
  | ⟨1, _⟩ => show win0_7.index t (1 : Fin 2) * 256 + 1 * (x 1).val = (x 1).val; rw [e1]; omega

/-- Window 8's block at any point is its whole array. -/
theorem edge_blk8 (c : Dev nD) (t : Fin cfg0.N) :
    (iblk0 V c 8 t : S1x256.Idx → EReal) = (V c main_v13 : S1x256.Idx → EReal) := by
  obtain ⟨e0, e1⟩ := (edge_idx t).2.2.2.2.2.2.2.2.1
  funext x
  unfold iblk0
  rw [View.read_apply]
  show (V c main_v13 : S1x256.Idx → EReal) _ = (V c main_v13 : S1x256.Idx → EReal) _
  congr 1
  funext b
  apply Fin.ext
  match b with
  | ⟨0, _⟩ => show win0_8.index t (0 : Fin 2) * 1 + 1 * (x 0).val = (x 0).val; rw [e0]; omega
  | ⟨1, _⟩ => show win0_8.index t (1 : Fin 2) * 256 + 1 * (x 1).val = (x 1).val; rw [e1]; omega

/-- Window 9's block at any point is its whole array. -/
theorem edge_blk9 (c : Dev nD) (t : Fin cfg0.N) :
    (iblk0 V c 9 t : S256x128.Idx → EReal) = (V c main_v8 : S256x128.Idx → EReal) := by
  obtain ⟨e0, e1⟩ := (edge_idx t).2.2.2.2.2.2.2.2.2.1
  funext x
  unfold iblk0
  rw [View.read_apply]
  show (V c main_v8 : S256x128.Idx → EReal) _ = (V c main_v8 : S256x128.Idx → EReal) _
  congr 1
  funext b
  apply Fin.ext
  match b with
  | ⟨0, _⟩ => show win0_9.index t (0 : Fin 2) * 256 + 1 * (x 0).val = (x 0).val; rw [e0]; omega
  | ⟨1, _⟩ => show win0_9.index t (1 : Fin 2) * 128 + 1 * (x 1).val = (x 1).val; rw [e1]; omega

/-- Window 10's block at any point is its whole array. -/
theorem edge_blk10 (c : Dev nD) (t : Fin cfg0.N) :
    (iblk0 V c 10 t : S1x128.Idx → EReal) = (V c main_v14 : S1x128.Idx → EReal) := by
  obtain ⟨e0, e1⟩ := (edge_idx t).2.2.2.2.2.2.2.2.2.2.1
  funext x
  unfold iblk0
  rw [View.read_apply]
  show (V c main_v14 : S1x128.Idx → EReal) _ = (V c main_v14 : S1x128.Idx → EReal) _
  congr 1
  funext b
  apply Fin.ext
  match b with
  | ⟨0, _⟩ => show win0_10.index t (0 : Fin 2) * 1 + 1 * (x 0).val = (x 0).val; rw [e0]; omega
  | ⟨1, _⟩ => show win0_10.index t (1 : Fin 2) * 128 + 1 * (x 1).val = (x 1).val; rw [e1]; omega

/-- Window 11's block at any point is its whole array. -/
theorem edge_blk11 (c : Dev nD) (t : Fin cfg0.N) :
    (iblk0 V c 11 t : S128x128.Idx → EReal) = (V c main_v9 : S128x128.Idx → EReal) := by
  obtain ⟨e0, e1⟩ := (edge_idx t).2.2.2.2.2.2.2.2.2.2.2.1
  funext x
  unfold iblk0
  rw [View.read_apply]
  show (V c main_v9 : S128x128.Idx → EReal) _ = (V c main_v9 : S128x128.Idx → EReal) _
  congr 1
  funext b
  apply Fin.ext
  match b with
  | ⟨0, _⟩ => show win0_11.index t (0 : Fin 2) * 128 + 1 * (x 0).val = (x 0).val; rw [e0]; omega
  | ⟨1, _⟩ => show win0_11.index t (1 : Fin 2) * 128 + 1 * (x 1).val = (x 1).val; rw [e1]; omega

/-- What point t writes back is block t of the edge array. -/
theorem edge_flushed_eq (c : Dev nD) (t : Fin cfg0.N) :
    (dat0 (F := Ideal) V c).flushed 12 t = ((cfg0.win 12).blk t).view.read (Elt Ideal) (edgeArr V c) := by
  show (cfg0.win 12).cut (grid0.coords t) ((dat0 V c).after 12 t) = _
  rw [after0_12]
  unfold out0_12
  rw [View.canon_unit_zero zeros2]
  simp only [View.ld_unit_zero (S := S3200x128) zeros2, View.ld_unit_zero (S := S1x384) zeros2, View.ld_unit_zero (S := S384x256) zeros2, View.ld_unit_zero (S := S1x256) zeros2, View.ld_unit_zero (S := S256x256) zeros2, View.ld_unit_zero (S := S256x128) zeros2, View.ld_unit_zero (S := S1x128) zeros2, View.ld_unit_zero (S := S128x128) zeros2]
  obtain ⟨e0, e1⟩ := (edge_idx t).2.2.2.2.2.2.2.2.2.2.2.2
  have ht : t.val < 125 := Nat.lt_of_lt_of_eq t.isLt N_0
  funext y
  have hp : (y 0).val < 3200 := (y 0).isLt
  have hq : (y 1).val < 128 := (y 1).isLt
  have hrow : 3200 * t.val + (y 0).val < 400000 := by omega
  have hy : (win0 12).xinj (grid0.coords t) y = ix2 (⟨(y 0).val, hp⟩ : Fin 3200) (⟨(y 1).val, hq⟩ : Fin 128) := by
    funext b
    match b with
    | ⟨0, _⟩ => rfl
    | ⟨1, _⟩ => rfl
  have hemb : ((cfg0.win 12).blk t).view.emb y = ix2 (⟨3200 * t.val + (y 0).val, hrow⟩ : Fin 400000) (⟨(y 1).val, hq⟩ : Fin 128) := by
    funext b
    apply Fin.ext
    match b with
    | ⟨0, _⟩ => show win0_12.index t (0 : Fin 2) * 3200 + 1 * (y 0).val = 3200 * t.val + (y 0).val; rw [e0]; omega
    | ⟨1, _⟩ => show win0_12.index t (1 : Fin 2) * 128 + 1 * (y 1).val = (y 1).val; rw [e1]; omega
  dsimp only [Pipeline.Window.cut]
  rw [hy]
  refine (Cert.KernelIdeal.EdgeRow.pay_edge_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (⟨(y 0).val, hp⟩ : Fin 3200) (⟨(y 1).val, hq⟩ : Fin 128)).trans ?_
  show _ = edgeArr V c (((cfg0.win 12).blk t).view.emb y)
  rw [hemb]
  unfold edgeArr
  have h0 : ∀ a : Fin 128, (iblk0 V c 0 t : S3200x128.Idx → EReal) (ix2 (⟨(y 0).val, hp⟩ : Fin 3200) a) = (V c main_arg1 : S400000x128.Idx → EReal) (ix2 (⟨3200 * t.val + (y 0).val, hrow⟩ : Fin 400000) a) :=
    fun a => edge_blk0 V c t (⟨(y 0).val, hp⟩ : Fin 3200) a (⟨3200 * t.val + (y 0).val, hrow⟩ : Fin 400000) rfl
  have h1 : ∀ a : Fin 128, (iblk0 V c 1 t : S3200x128.Idx → EReal) (ix2 (⟨(y 0).val, hp⟩ : Fin 3200) a) = (V c main_v4 : S400000x128.Idx → EReal) (ix2 (⟨3200 * t.val + (y 0).val, hrow⟩ : Fin 400000) a) :=
    fun a => edge_blk1 V c t (⟨(y 0).val, hp⟩ : Fin 3200) a (⟨3200 * t.val + (y 0).val, hrow⟩ : Fin 400000) rfl
  have h2 : ∀ a : Fin 128, (iblk0 V c 2 t : S3200x128.Idx → EReal) (ix2 (⟨(y 0).val, hp⟩ : Fin 3200) a) = (V c main_v5 : S400000x128.Idx → EReal) (ix2 (⟨3200 * t.val + (y 0).val, hrow⟩ : Fin 400000) a) :=
    fun a => edge_blk2 V c t (⟨(y 0).val, hp⟩ : Fin 3200) a (⟨3200 * t.val + (y 0).val, hrow⟩ : Fin 400000) rfl
  simp only [h0, h1, h2, edge_blk3 V c t, edge_blk4 V c t, edge_blk5 V c t, edge_blk6 V c t, edge_blk7 V c t, edge_blk8 V c t, edge_blk9 V c t, edge_blk10 V c t, edge_blk11 V c t]

/-- An entry of the array is in point t's block iff each coordinate is in the block's range on its axis. -/
theorem edge_mem_blk (t : Fin cfg0.N) (i : S400000x128.Idx) :
    i ∈ ((cfg0.win 12).blk t).view.set ↔ ∀ a : Fin 2, win0_12.index t a * S3200x128.size a ≤ (i a).val ∧ (i a).val < win0_12.index t a * S3200x128.size a + S3200x128.size a := by
  show i ∈ ((View.whole main_v15).slice (win0_12.rect t)).set ↔ _
  rw [View.set_slice_whole, Rect.mem_set_unit]
  exact Iff.rfl

/-- Every entry is in the block of the point its row falls under: row r is written at point r / 3200. -/
theorem edge_cover (i : S400000x128.Idx) :
    ∃ t : Fin cfg0.N, (cfg0.win 12).flush t = true ∧ i ∈ ((cfg0.win 12).blk t).view.set := by
  have hi0 : (i 0).val < 400000 := idx2_lt0 i
  have hi1 : (i 1).val < 128 := idx2_lt1 i
  have hN : cfg0.N = 125 := N_0
  have hlt : (i 0).val / 3200 < cfg0.N := by rw [hN]; omega
  refine ⟨⟨(i 0).val / 3200, hlt⟩, flush0_12 _, ?_⟩
  obtain ⟨e0, e1⟩ := (edge_idx ⟨(i 0).val / 3200, hlt⟩).2.2.2.2.2.2.2.2.2.2.2.2
  rw [edge_mem_blk]
  intro a
  match a with
  | ⟨0, _⟩ =>
    show win0_12.index ⟨(i 0).val / 3200, hlt⟩ (0 : Fin 2) * 3200 ≤ (i 0).val ∧ (i 0).val < win0_12.index ⟨(i 0).val / 3200, hlt⟩ (0 : Fin 2) * 3200 + 3200
    rw [e0]
    show (i 0).val / 3200 * 3200 ≤ (i 0).val ∧ (i 0).val < (i 0).val / 3200 * 3200 + 3200
    omega
  | ⟨1, _⟩ =>
    show win0_12.index ⟨(i 0).val / 3200, hlt⟩ (1 : Fin 2) * 128 ≤ (i 1).val ∧ (i 1).val < win0_12.index ⟨(i 0).val / 3200, hlt⟩ (1 : Fin 2) * 128 + 128
    rw [e1]
    omega

/-- The edge array after the region is the row-wise update of the arrays the region finds. -/
theorem edge_final (c : Dev nD) : (dat0 (F := Ideal) V c).arrAt 12 cfg0.N = edgeArr V c :=
  (dat0 (F := Ideal) V c).arrAt_eq_of_cover 12 (edgeArr V c) (fun t _ => edge_flushed_eq V c t) edge_cover

/-- The same, entry by entry. -/
theorem final12 (c : Dev nD) (r : Fin 400000) (j : Fin 128) :
    ((dat0 (F := Ideal) V c).arrAt 12 cfg0.N : S400000x128.Idx → EReal) (ix2 r j)
      = Cert.RowMath.edgeRow (Cert.RowMath.lnK Cert.Consts.N384 Cert.Consts.eps)
          (fun a => (V c main_arg1 : S400000x128.Idx → EReal) (ix2 r a))
          (fun a => (V c main_v4 : S400000x128.Idx → EReal) (ix2 r a))
          (fun a => (V c main_v5 : S400000x128.Idx → EReal) (ix2 r a))
          (fun k => (V c main_v10 : S1x384.Idx → EReal) (ix2 (0 : Fin 1) k))
          (fun k => (V c main_v11 : S1x384.Idx → EReal) (ix2 (0 : Fin 1) k))
          (fun k c' => (V c main_v6 : S384x256.Idx → EReal) (ix2 k c'))
          (fun k => (V c main_v12 : S1x256.Idx → EReal) (ix2 (0 : Fin 1) k))
          (fun k c' => (V c main_v7 : S256x256.Idx → EReal) (ix2 k c'))
          (fun k => (V c main_v13 : S1x256.Idx → EReal) (ix2 (0 : Fin 1) k))
          (fun k c' => (V c main_v8 : S256x128.Idx → EReal) (ix2 k c'))
          (fun k => (V c main_v14 : S1x128.Idx → EReal) (ix2 (0 : Fin 1) k))
          (fun k c' => (V c main_v9 : S128x128.Idx → EReal) (ix2 k c'))
          j := by
  rw [edge_final V c]
  rfl

/-! ## The node region -/

/-- The node array after the update, as one function of the arrays the region finds: row by row. -/
def nodeArr (c : Dev nD) : S50000x128.Idx → EReal := fun i =>
  Cert.RowMath.nodeRow (Cert.RowMath.lnK Cert.Consts.N256 Cert.Consts.eps)
    (fun a => (V c main_v26 : S50000x128.Idx → EReal) (ix2 (⟨(i 0).val, idx2_lt0 i⟩ : Fin 50000) a))
    (fun a => (V c main_arg0 : S50000x128.Idx → EReal) (ix2 (⟨(i 0).val, idx2_lt0 i⟩ : Fin 50000) a))
    (fun k => (V c main_v31 : S1x256.Idx → EReal) (ix2 (0 : Fin 1) k))
    (fun k => (V c main_v32 : S1x256.Idx → EReal) (ix2 (0 : Fin 1) k))
    (fun k c' => (V c main_v27 : S256x256.Idx → EReal) (ix2 k c'))
    (fun k => (V c main_v33 : S1x256.Idx → EReal) (ix2 (0 : Fin 1) k))
    (fun k c' => (V c main_v28 : S256x256.Idx → EReal) (ix2 k c'))
    (fun k => (V c main_v34 : S1x256.Idx → EReal) (ix2 (0 : Fin 1) k))
    (fun k c' => (V c main_v29 : S256x128.Idx → EReal) (ix2 k c'))
    (fun k => (V c main_v35 : S1x128.Idx → EReal) (ix2 (0 : Fin 1) k))
    (fun k c' => (V c main_v30 : S128x128.Idx → EReal) (ix2 k c'))
    (⟨(i 1).val, idx2_lt1 i⟩ : Fin 128)

/-- The block indices of the node region's windows, decided over the grid: a row-blocked window sits at block
    (t, 0), a parameter window at block (0, 0). -/
theorem node_idx : ∀ t : Fin cfg1.N,
    (win1_0.index t (0 : Fin 2) = t.val ∧ win1_0.index t (1 : Fin 2) = 0)
    ∧     (win1_1.index t (0 : Fin 2) = t.val ∧ win1_1.index t (1 : Fin 2) = 0)
    ∧     (win1_2.index t (0 : Fin 2) = 0 ∧ win1_2.index t (1 : Fin 2) = 0)
    ∧     (win1_3.index t (0 : Fin 2) = 0 ∧ win1_3.index t (1 : Fin 2) = 0)
    ∧     (win1_4.index t (0 : Fin 2) = 0 ∧ win1_4.index t (1 : Fin 2) = 0)
    ∧     (win1_5.index t (0 : Fin 2) = 0 ∧ win1_5.index t (1 : Fin 2) = 0)
    ∧     (win1_6.index t (0 : Fin 2) = 0 ∧ win1_6.index t (1 : Fin 2) = 0)
    ∧     (win1_7.index t (0 : Fin 2) = 0 ∧ win1_7.index t (1 : Fin 2) = 0)
    ∧     (win1_8.index t (0 : Fin 2) = 0 ∧ win1_8.index t (1 : Fin 2) = 0)
    ∧     (win1_9.index t (0 : Fin 2) = 0 ∧ win1_9.index t (1 : Fin 2) = 0)
    ∧     (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-- Window 0's block at point t, read at (p, a), is its array at row 2000 t + p. -/
theorem node_blk0 (c : Dev nD) (t : Fin cfg1.N) (p : Fin 2000) (a : Fin 128) (r : Fin 50000) (hr : r.val = 2000 * t.val + p.val) :
    (iblk1 V c 0 t : S2000x128.Idx → EReal) (ix2 p a) = (V c main_v26 : S50000x128.Idx → EReal) (ix2 r a) := by
  obtain ⟨e0, e1⟩ := (node_idx t).1
  unfold iblk1
  rw [View.read_apply]
  show (V c main_v26 : S50000x128.Idx → EReal) _ = (V c main_v26 : S50000x128.Idx → EReal) _
  congr 1
  funext b
  apply Fin.ext
  match b with
  | ⟨0, _⟩ => show win1_0.index t (0 : Fin 2) * 2000 + 1 * p.val = r.val; rw [e0, hr]; omega
  | ⟨1, _⟩ => show win1_0.index t (1 : Fin 2) * 128 + 1 * a.val = a.val; rw [e1]; omega

/-- Window 1's block at point t, read at (p, a), is its array at row 2000 t + p. -/
theorem node_blk1 (c : Dev nD) (t : Fin cfg1.N) (p : Fin 2000) (a : Fin 128) (r : Fin 50000) (hr : r.val = 2000 * t.val + p.val) :
    (iblk1 V c 1 t : S2000x128.Idx → EReal) (ix2 p a) = (V c main_arg0 : S50000x128.Idx → EReal) (ix2 r a) := by
  obtain ⟨e0, e1⟩ := (node_idx t).2.1
  unfold iblk1
  rw [View.read_apply]
  show (V c main_arg0 : S50000x128.Idx → EReal) _ = (V c main_arg0 : S50000x128.Idx → EReal) _
  congr 1
  funext b
  apply Fin.ext
  match b with
  | ⟨0, _⟩ => show win1_1.index t (0 : Fin 2) * 2000 + 1 * p.val = r.val; rw [e0, hr]; omega
  | ⟨1, _⟩ => show win1_1.index t (1 : Fin 2) * 128 + 1 * a.val = a.val; rw [e1]; omega

/-- Window 2's block at any point is its whole array. -/
theorem node_blk2 (c : Dev nD) (t : Fin cfg1.N) :
    (iblk1 V c 2 t : S1x256.Idx → EReal) = (V c main_v31 : S1x256.Idx → EReal) := by
  obtain ⟨e0, e1⟩ := (node_idx t).2.2.1
  funext x
  unfold iblk1
  rw [View.read_apply]
  show (V c main_v31 : S1x256.Idx → EReal) _ = (V c main_v31 : S1x256.Idx → EReal) _
  congr 1
  funext b
  apply Fin.ext
  match b with
  | ⟨0, _⟩ => show win1_2.index t (0 : Fin 2) * 1 + 1 * (x 0).val = (x 0).val; rw [e0]; omega
  | ⟨1, _⟩ => show win1_2.index t (1 : Fin 2) * 256 + 1 * (x 1).val = (x 1).val; rw [e1]; omega

/-- Window 3's block at any point is its whole array. -/
theorem node_blk3 (c : Dev nD) (t : Fin cfg1.N) :
    (iblk1 V c 3 t : S1x256.Idx → EReal) = (V c main_v32 : S1x256.Idx → EReal) := by
  obtain ⟨e0, e1⟩ := (node_idx t).2.2.2.1
  funext x
  unfold iblk1
  rw [View.read_apply]
  show (V c main_v32 : S1x256.Idx → EReal) _ = (V c main_v32 : S1x256.Idx → EReal) _
  congr 1
  funext b
  apply Fin.ext
  match b with
  | ⟨0, _⟩ => show win1_3.index t (0 : Fin 2) * 1 + 1 * (x 0).val = (x 0).val; rw [e0]; omega
  | ⟨1, _⟩ => show win1_3.index t (1 : Fin 2) * 256 + 1 * (x 1).val = (x 1).val; rw [e1]; omega

/-- Window 4's block at any point is its whole array. -/
theorem node_blk4 (c : Dev nD) (t : Fin cfg1.N) :
    (iblk1 V c 4 t : S256x256.Idx → EReal) = (V c main_v27 : S256x256.Idx → EReal) := by
  obtain ⟨e0, e1⟩ := (node_idx t).2.2.2.2.1
  funext x
  unfold iblk1
  rw [View.read_apply]
  show (V c main_v27 : S256x256.Idx → EReal) _ = (V c main_v27 : S256x256.Idx → EReal) _
  congr 1
  funext b
  apply Fin.ext
  match b with
  | ⟨0, _⟩ => show win1_4.index t (0 : Fin 2) * 256 + 1 * (x 0).val = (x 0).val; rw [e0]; omega
  | ⟨1, _⟩ => show win1_4.index t (1 : Fin 2) * 256 + 1 * (x 1).val = (x 1).val; rw [e1]; omega

/-- Window 5's block at any point is its whole array. -/
theorem node_blk5 (c : Dev nD) (t : Fin cfg1.N) :
    (iblk1 V c 5 t : S1x256.Idx → EReal) = (V c main_v33 : S1x256.Idx → EReal) := by
  obtain ⟨e0, e1⟩ := (node_idx t).2.2.2.2.2.1
  funext x
  unfold iblk1
  rw [View.read_apply]
  show (V c main_v33 : S1x256.Idx → EReal) _ = (V c main_v33 : S1x256.Idx → EReal) _
  congr 1
  funext b
  apply Fin.ext
  match b with
  | ⟨0, _⟩ => show win1_5.index t (0 : Fin 2) * 1 + 1 * (x 0).val = (x 0).val; rw [e0]; omega
  | ⟨1, _⟩ => show win1_5.index t (1 : Fin 2) * 256 + 1 * (x 1).val = (x 1).val; rw [e1]; omega

/-- Window 6's block at any point is its whole array. -/
theorem node_blk6 (c : Dev nD) (t : Fin cfg1.N) :
    (iblk1 V c 6 t : S256x256.Idx → EReal) = (V c main_v28 : S256x256.Idx → EReal) := by
  obtain ⟨e0, e1⟩ := (node_idx t).2.2.2.2.2.2.1
  funext x
  unfold iblk1
  rw [View.read_apply]
  show (V c main_v28 : S256x256.Idx → EReal) _ = (V c main_v28 : S256x256.Idx → EReal) _
  congr 1
  funext b
  apply Fin.ext
  match b with
  | ⟨0, _⟩ => show win1_6.index t (0 : Fin 2) * 256 + 1 * (x 0).val = (x 0).val; rw [e0]; omega
  | ⟨1, _⟩ => show win1_6.index t (1 : Fin 2) * 256 + 1 * (x 1).val = (x 1).val; rw [e1]; omega

/-- Window 7's block at any point is its whole array. -/
theorem node_blk7 (c : Dev nD) (t : Fin cfg1.N) :
    (iblk1 V c 7 t : S1x256.Idx → EReal) = (V c main_v34 : S1x256.Idx → EReal) := by
  obtain ⟨e0, e1⟩ := (node_idx t).2.2.2.2.2.2.2.1
  funext x
  unfold iblk1
  rw [View.read_apply]
  show (V c main_v34 : S1x256.Idx → EReal) _ = (V c main_v34 : S1x256.Idx → EReal) _
  congr 1
  funext b
  apply Fin.ext
  match b with
  | ⟨0, _⟩ => show win1_7.index t (0 : Fin 2) * 1 + 1 * (x 0).val = (x 0).val; rw [e0]; omega
  | ⟨1, _⟩ => show win1_7.index t (1 : Fin 2) * 256 + 1 * (x 1).val = (x 1).val; rw [e1]; omega

/-- Window 8's block at any point is its whole array. -/
theorem node_blk8 (c : Dev nD) (t : Fin cfg1.N) :
    (iblk1 V c 8 t : S256x128.Idx → EReal) = (V c main_v29 : S256x128.Idx → EReal) := by
  obtain ⟨e0, e1⟩ := (node_idx t).2.2.2.2.2.2.2.2.1
  funext x
  unfold iblk1
  rw [View.read_apply]
  show (V c main_v29 : S256x128.Idx → EReal) _ = (V c main_v29 : S256x128.Idx → EReal) _
  congr 1
  funext b
  apply Fin.ext
  match b with
  | ⟨0, _⟩ => show win1_8.index t (0 : Fin 2) * 256 + 1 * (x 0).val = (x 0).val; rw [e0]; omega
  | ⟨1, _⟩ => show win1_8.index t (1 : Fin 2) * 128 + 1 * (x 1).val = (x 1).val; rw [e1]; omega

/-- Window 9's block at any point is its whole array. -/
theorem node_blk9 (c : Dev nD) (t : Fin cfg1.N) :
    (iblk1 V c 9 t : S1x128.Idx → EReal) = (V c main_v35 : S1x128.Idx → EReal) := by
  obtain ⟨e0, e1⟩ := (node_idx t).2.2.2.2.2.2.2.2.2.1
  funext x
  unfold iblk1
  rw [View.read_apply]
  show (V c main_v35 : S1x128.Idx → EReal) _ = (V c main_v35 : S1x128.Idx → EReal) _
  congr 1
  funext b
  apply Fin.ext
  match b with
  | ⟨0, _⟩ => show win1_9.index t (0 : Fin 2) * 1 + 1 * (x 0).val = (x 0).val; rw [e0]; omega
  | ⟨1, _⟩ => show win1_9.index t (1 : Fin 2) * 128 + 1 * (x 1).val = (x 1).val; rw [e1]; omega

/-- Window 10's block at any point is its whole array. -/
theorem node_blk10 (c : Dev nD) (t : Fin cfg1.N) :
    (iblk1 V c 10 t : S128x128.Idx → EReal) = (V c main_v30 : S128x128.Idx → EReal) := by
  obtain ⟨e0, e1⟩ := (node_idx t).2.2.2.2.2.2.2.2.2.2.1
  funext x
  unfold iblk1
  rw [View.read_apply]
  show (V c main_v30 : S128x128.Idx → EReal) _ = (V c main_v30 : S128x128.Idx → EReal) _
  congr 1
  funext b
  apply Fin.ext
  match b with
  | ⟨0, _⟩ => show win1_10.index t (0 : Fin 2) * 128 + 1 * (x 0).val = (x 0).val; rw [e0]; omega
  | ⟨1, _⟩ => show win1_10.index t (1 : Fin 2) * 128 + 1 * (x 1).val = (x 1).val; rw [e1]; omega

/-- What point t writes back is block t of the node array. -/
theorem node_flushed_eq (c : Dev nD) (t : Fin cfg1.N) :
    (dat1 (F := Ideal) V c).flushed 11 t = ((cfg1.win 11).blk t).view.read (Elt Ideal) (nodeArr V c) := by
  show (cfg1.win 11).cut (grid1.coords t) ((dat1 V c).after 11 t) = _
  rw [after1_11]
  unfold out1_11
  rw [View.canon_unit_zero zeros2]
  simp only [View.ld_unit_zero (S := S2000x128) zeros2, View.ld_unit_zero (S := S1x256) zeros2, View.ld_unit_zero (S := S256x256) zeros2, View.ld_unit_zero (S := S256x128) zeros2, View.ld_unit_zero (S := S1x128) zeros2, View.ld_unit_zero (S := S128x128) zeros2]
  obtain ⟨e0, e1⟩ := (node_idx t).2.2.2.2.2.2.2.2.2.2.2
  have ht : t.val < 25 := Nat.lt_of_lt_of_eq t.isLt N_1
  funext y
  have hp : (y 0).val < 2000 := (y 0).isLt
  have hq : (y 1).val < 128 := (y 1).isLt
  have hrow : 2000 * t.val + (y 0).val < 50000 := by omega
  have hy : (win1 11).xinj (grid1.coords t) y = ix2 (⟨(y 0).val, hp⟩ : Fin 2000) (⟨(y 1).val, hq⟩ : Fin 128) := by
    funext b
    match b with
    | ⟨0, _⟩ => rfl
    | ⟨1, _⟩ => rfl
  have hemb : ((cfg1.win 11).blk t).view.emb y = ix2 (⟨2000 * t.val + (y 0).val, hrow⟩ : Fin 50000) (⟨(y 1).val, hq⟩ : Fin 128) := by
    funext b
    apply Fin.ext
    match b with
    | ⟨0, _⟩ => show win1_11.index t (0 : Fin 2) * 2000 + 1 * (y 0).val = 2000 * t.val + (y 0).val; rw [e0]; omega
    | ⟨1, _⟩ => show win1_11.index t (1 : Fin 2) * 128 + 1 * (y 1).val = (y 1).val; rw [e1]; omega
  dsimp only [Pipeline.Window.cut]
  rw [hy]
  refine (Cert.KernelIdeal.NodeRow.pay_node_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (⟨(y 0).val, hp⟩ : Fin 2000) (⟨(y 1).val, hq⟩ : Fin 128)).trans ?_
  show _ = nodeArr V c (((cfg1.win 11).blk t).view.emb y)
  rw [hemb]
  unfold nodeArr
  have h0 : ∀ a : Fin 128, (iblk1 V c 0 t : S2000x128.Idx → EReal) (ix2 (⟨(y 0).val, hp⟩ : Fin 2000) a) = (V c main_v26 : S50000x128.Idx → EReal) (ix2 (⟨2000 * t.val + (y 0).val, hrow⟩ : Fin 50000) a) :=
    fun a => node_blk0 V c t (⟨(y 0).val, hp⟩ : Fin 2000) a (⟨2000 * t.val + (y 0).val, hrow⟩ : Fin 50000) rfl
  have h1 : ∀ a : Fin 128, (iblk1 V c 1 t : S2000x128.Idx → EReal) (ix2 (⟨(y 0).val, hp⟩ : Fin 2000) a) = (V c main_arg0 : S50000x128.Idx → EReal) (ix2 (⟨2000 * t.val + (y 0).val, hrow⟩ : Fin 50000) a) :=
    fun a => node_blk1 V c t (⟨(y 0).val, hp⟩ : Fin 2000) a (⟨2000 * t.val + (y 0).val, hrow⟩ : Fin 50000) rfl
  simp only [h0, h1, node_blk2 V c t, node_blk3 V c t, node_blk4 V c t, node_blk5 V c t, node_blk6 V c t, node_blk7 V c t, node_blk8 V c t, node_blk9 V c t, node_blk10 V c t]

/-- An entry of the array is in point t's block iff each coordinate is in the block's range on its axis. -/
theorem node_mem_blk (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v36).slice (win1_11.rect t)).set ↔ _
  rw [View.set_slice_whole, Rect.mem_set_unit]
  exact Iff.rfl

/-- Every entry is in the block of the point its row falls under: row r is written at point r / 2000. -/
theorem node_cover (i : S50000x128.Idx) :
    ∃ t : Fin cfg1.N, (cfg1.win 11).flush t = true ∧ i ∈ ((cfg1.win 11).blk t).view.set := by
  have hi0 : (i 0).val < 50000 := idx2_lt0 i
  have hi1 : (i 1).val < 128 := idx2_lt1 i
  have hN : cfg1.N = 25 := N_1
  have hlt : (i 0).val / 2000 < cfg1.N := by rw [hN]; omega
  refine ⟨⟨(i 0).val / 2000, hlt⟩, flush1_11 _, ?_⟩
  obtain ⟨e0, e1⟩ := (node_idx ⟨(i 0).val / 2000, hlt⟩).2.2.2.2.2.2.2.2.2.2.2
  rw [node_mem_blk]
  intro a
  match a with
  | ⟨0, _⟩ =>
    show win1_11.index ⟨(i 0).val / 2000, hlt⟩ (0 : Fin 2) * 2000 ≤ (i 0).val ∧ (i 0).val < win1_11.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_11.index ⟨(i 0).val / 2000, hlt⟩ (1 : Fin 2) * 128 ≤ (i 1).val ∧ (i 1).val < win1_11.index ⟨(i 0).val / 2000, hlt⟩ (1 : Fin 2) * 128 + 128
    rw [e1]
    omega

/-- The node array after the region is the row-wise update of the arrays the region finds. -/
theorem node_final (c : Dev nD) : (dat1 (F := Ideal) V c).arrAt 11 cfg1.N = nodeArr V c :=
  (dat1 (F := Ideal) V c).arrAt_eq_of_cover 11 (nodeArr V c) (fun t _ => node_flushed_eq V c t) node_cover

/-- The same, entry by entry. -/
theorem final11 (c : Dev nD) (r : Fin 50000) (j : Fin 128) :
    ((dat1 (F := Ideal) V c).arrAt 11 cfg1.N : S50000x128.Idx → EReal) (ix2 r j)
      = Cert.RowMath.nodeRow (Cert.RowMath.lnK Cert.Consts.N256 Cert.Consts.eps)
          (fun a => (V c main_v26 : S50000x128.Idx → EReal) (ix2 r a))
          (fun a => (V c main_arg0 : S50000x128.Idx → EReal) (ix2 r a))
          (fun k => (V c main_v31 : S1x256.Idx → EReal) (ix2 (0 : Fin 1) k))
          (fun k => (V c main_v32 : S1x256.Idx → EReal) (ix2 (0 : Fin 1) k))
          (fun k c' => (V c main_v27 : S256x256.Idx → EReal) (ix2 k c'))
          (fun k => (V c main_v33 : S1x256.Idx → EReal) (ix2 (0 : Fin 1) k))
          (fun k c' => (V c main_v28 : S256x256.Idx → EReal) (ix2 k c'))
          (fun k => (V c main_v34 : S1x256.Idx → EReal) (ix2 (0 : Fin 1) k))
          (fun k c' => (V c main_v29 : S256x128.Idx → EReal) (ix2 k c'))
          (fun k => (V c main_v35 : S1x128.Idx → EReal) (ix2 (0 : Fin 1) k))
          (fun k c' => (V c main_v30 : S128x128.Idx → EReal) (ix2 k c'))
          j := by
  rw [node_final V c]
  rfl

end Cert.KernelIdeal.Regions

end
-- ==== Proof.PreIdx.lean ====
/-
  The added precondition read back at the edge-index array. The precondition is one conjunction: twenty tests
  that the float inputs are finite, then the test that every entry of the [2, 400000] index array lies in
  [0, 50000) as a signed 32-bit word. Only the last conjunct is opened here: the conjunction being one, its
  last member is one; that member is an all-reduction by `and` of an elementwise conjunction of two word
  comparisons against broadcast constants, so both comparisons hold at every entry. Two consequences for a
  word in that range follow: the wrap-around applied to negative indices does not change it, and it is at most
  49999.
-/
import proofs.«417122_j62947040690377_3_alg».proof.Defs
import Idealize.ShloMosaic.Lib.ReduceAll
import Idealize.ShloMosaic.Lib.StableHlo.Predicate
import Idealize.ShloMosaic.Lib.ValueIdx

noncomputable section

namespace Cert.PreIdx

open Idealize.ShloMosaic Idealize.SL.Sem

/-- The scalar shape has one index. -/
instance : Subsingleton Cert.Pre_finite_inputs.S_.Idx := ⟨fun a b => funext fun d => d.elim0⟩

/-- Every entry of the edge-index array is in [0, 50000) as a signed word: the last conjunct of the precondition,
    an all-reduction by `and` of the two elementwise comparisons against the broadcast constants, read at one entry. -/
theorem idx_in_range [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2x400000.Idx) :
    IntOp.cmpi .sge (m ((c.tc : Thread Cert.KernelIdeal.nD Cert.KernelIdeal.τ).loc Cert.KernelIdeal.main_arg2) i) 0#32 = 1#1
    ∧ IntOp.cmpi .slt (m ((c.tc : Thread Cert.KernelIdeal.nD Cert.KernelIdeal.τ).loc Cert.KernelIdeal.main_arg2) i) 50000#32 = 1#1 := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  -- the whole value is the conjunction of the float conjuncts with the index conjunct
  obtain ⟨-, hl⟩ := IntOp.andi_eq_one.1 e
  -- an all-reduction by `and` that is one is one at every entry
  have hi := Host.reduce_andi_all _ _ _ _ _ hl i
  obtain ⟨h0, h1⟩ := IntOp.andi_eq_one.1 hi
  exact ⟨h0, h1⟩

/-- A word in [0, 50000) is not negative, so the wrap-around of a negative index leaves it alone. -/
theorem wrap_select (x : BitVec 32) (h0 : IntOp.cmpi .sge x 0#32 = 1#1) :
    Scalar.select (IntOp.cmpi .slt x 0#32) (IntOp.addi x 50000#32) x = x := by
  rw [IntOp.cmpi_sge] at h0
  have hn : ¬ IntOp.cmpi .slt x 0#32 = 1#1 := by rw [IntOp.cmpi_slt]; omega
  unfold Scalar.select
  exact if_neg hn

/-- A word below 50000 is at most 49999. -/
theorem wrap_sle (x : BitVec 32) (h1 : IntOp.cmpi .slt x 50000#32 = 1#1) : IntOp.cmpi .sle x 49999#32 = 1#1 := by
  rw [IntOp.cmpi_slt] at h1
  have z1 : (50000#32 : BitVec 32).toInt = 50000 := by decide
  have z2 : (49999#32 : BitVec 32).toInt = 49999 := by decide
  rw [IntOp.cmpi_sle]; omega

/-- Both facts the index mask needs, of a word in [0, 50000). -/
theorem wrap_mask (x : BitVec 32) (h0 : IntOp.cmpi .sge x 0#32 = 1#1) (h1 : IntOp.cmpi .slt x 50000#32 = 1#1) :
    Scalar.select (IntOp.cmpi .slt x 0#32) (IntOp.addi x 50000#32) x = x ∧ IntOp.cmpi .sle x 49999#32 = 1#1 :=
  ⟨wrap_select x h0, wrap_sle x h1⟩

end Cert.PreIdx

end
-- ==== Proof.KerHost.lean ====
/-
  What the host operations before the edge region leave in the buffers that region reads, at the exact
  (extended-real) reading of the float operations, as facts about the buffer contents at the region's entry.

  The weights converted to the narrower float type are the weights themselves (the conversion is the identity on
  extended reals); the bias and LayerNorm vectors reshaped `[n] → [1, n]` read entry by entry; the node rows
  gathered at the two rows of the edge-index array are `takeRow` and `takeCol`: the index normalised (a negative
  index counts from the end), the rows gathered there, and NaN put where the normalised index is out of range.
  Under the hypothesis that every index lies in `[0, 50000)` the normalisation is the identity, the range mask is
  all ones, and the selection returns the gathered rows.
-/
import proofs.«417122_j62947040690377_3_alg».proof.Proof.Gen.KernelIdeal.Frame
import Idealize.ShloMosaic.Lib.StableHlo.Run
import Idealize.ShloMosaic.Lib.ValueIdx
import Idealize.ShloMosaic.Lib.ValueLayout
import Idealize.ShloMosaic.Lib.StableHlo.Predicate
import Idealize.ShloMosaic.Lib.ReduceAll
import Idealize.ShloMosaic.PureOps.Reduce
import proofs.«417122_j62947040690377_3_alg».proof.Proof.PreIdx

set_option maxRecDepth 16384

noncomputable section

namespace Cert.KernelIdeal.HostVals

open Idealize.ShloMosaic Idealize.ShloMosaic.TcCoe Idealize.ShloMosaic.ValueIdx
open Cert.KernelIdeal Cert.KernelIdeal.Gen

/-! ## The composed terms of the index slices and of the two gathers -/

section Defs
variable {F : FTy → Type} [FloatOps F]

/-- Row `r` of the `[2, E]` edge-index array as a flat `[E]` array: the slice `[r:r+1, 0:E]` with its unit axis dropped. -/
def rowIdx (ei : IVec S2x400000 32) : IVec S400000 32 :=
  shapeCast S400000 (extractStridedSlice S1x400000 ![0, 0] ei slices_S2x400000_S1x400000_0_0) shapeCasts_S1x400000_S400000
@[inherit_doc rowIdx]
def colIdx (ei : IVec S2x400000 32) : IVec S400000 32 :=
  shapeCast S400000 (extractStridedSlice S1x400000 ![1, 0] ei slices_S2x400000_S1x400000_1_0) shapeCasts_S1x400000_S400000

/-- The index normalisation of `x[idx]`: a negative index counts from the end (`idx + 50000`), and the result is
    given a trailing unit axis. -/
def wrapIdx (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 50000#32))) idx)

/-- Where the normalised index lies in `[0, 49999]`, spread along the 128 columns. -/
def inRange (w : IVec S400000x1 32) : IVec S400000x128 1 :=
  broadcastInDim S400000x128 ![0] bcast_S400000_S400000x128_0
    (Host.reduce IntOp.andi
      (andi (cmpi .sge w (broadcastInDim S400000x1 ![] bcast_S_S400000x1 (constantI S_ 32 0#32)))
        (cmpi .sle w (broadcastInDim S400000x1 ![0, 1] bcast_S1x1_S400000x1_0_1
          (broadcastInDim S1x1 ![1] bcast_S1_S1x1_1 (constantI S1 32 49999#32)))))
      (constantI S_ 1 1#1) reducesTo_S400000x1_S400000_d1 h_S_)

/-- The rows of `x` at the normalised indices: the gather alone. -/
def gatherOnly (x : FVec F S50000x128 .f32) (idx : IVec S400000 32) : FVec F S400000x128 .f32 :=
  Host.gather gather_S50000x128_S400000x1_S400000x128_1_0_n_n_0_1_1128 x (wrapIdx idx)

/-- `x[idx]` in fill mode: the gathered row where the normalised index is in range, NaN elsewhere. -/
def take (x : FVec F S50000x128 .f32) (idx : IVec S400000 32) : FVec F S400000x128 .f32 :=
  select (inRange (wrapIdx idx)) (gatherOnly x idx)
    (broadcastInDim S400000x128 ![] bcast_S_S400000x128 (constant S_ .f32 0x7FC00000#32))

/-- The node rows at the edges' sources (row 0 of the edge index) and destinations (row 1). -/
def takeRow (x : FVec F S50000x128 .f32) (ei : IVec S2x400000 32) : FVec F S400000x128 .f32 := take x (rowIdx ei)
@[inherit_doc takeRow]
def takeCol (x : FVec F S50000x128 .f32) (ei : IVec S2x400000 32) : FVec F S400000x128 .f32 := take x (colIdx ei)

end Defs

/-! ## Under the range hypothesis the gathers are plain -/

section Range
variable {F : FTy → Type} [FloatOps F]

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    exact foldl_andi_one f l _ (IntOp.andi_eq_one.2 ⟨hi, h a List.mem_cons_self⟩) fun n hn => h n (List.mem_cons_of_mem _ hn)

/-- A reduction by `and` from 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_one x _ _ hinit fun n _ => hx n

/-- The normalisation leaves a flat index array of nonnegative words alone. -/
theorem wrapIdx_eq (idx : IVec S400000 32) (h0 : ∀ q, IntOp.cmpi .sge (idx q) 0#32 = 1#1) :
    wrapIdx idx = broadcastInDim S400000x1 ![0] bcast_S400000_S400000x1_0 idx := by
  unfold wrapIdx
  congr 1
  funext q
  exact Cert.PreIdx.wrap_select (idx q) (h0 q)

/-- The range mask of a column of words in `[0, 50000)` is 1 everywhere. -/
theorem inRange_one (w : IVec S400000x1 32)
    (hw : ∀ p, IntOp.cmpi .sge (w p) 0#32 = 1#1 ∧ IntOp.cmpi .slt (w p) 50000#32 = 1#1) (y : S400000x128.Idx) :
    inRange w y = 1#1 := by
  unfold inRange broadcastInDim
  refine reduce_andi_one _ _ _ _ rfl (fun p => ?_) _
  exact IntOp.andi_eq_one.2 ⟨(hw p).1, Cert.PreIdx.wrap_sle (w p) (hw p).2⟩

/-- With every index in `[0, 50000)` the fill-mode gather is the gather. -/
theorem take_eq_gather (x : FVec F S50000x128 .f32) (idx : IVec S400000 32)
    (hr : ∀ q, IntOp.cmpi .sge (idx q) 0#32 = 1#1 ∧ IntOp.cmpi .slt (idx q) 50000#32 = 1#1) :
    take x idx = gatherOnly x idx := by
  funext y
  unfold take
  rw [select_apply, inRange_one _ (fun p => ?_), select_one]
  rw [wrapIdx_eq idx fun q => (hr q).1]
  exact hr _

variable (x : FVec F S50000x128 .f32) (ei : IVec S2x400000 32)
  (hr : ∀ i : S2x400000.Idx, IntOp.cmpi .sge (ei i) 0#32 = 1#1 ∧ IntOp.cmpi .slt (ei i) 50000#32 = 1#1)

include hr in
theorem takeRow_eq : takeRow x ei = gatherOnly x (rowIdx ei) :=
  take_eq_gather x (rowIdx ei) fun q => hr _

include hr in
theorem takeCol_eq : takeCol x ei = gatherOnly x (colIdx ei) :=
  take_eq_gather x (colIdx ei) fun q => hr _

end Range

/-! ## The edge region's entry contents -/

variable (m : (ℓ : Loc nD τ sig) → Buf (Elt Ideal) ℓ) (ρ : Dev nD → PrngReg) (c : Dev nD)

/-- The edge features enter the region as launched. -/
theorem W4_arg1 : Gen.W4 m ρ c (Proc.devRef .tc main_arg1) = m ((c : Thread nD τ).loc main_arg1) := by
  dsimp only [Gen.W4, Gen.W3, Gen.W2, Gen.W1, Gen.W0]
  simp only [Gen.hostOps0, Gen.hostOps0_1, Gen.hostOps0_2, Gen.hostOps0_3]
  after_results_simp

/-- The four weight matrices, converted to the narrower float type: the conversion is the identity. -/
theorem W4_v6 : (Gen.W4 m ρ c (Proc.devRef .tc main_v6) : S384x256.Idx → EReal) = m ((c : Thread nD τ).loc main_arg5) := by
  dsimp only [Gen.W4, Gen.W3, Gen.W2, Gen.W1, Gen.W0]
  simp only [Gen.hostOps0, Gen.hostOps0_1, Gen.hostOps0_2, Gen.hostOps0_3]
  after_results_simp
  rfl

theorem W4_v7 : (Gen.W4 m ρ c (Proc.devRef .tc main_v7) : S256x256.Idx → EReal) = m ((c : Thread nD τ).loc main_arg7) := by
  dsimp only [Gen.W4, Gen.W3, Gen.W2, Gen.W1, Gen.W0]
  simp only [Gen.hostOps0, Gen.hostOps0_1, Gen.hostOps0_2, Gen.hostOps0_3]
  after_results_simp
  rfl

theorem W4_v8 : (Gen.W4 m ρ c (Proc.devRef .tc main_v8) : S256x128.Idx → EReal) = m ((c : Thread nD τ).loc main_arg9) := by
  dsimp only [Gen.W4, Gen.W3, Gen.W2, Gen.W1, Gen.W0]
  simp only [Gen.hostOps0, Gen.hostOps0_1, Gen.hostOps0_2, Gen.hostOps0_3]
  after_results_simp
  rfl

theorem W4_v9 : (Gen.W4 m ρ c (Proc.devRef .tc main_v9) : S128x128.Idx → EReal) = m ((c : Thread nD τ).loc main_arg11) := by
  dsimp only [Gen.W4, Gen.W3, Gen.W2, Gen.W1, Gen.W0]
  simp only [Gen.hostOps0, Gen.hostOps0_1, Gen.hostOps0_2, Gen.hostOps0_3]
  after_results_simp
  rfl

/-- The LayerNorm scale and shift and the three biases, given a leading unit axis: entry `(0, k)` is entry `k`. -/
theorem W4_v10 (k : Fin 384) : (Gen.W4 m ρ c (Proc.devRef .tc main_v10) : S1x384.Idx → EReal) (ix2 (0 : Fin 1) k) = m ((c : Thread nD τ).loc main_arg3) (ix1 k) := by
  dsimp only [Gen.W4, Gen.W3, Gen.W2, Gen.W1, Gen.W0]
  simp only [Gen.hostOps0, Gen.hostOps0_1, Gen.hostOps0_2, Gen.hostOps0_3]
  after_results_simp
  exact shapeCast_a_1a_apply _ _ 0 k

theorem W4_v11 (k : Fin 384) : (Gen.W4 m ρ c (Proc.devRef .tc main_v11) : S1x384.Idx → EReal) (ix2 (0 : Fin 1) k) = m ((c : Thread nD τ).loc main_arg4) (ix1 k) := by
  dsimp only [Gen.W4, Gen.W3, Gen.W2, Gen.W1, Gen.W0]
  simp only [Gen.hostOps0, Gen.hostOps0_1, Gen.hostOps0_2, Gen.hostOps0_3]
  after_results_simp
  exact shapeCast_a_1a_apply _ _ 0 k

theorem W4_v12 (k : Fin 256) : (Gen.W4 m ρ c (Proc.devRef .tc main_v12) : S1x256.Idx → EReal) (ix2 (0 : Fin 1) k) = m ((c : Thread nD τ).loc main_arg6) (ix1 k) := by
  dsimp only [Gen.W4, Gen.W3, Gen.W2, Gen.W1, Gen.W0]
  simp only [Gen.hostOps0, Gen.hostOps0_1, Gen.hostOps0_2, Gen.hostOps0_3]
  after_results_simp
  exact shapeCast_a_1a_apply _ _ 0 k

theorem W4_v13 (k : Fin 256) : (Gen.W4 m ρ c (Proc.devRef .tc main_v13) : S1x256.Idx → EReal) (ix2 (0 : Fin 1) k) = m ((c : Thread nD τ).loc main_arg8) (ix1 k) := by
  dsimp only [Gen.W4, Gen.W3, Gen.W2, Gen.W1, Gen.W0]
  simp only [Gen.hostOps0, Gen.hostOps0_1, Gen.hostOps0_2, Gen.hostOps0_3]
  after_results_simp
  exact shapeCast_a_1a_apply _ _ 0 k

theorem W4_v14 (k : Fin 128) : (Gen.W4 m ρ c (Proc.devRef .tc main_v14) : S1x128.Idx → EReal) (ix2 (0 : Fin 1) k) = m ((c : Thread nD τ).loc main_arg10) (ix1 k) := by
  dsimp only [Gen.W4, Gen.W3, Gen.W2, Gen.W1, Gen.W0]
  simp only [Gen.hostOps0, Gen.hostOps0_1, Gen.hostOps0_2, Gen.hostOps0_3]
  after_results_simp
  exact shapeCast_a_1a_apply _ _ 0 k

/-- Row 1 of the edge index, flat: the destinations. -/
theorem W4_v3 : (Gen.W4 m ρ c (Proc.devRef .tc main_v3) : IVec S400000 32) = colIdx (m ((c : Thread nD τ).loc main_arg2)) := by
  dsimp only [Gen.W4, Gen.W3, Gen.W2, Gen.W1, Gen.W0]
  simp only [Gen.hostOps0, Gen.hostOps0_1, Gen.hostOps0_2, Gen.hostOps0_3]
  after_results_simp
  rfl

/-- Row 0 of the edge index, flat: the sources. -/
theorem W4_v1 : (Gen.W4 m ρ c (Proc.devRef .tc main_v1) : IVec S400000 32) = rowIdx (m ((c : Thread nD τ).loc main_arg2)) := by
  dsimp only [Gen.W4, Gen.W3, Gen.W2, Gen.W1, Gen.W0]
  simp only [Gen.hostOps0, Gen.hostOps0_1, Gen.hostOps0_2, Gen.hostOps0_3]
  after_results_simp
  rfl

attribute [local irreducible] Host.gather Host.scatterAdd Host.reduce in
/-- The node rows gathered at the sources (and, next, at the destinations). -/
theorem W4_v4 : (Gen.W4 m ρ c (Proc.devRef .tc main_v4) : FVec Ideal S400000x128 .f32)
    = takeRow (F := Ideal) (m ((c : Thread nD τ).loc main_arg0)) (m ((c : Thread nD τ).loc main_arg2)) := by
  dsimp only [Gen.W4, Gen.W3, Gen.W2, Gen.W1, Gen.W0]
  simp only [Gen.hostOps0, Gen.hostOps0_1, Gen.hostOps0_2, Gen.hostOps0_3]
  after_results_simp
  unfold takeRow take gatherOnly inRange wrapIdx rowIdx
  rfl

attribute [local irreducible] Host.gather Host.scatterAdd Host.reduce in
theorem W4_v5 : (Gen.W4 m ρ c (Proc.devRef .tc main_v5) : FVec Ideal S400000x128 .f32)
    = takeCol (F := Ideal) (m ((c : Thread nD τ).loc main_arg0)) (m ((c : Thread nD τ).loc main_arg2)) := by
  dsimp only [Gen.W4, Gen.W3, Gen.W2, Gen.W1, Gen.W0]
  simp only [Gen.hostOps0, Gen.hostOps0_1, Gen.hostOps0_2, Gen.hostOps0_3]
  after_results_simp
  unfold takeCol take gatherOnly inRange wrapIdx colIdx
  rfl

end Cert.KernelIdeal.HostVals

end
-- ==== Proof.KerHostB.lean ====
/-
  The kernel program's buffers at the boundaries of its segments, read back as terms over the launch memory.
  The program is: four stretches of whole-array operations (the two index rows flattened, the node rows gathered,
  the edge update's weights narrowed and its vectors reshaped to one row), the edge update as a blocked region,
  three more stretches (the scatter-mean of the new edge rows over destination nodes: a count and a sum scattered
  into zeros, the count clamped below at one, the quotient; then the node update's weights narrowed and its
  vectors reshaped), and the node update as a blocked region. Here: the destination row the first stretch
  leaves; the scatter-mean the middle stretches leave, as a function of region 0's result and that row; region
  1's parameters as the launch memory's (the narrowing is the identity on the extended reals, a reshape to one
  row reads the vector); and where the two regions' results sit at the end.
-/
import proofs.«417122_j62947040690377_3_alg».proof.Proof.Gen.KernelIdeal.Frame
import Idealize.ShloMosaic.Lib.StableHlo.Run
import Idealize.ShloMosaic.Lib.ValueIdx
import Idealize.ShloMosaic.Lib.ValueLayout

set_option maxRecDepth 16384

noncomputable section

namespace Cert.KernelIdeal.HostValsB

open Cert.KernelIdeal Cert.KernelIdeal.Gen Idealize.ShloMosaic Idealize.ShloMosaic.StableHlo Idealize.ShloMosaic.ValueIdx
open Idealize.ShloMosaic.TcCoe Idealize.SL.Sem

variable {F : FTy → Type} [FloatOps F]

/-! ## The terms the host stretches compute -/

/-- Row 1 of the edge table, flattened: the destination node of each edge. -/
def colIdxK (ei : IVec S2x400000 32) : IVec S400000 32 :=
  shapeCast S400000 (extractStridedSlice S1x400000 ![1, 0] ei slices_S2x400000_S1x400000_1_0) shapeCasts_S1x400000_S400000

/-- How many edges end at each node: ones scattered-and-added into zeros at the destination indices. -/
def cntK (col : IVec S400000 32) : FVec F S50000 .f32 :=
  Host.scatterAdd scatter_S50000_S400000x1_S400000_n_0_0_1
    (broadcastInDim S50000 ![] bcast_S_S50000 (constant S_ .f32 0x00000000#32))
    (broadcastInDim S400000x1 ![0] bcast_S400000_S400000x1_0 col)
    (broadcastInDim S400000 ![] bcast_S_S400000 (constant S_ .f32 0x3F800000#32))

/-- The sum of the edge rows ending at each node: the rows scattered-and-added into zeros. -/
def esumK (e : FVec F S400000x128 .f32) (col : IVec S400000 32) : FVec F S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 col) e

/-- The scatter-mean: each node's sum of incoming edge rows over its count of incoming edges, the count
    clamped below at one. -/
def aggrK (e : FVec F S400000x128 .f32) (col : IVec S400000 32) : FVec F S50000x128 .f32 :=
  Host.divf (esumK e col)
    (broadcastInDim S50000x128 ![0, 1] bcast_S50000x1_S50000x128_0_1
      (broadcastInDim S50000x1 ![0] bcast_S50000_S50000x1_0
        (maximumf (broadcastInDim S50000 ![] bcast_S_S50000 (constant S_ .f32 0x3F800000#32)) (cntK col))))

/-- A host stretch leaves alone a buffer none of its operations writes: each operation's written set is one literal
    reference, and distinct references are distinct buffers. -/
local macro "keeps" : tactic => `(tactic| (
  refine StableHlo.after_of_forall_not_mem _ _ (List.forall_iff_forall_mem.mp ?_)
  simp only [hostOps0, hostOps0_1, hostOps0_2, hostOps0_3, hostOps1, hostOps1_1, hostOps1_2,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What a stretch leaves at one buffer, over any entry contents -/

/-- The first stretch leaves the flattened destination row at `%3`. -/
theorem host0_v3 (X : Valuation τ sig (Elt F)) :
    after hostOps0 X (Proc.devRef .tc main_v3) = colIdxK (X (Proc.devRef .tc main_arg2)) := by
  after_results; rfl

attribute [local irreducible] Host.scatterAdd in
/-- The stretch after region 0 leaves the per-node edge count at `%19`. -/
theorem host1_v19 (X : Valuation τ sig (Elt F)) :
    after hostOps1 X (Proc.devRef .tc main_v19) = cntK (X (Proc.devRef .tc main_v3)) := by
  after_results; rfl

attribute [local irreducible] Host.scatterAdd in
/-- The stretch after region 0 leaves the per-node sum of the new edge rows at `%22`. -/
theorem host1_v22 (X : Valuation τ sig (Elt F)) :
    after hostOps1 X (Proc.devRef .tc main_v22) = esumK (X (Proc.devRef .tc main_v15)) (X (Proc.devRef .tc main_v3)) := by
  after_results; rfl

/-- The stretch after region 0 leaves the constant one at its last constant's buffer. -/
theorem host1_cst_2 (X : Valuation τ sig (Elt F)) :
    (after hostOps1 X (Proc.devRef .tc main_cst_2) : FVec F S_ .f32) = constant S_ .f32 0x3F800000#32 := by
  after_results

/-- The clamp: the count's maximum with the broadcast constant. -/
theorem host1_1_v23 (Y : Valuation τ sig (Elt F)) :
    (after hostOps1_1 Y (Proc.devRef .tc main_v23) : FVec F S50000 .f32)
      = maximumf (broadcastInDim S50000 ![] bcast_S_S50000 (Y (Proc.devRef .tc main_cst_2))) (Y (Proc.devRef .tc main_v19)) := by
  after_results; rfl

/-- The quotient of the sums by the clamped count broadcast along the rows. -/
theorem host1_2_v26 (Z : Valuation τ sig (Elt F)) :
    (after hostOps1_2 Z (Proc.devRef .tc main_v26) : FVec F S50000x128 .f32)
      = Host.divf (Z (Proc.devRef .tc main_v22))
          (broadcastInDim S50000x128 ![0, 1] bcast_S50000x1_S50000x128_0_1
            (broadcastInDim S50000x1 ![0] bcast_S50000_S50000x1_0 (Z (Proc.devRef .tc main_v23)))) := by
  after_results

/-- The three stretches between the two regions leave the scatter-mean of `%15` over `%3` at `%26`. -/
theorem host1_v26 (X : Valuation τ sig (Elt F)) :
    after hostOps1_2 (after hostOps1_1 (after hostOps1 X)) (Proc.devRef .tc main_v26)
      = aggrK (X (Proc.devRef .tc main_v15)) (X (Proc.devRef .tc main_v3)) := by
  have k22 : after hostOps1_1 (after hostOps1 X) (Proc.devRef .tc main_v22) = after hostOps1 X (Proc.devRef .tc main_v22) := by keeps
  rw [host1_2_v26, host1_1_v23, k22, host1_v22, host1_cst_2, host1_v19]
  rfl

/-! ## The buffers at the segment boundaries -/

variable (m : (ℓ : Loc nD τ sig) → Buf (Elt F) ℓ) (ρ : Dev nD → PrngReg)

/-- At region 0's entry `%3` holds the destination row of the launch memory's edge table: the first stretch writes
    it, the next three do not. -/
theorem W4_v3 (c : Dev nD) :
    W4 m ρ c (Proc.devRef .tc main_v3) = colIdxK (m ((c : Thread nD τ).loc main_arg2)) := by
  have h3 : W4 m ρ c (Proc.devRef .tc main_v3) = W3 m ρ c (Proc.devRef .tc main_v3) := by keeps
  have h2 : W3 m ρ c (Proc.devRef .tc main_v3) = W2 m ρ c (Proc.devRef .tc main_v3) := by keeps
  have h1 : W2 m ρ c (Proc.devRef .tc main_v3) = W1 m ρ c (Proc.devRef .tc main_v3) := by keeps
  rw [h3, h2, h1]
  exact host0_v3 (W0 m ρ c)

/-- At region 1's entry `%26` holds the scatter-mean of region 0's result over the destination row (region 0
    does not write `%3`). -/
theorem W8_v26 (c : Dev nD) :
    W8 m ρ c (Proc.devRef .tc main_v26)
      = aggrK (W5 m ρ c (Proc.devRef .tc main_v15)) (W4 m ρ c (Proc.devRef .tc main_v3)) := by
  have h := host1_v26 (W5 m ρ c)
  rw [W5_of_ne m ρ c main_v3 (by decide)] at h
  exact h

/-- Region 1's result array is its window 11. -/
theorem W9_v36 (c : Dev nD) : W9 m ρ c (Proc.devRef .tc main_v36) = (dat1 (V8 m ρ) c).arrAt 11 cfg1.N :=
  W9_arr m ρ c 11

/-- Nothing after region 0 writes its result array `%15`. -/
theorem W9_v15 (c : Dev nD) : W9 m ρ c (Proc.devRef .tc main_v15) = W5 m ρ c (Proc.devRef .tc main_v15) := by
  have h8 : W8 m ρ c (Proc.devRef .tc main_v15) = W7 m ρ c (Proc.devRef .tc main_v15) := by keeps
  have h7 : W7 m ρ c (Proc.devRef .tc main_v15) = W6 m ρ c (Proc.devRef .tc main_v15) := by keeps
  have h6 : W6 m ρ c (Proc.devRef .tc main_v15) = W5 m ρ c (Proc.devRef .tc main_v15) := by keeps
  rw [W9_of_ne m ρ c main_v15 (by decide), h8, h7, h6]

/-- Region 0's result array is its window 12. -/
theorem W5_v15 (c : Dev nD) : W5 m ρ c (Proc.devRef .tc main_v15) = (dat0 (V4 m ρ) c).arrAt 12 cfg0.N :=
  W5_arr m ρ c 12

/-- The node table is an input window of region 1, so region 1 leaves it as entered; it ends as launched. -/
theorem W8_arg0 (c : Dev nD) : W8 m ρ c (Proc.devRef .tc main_arg0) = m ((c : Thread nD τ).loc main_arg0) :=
  ((W9_arr m ρ c 1).trans (((dat1 (V8 m ρ) c).arrAt_in 1 rfl _).trans (A_eq1 (V8 m ρ) c 1))).symm.trans (W9_main_arg0 m ρ c)

/-! ### The node update's parameters before the last stretch: the last stretch and region 1 write none of them -/

theorem W7_arg12 (c : Dev nD) : W7 m ρ c (Proc.devRef .tc main_arg12) = m ((c : Thread nD τ).loc main_arg12) := by
  have h8 : W8 m ρ c (Proc.devRef .tc main_arg12) = W7 m ρ c (Proc.devRef .tc main_arg12) := by keeps
  rw [← h8, ← W9_of_ne m ρ c main_arg12 (by decide)]
  exact W9_main_arg12 m ρ c

theorem W7_arg13 (c : Dev nD) : W7 m ρ c (Proc.devRef .tc main_arg13) = m ((c : Thread nD τ).loc main_arg13) := by
  have h8 : W8 m ρ c (Proc.devRef .tc main_arg13) = W7 m ρ c (Proc.devRef .tc main_arg13) := by keeps
  rw [← h8, ← W9_of_ne m ρ c main_arg13 (by decide)]
  exact W9_main_arg13 m ρ c

theorem W7_arg14 (c : Dev nD) : W7 m ρ c (Proc.devRef .tc main_arg14) = m ((c : Thread nD τ).loc main_arg14) := by
  have h8 : W8 m ρ c (Proc.devRef .tc main_arg14) = W7 m ρ c (Proc.devRef .tc main_arg14) := by keeps
  rw [← h8, ← W9_of_ne m ρ c main_arg14 (by decide)]
  exact W9_main_arg14 m ρ c

theorem W7_arg15 (c : Dev nD) : W7 m ρ c (Proc.devRef .tc main_arg15) = m ((c : Thread nD τ).loc main_arg15) := by
  have h8 : W8 m ρ c (Proc.devRef .tc main_arg15) = W7 m ρ c (Proc.devRef .tc main_arg15) := by keeps
  rw [← h8, ← W9_of_ne m ρ c main_arg15 (by decide)]
  exact W9_main_arg15 m ρ c

theorem W7_arg16 (c : Dev nD) : W7 m ρ c (Proc.devRef .tc main_arg16) = m ((c : Thread nD τ).loc main_arg16) := by
  have h8 : W8 m ρ c (Proc.devRef .tc main_arg16) = W7 m ρ c (Proc.devRef .tc main_arg16) := by keeps
  rw [← h8, ← W9_of_ne m ρ c main_arg16 (by decide)]
  exact W9_main_arg16 m ρ c

theorem W7_arg17 (c : Dev nD) : W7 m ρ c (Proc.devRef .tc main_arg17) = m ((c : Thread nD τ).loc main_arg17) := by
  have h8 : W8 m ρ c (Proc.devRef .tc main_arg17) = W7 m ρ c (Proc.devRef .tc main_arg17) := by keeps
  rw [← h8, ← W9_of_ne m ρ c main_arg17 (by decide)]
  exact W9_main_arg17 m ρ c

theorem W7_arg18 (c : Dev nD) : W7 m ρ c (Proc.devRef .tc main_arg18) = m ((c : Thread nD τ).loc main_arg18) := by
  have h8 : W8 m ρ c (Proc.devRef .tc main_arg18) = W7 m ρ c (Proc.devRef .tc main_arg18) := by keeps
  rw [← h8, ← W9_of_ne m ρ c main_arg18 (by decide)]
  exact W9_main_arg18 m ρ c

theorem W7_arg19 (c : Dev nD) : W7 m ρ c (Proc.devRef .tc main_arg19) = m ((c : Thread nD τ).loc main_arg19) := by
  have h8 : W8 m ρ c (Proc.devRef .tc main_arg19) = W7 m ρ c (Proc.devRef .tc main_arg19) := by keeps
  rw [← h8, ← W9_of_ne m ρ c main_arg19 (by decide)]
  exact W9_main_arg19 m ρ c

theorem W7_arg20 (c : Dev nD) : W7 m ρ c (Proc.devRef .tc main_arg20) = m ((c : Thread nD τ).loc main_arg20) := by
  have h8 : W8 m ρ c (Proc.devRef .tc main_arg20) = W7 m ρ c (Proc.devRef .tc main_arg20) := by keeps
  rw [← h8, ← W9_of_ne m ρ c main_arg20 (by decide)]
  exact W9_main_arg20 m ρ c

section AtIdeal

/-! ## Region 1's converted and reshaped parameters, on the extended reals -/

/-- The narrowing conversion is the identity on the extended reals. -/
theorem host1_2_v27 (X : Valuation τ sig (Elt Ideal)) :
    (after hostOps1_2 X (Proc.devRef .tc main_v27) : S256x256.Idx → EReal) = X (Proc.devRef .tc main_arg14) := by
  after_results; rfl
theorem host1_2_v28 (X : Valuation τ sig (Elt Ideal)) :
    (after hostOps1_2 X (Proc.devRef .tc main_v28) : S256x256.Idx → EReal) = X (Proc.devRef .tc main_arg16) := by
  after_results; rfl
theorem host1_2_v29 (X : Valuation τ sig (Elt Ideal)) :
    (after hostOps1_2 X (Proc.devRef .tc main_v29) : S256x128.Idx → EReal) = X (Proc.devRef .tc main_arg18) := by
  after_results; rfl
theorem host1_2_v30 (X : Valuation τ sig (Elt Ideal)) :
    (after hostOps1_2 X (Proc.devRef .tc main_v30) : S128x128.Idx → EReal) = X (Proc.devRef .tc main_arg20) := by
  after_results; rfl

/-- A vector reshaped to one row reads, in that row, the vector. -/
theorem host1_2_v31 (X : Valuation τ sig (Elt Ideal)) (k : Fin 256) :
    (after hostOps1_2 X (Proc.devRef .tc main_v31) : S1x256.Idx → EReal) (ix2 (0 : Fin 1) k) = X (Proc.devRef .tc main_arg12) (ix1 k) := by
  after_results
  exact shapeCast_a_1a_apply _ _ 0 k
theorem host1_2_v32 (X : Valuation τ sig (Elt Ideal)) (k : Fin 256) :
    (after hostOps1_2 X (Proc.devRef .tc main_v32) : S1x256.Idx → EReal) (ix2 (0 : Fin 1) k) = X (Proc.devRef .tc main_arg13) (ix1 k) := by
  after_results
  exact shapeCast_a_1a_apply _ _ 0 k
theorem host1_2_v33 (X : Valuation τ sig (Elt Ideal)) (k : Fin 256) :
    (after hostOps1_2 X (Proc.devRef .tc main_v33) : S1x256.Idx → EReal) (ix2 (0 : Fin 1) k) = X (Proc.devRef .tc main_arg15) (ix1 k) := by
  after_results
  exact shapeCast_a_1a_apply _ _ 0 k
theorem host1_2_v34 (X : Valuation τ sig (Elt Ideal)) (k : Fin 256) :
    (after hostOps1_2 X (Proc.devRef .tc main_v34) : S1x256.Idx → EReal) (ix2 (0 : Fin 1) k) = X (Proc.devRef .tc main_arg17) (ix1 k) := by
  after_results
  exact shapeCast_a_1a_apply _ _ 0 k
theorem host1_2_v35 (X : Valuation τ sig (Elt Ideal)) (k : Fin 128) :
    (after hostOps1_2 X (Proc.devRef .tc main_v35) : S1x128.Idx → EReal) (ix2 (0 : Fin 1) k) = X (Proc.devRef .tc main_arg19) (ix1 k) := by
  after_results
  exact shapeCast_a_1a_apply _ _ 0 k

variable (m : (ℓ : Loc nD τ sig) → Buf (Elt Ideal) ℓ) (ρ : Dev nD → PrngReg)

theorem W8_v27 (c : Dev nD) :
    (W8 m ρ c (Proc.devRef .tc main_v27) : S256x256.Idx → EReal) = m ((c : Thread nD τ).loc main_arg14) :=
  (host1_2_v27 (W7 m ρ c)).trans (W7_arg14 m ρ c)

theorem W8_v28 (c : Dev nD) :
    (W8 m ρ c (Proc.devRef .tc main_v28) : S256x256.Idx → EReal) = m ((c : Thread nD τ).loc main_arg16) :=
  (host1_2_v28 (W7 m ρ c)).trans (W7_arg16 m ρ c)

theorem W8_v29 (c : Dev nD) :
    (W8 m ρ c (Proc.devRef .tc main_v29) : S256x128.Idx → EReal) = m ((c : Thread nD τ).loc main_arg18) :=
  (host1_2_v29 (W7 m ρ c)).trans (W7_arg18 m ρ c)

theorem W8_v30 (c : Dev nD) :
    (W8 m ρ c (Proc.devRef .tc main_v30) : S128x128.Idx → EReal) = m ((c : Thread nD τ).loc main_arg20) :=
  (host1_2_v30 (W7 m ρ c)).trans (W7_arg20 m ρ c)

theorem W8_v31 (c : Dev nD) (k : Fin 256) :
    (W8 m ρ c (Proc.devRef .tc main_v31) : S1x256.Idx → EReal) (ix2 (0 : Fin 1) k)
      = m ((c : Thread nD τ).loc main_arg12) (ix1 k) :=
  (host1_2_v31 (W7 m ρ c) k).trans (congrFun (W7_arg12 m ρ c) (ix1 k))

theorem W8_v32 (c : Dev nD) (k : Fin 256) :
    (W8 m ρ c (Proc.devRef .tc main_v32) : S1x256.Idx → EReal) (ix2 (0 : Fin 1) k)
      = m ((c : Thread nD τ).loc main_arg13) (ix1 k) :=
  (host1_2_v32 (W7 m ρ c) k).trans (congrFun (W7_arg13 m ρ c) (ix1 k))

theorem W8_v33 (c : Dev nD) (k : Fin 256) :
    (W8 m ρ c (Proc.devRef .tc main_v33) : S1x256.Idx → EReal) (ix2 (0 : Fin 1) k)
      = m ((c : Thread nD τ).loc main_arg15) (ix1 k) :=
  (host1_2_v33 (W7 m ρ c) k).trans (congrFun (W7_arg15 m ρ c) (ix1 k))

theorem W8_v34 (c : Dev nD) (k : Fin 256) :
    (W8 m ρ c (Proc.devRef .tc main_v34) : S1x256.Idx → EReal) (ix2 (0 : Fin 1) k)
      = m ((c : Thread nD τ).loc main_arg17) (ix1 k) :=
  (host1_2_v34 (W7 m ρ c) k).trans (congrFun (W7_arg17 m ρ c) (ix1 k))

theorem W8_v35 (c : Dev nD) (k : Fin 128) :
    (W8 m ρ c (Proc.devRef .tc main_v35) : S1x128.Idx → EReal) (ix2 (0 : Fin 1) k)
      = m ((c : Thread nD τ).loc main_arg19) (ix1 k) :=
  (host1_2_v35 (W7 m ρ c) k).trans (congrFun (W7_arg19 m ρ c) (ix1 k))

end AtIdeal

end Cert.KernelIdeal.HostValsB

end
-- ==== Proof.Glue.lean ====
/-
  The two programs' results are one function of the arguments.

  Entry `(r, j)` of the edge result is, on both sides, the edge update of row `r`: of the edge row, the two
  gathered node rows (under the index range the statement assumes the kernel's masked gather is the plain
  gather), and the weights (the kernel's bf16 copies and reshaped biases read entry by entry as the arguments).
  The two normalisations agree on every extended-real row.  The aggregated edges are the same host operations
  of equal edge results, and entry `(r, j)` of the node result is the node update of row `r` on both sides.
-/
import proofs.«417122_j62947040690377_3_alg».proof.Defs
import proofs.«417122_j62947040690377_3_alg».proof.Proof.Gen.Pre_finite_inputs
import proofs.«417122_j62947040690377_3_alg».proof.Proof.KernelRun
import proofs.«417122_j62947040690377_3_alg».proof.Proof.KerRegions
import proofs.«417122_j62947040690377_3_alg».proof.Proof.KerHost
import proofs.«417122_j62947040690377_3_alg».proof.Proof.KerHostB
import proofs.«417122_j62947040690377_3_alg».proof.Proof.PreIdx
import proofs.«417122_j62947040690377_3_alg».proof.Proof.RefRun
import proofs.«417122_j62947040690377_3_alg».proof.Proof.RefGlue
import proofs.«417122_j62947040690377_3_alg».proof.Proof.RowMath
import proofs.«417122_j62947040690377_3_alg».proof.Proof.Consts

noncomputable section

namespace Cert.Glue

open Idealize.ShloMosaic Idealize.ShloMosaic.ValueIdx Idealize.ShloMosaic.StableHlo Idealize.SL.Sem Cert.RowMath Cert.Consts

/-- The two launch memories agree on the arguments, on device `c`. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

/-- Two edge updates of rows that agree entry by entry, over one normalisation. -/
theorem edgeRow_ext {ln ln' : (Fin 384 → EReal) → (Fin 384 → EReal) → (Fin 384 → EReal) → Fin 384 → EReal} (hln : ln = ln')
    {e e' vr vr' vc vc' : Fin 128 → EReal} {g g' b b' : Fin 384 → EReal}
    {W0 W0' : Fin 384 → Fin 256 → EReal} {b0 b0' : Fin 256 → EReal} {W1 W1' : Fin 256 → Fin 256 → EReal} {b1 b1' : Fin 256 → EReal}
    {W2 W2' : Fin 256 → Fin 128 → EReal} {b2 b2' : Fin 128 → EReal} {L L' : Fin 128 → Fin 128 → EReal}
    (he : ∀ a, e a = e' a) (hvr : ∀ a, vr a = vr' a) (hvc : ∀ a, vc a = vc' a) (hg : ∀ k, g k = g' k) (hb : ∀ k, b k = b' k)
    (hW0 : ∀ k c, W0 k c = W0' k c) (hb0 : ∀ c, b0 c = b0' c) (hW1 : ∀ k c, W1 k c = W1' k c) (hb1 : ∀ c, b1 c = b1' c)
    (hW2 : ∀ k c, W2 k c = W2' k c) (hb2 : ∀ c, b2 c = b2' c) (hL : ∀ k c, L k c = L' k c) (j : Fin 128) :
    edgeRow ln e vr vc g b W0 b0 W1 b1 W2 b2 L j = edgeRow ln' e' vr' vc' g' b' W0' b0' W1' b1' W2' b2' L' j := by
  obtain rfl := hln
  obtain rfl : e = e' := funext he
  obtain rfl : vr = vr' := funext hvr
  obtain rfl : vc = vc' := funext hvc
  obtain rfl : g = g' := funext hg
  obtain rfl : b = b' := funext hb
  obtain rfl : W0 = W0' := funext fun k => funext (hW0 k)
  obtain rfl : b0 = b0' := funext hb0
  obtain rfl : W1 = W1' := funext fun k => funext (hW1 k)
  obtain rfl : b1 = b1' := funext hb1
  obtain rfl : W2 = W2' := funext fun k => funext (hW2 k)
  obtain rfl : b2 = b2' := funext hb2
  obtain rfl : L = L' := funext fun k => funext (hL k)
  rfl

/-- Two node updates of rows that agree entry by entry, over one normalisation. -/
theorem nodeRow_ext {ln ln' : (Fin 256 → EReal) → (Fin 256 → EReal) → (Fin 256 → EReal) → Fin 256 → EReal} (hln : ln = ln')
    {a a' v v' : Fin 128 → EReal} {g g' b b' : Fin 256 → EReal}
    {W0 W0' : Fin 256 → Fin 256 → EReal} {b0 b0' : Fin 256 → EReal} {W1 W1' : Fin 256 → Fin 256 → EReal} {b1 b1' : Fin 256 → EReal}
    {W2 W2' : Fin 256 → Fin 128 → EReal} {b2 b2' : Fin 128 → EReal} {L L' : Fin 128 → Fin 128 → EReal}
    (ha : ∀ k, a k = a' k) (hv : ∀ k, v k = v' k) (hg : ∀ k, g k = g' k) (hb : ∀ k, b k = b' k)
    (hW0 : ∀ k c, W0 k c = W0' k c) (hb0 : ∀ c, b0 c = b0' c) (hW1 : ∀ k c, W1 k c = W1' k c) (hb1 : ∀ c, b1 c = b1' c)
    (hW2 : ∀ k c, W2 k c = W2' k c) (hb2 : ∀ c, b2 c = b2' c) (hL : ∀ k c, L k c = L' k c) (j : Fin 128) :
    nodeRow ln a v g b W0 b0 W1 b1 W2 b2 L j = nodeRow ln' a' v' g' b' W0' b0' W1' b1' W2' b2' L' j := by
  obtain rfl := hln
  obtain rfl : a = a' := funext ha
  obtain rfl : v = v' := funext hv
  obtain rfl : g = g' := funext hg
  obtain rfl : b = b' := funext hb
  obtain rfl : W0 = W0' := funext fun k => funext (hW0 k)
  obtain rfl : b0 = b0' := funext hb0
  obtain rfl : W1 = W1' := funext fun k => funext (hW1 k)
  obtain rfl : b1 = b1' := funext hb1
  obtain rfl : W2 = W2' := funext fun k => funext (hW2 k)
  obtain rfl : b2 = b2' := funext hb2
  obtain rfl : L = L' := funext fun k => funext (hL k)
  rfl

/-- The reference's normalisation of a 384-wide row is the kernel's. -/
theorem ln384 : lnR (n := 384) N384 eps = lnK N384 eps :=
  funext fun x => funext fun g => funext fun b => (lnK_eq_lnR N384 eps N384_pos N384_ne_top eps_pos x g b).symm
/-- The reference's normalisation of a 256-wide row is the kernel's. -/
theorem ln256 : lnR (n := 256) N256 eps = lnK N256 eps :=
  funext fun x => funext fun g => funext fun b => (lnK_eq_lnR N256 eps N256_pos N256_ne_top eps_pos x g b).symm

/-- The two programs gather with the same operations. -/
theorem gatherRow_eq (v : FVec Ideal Cert.KernelIdeal.S50000x128 .f32) (ei : IVec Cert.KernelIdeal.S2x400000 32) :
    Cert.ReferenceIdeal.RefRun.gatherRow (F := Ideal) v ei = Cert.KernelIdeal.HostVals.gatherOnly (F := Ideal) v (Cert.KernelIdeal.HostVals.rowIdx ei) := rfl
theorem gatherCol_eq (v : FVec Ideal Cert.KernelIdeal.S50000x128 .f32) (ei : IVec Cert.KernelIdeal.S2x400000 32) :
    Cert.ReferenceIdeal.RefRun.gatherCol (F := Ideal) v ei = Cert.KernelIdeal.HostVals.gatherOnly (F := Ideal) v (Cert.KernelIdeal.HostVals.colIdx ei) := rfl
/-- The two programs aggregate with the same operations. -/
theorem aggr_eq (e : FVec Ideal Cert.KernelIdeal.S400000x128 .f32) (ei : IVec Cert.KernelIdeal.S2x400000 32) :
    Cert.ReferenceIdeal.RefRun.aggr (F := Ideal) e (Cert.ReferenceIdeal.RefRun.colIdx ei) = Cert.KernelIdeal.HostValsB.aggrK (F := Ideal) e (Cert.KernelIdeal.HostValsB.colIdxK ei) := rfl

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The edge results agree. -/
theorem enew_eq (hpre : Cert.Pre_KernelIdeal m) (c : Dev Cert.KernelIdeal.nD) (hagree : Agree m m' c) :
    after (Cert.ReferenceIdeal.RefRun.ops (F := Ideal)) (launchContents m' c) (Proc.devRef .tc Cert.ReferenceIdeal.main_v53)
      = Cert.KernelIdeal.Gen.W9 m ρ c (Proc.devRef .tc Cert.KernelIdeal.main_v15) := by
  obtain ⟨a0, a1, a2, a3, a4, a5, a6, a7, a8, a9, a10, a11, -⟩ := hagree
  have hr := Cert.PreIdx.idx_in_range m hpre c
  have h0 : launchContents m' c (Proc.devRef .tc Cert.ReferenceIdeal.main_arg0) = m ((c.tc : Thread Cert.KernelIdeal.nD Cert.KernelIdeal.τ).loc Cert.KernelIdeal.main_arg0) := a0
  have h2 : launchContents m' c (Proc.devRef .tc Cert.ReferenceIdeal.main_arg2) = m ((c.tc : Thread Cert.KernelIdeal.nD Cert.KernelIdeal.τ).loc Cert.KernelIdeal.main_arg2) := a2
  have e1 : launchContents m' c (Proc.devRef .tc Cert.ReferenceIdeal.main_arg1) = Cert.KernelIdeal.Gen.W4 m ρ c (Proc.devRef .tc Cert.KernelIdeal.main_arg1) := a1.trans (Cert.KernelIdeal.HostVals.W4_arg1 m ρ c).symm
  have egr : Cert.ReferenceIdeal.RefRun.gatherRow (F := Ideal) (launchContents m' c (Proc.devRef .tc Cert.ReferenceIdeal.main_arg0)) (launchContents m' c (Proc.devRef .tc Cert.ReferenceIdeal.main_arg2)) = Cert.KernelIdeal.Gen.W4 m ρ c (Proc.devRef .tc Cert.KernelIdeal.main_v4) := by
    rw [h0, h2, Cert.KernelIdeal.HostVals.W4_v4, Cert.KernelIdeal.HostVals.takeRow_eq _ _ hr]; exact gatherRow_eq _ _
  have egc : Cert.ReferenceIdeal.RefRun.gatherCol (F := Ideal) (launchContents m' c (Proc.devRef .tc Cert.ReferenceIdeal.main_arg0)) (launchContents m' c (Proc.devRef .tc Cert.ReferenceIdeal.main_arg2)) = Cert.KernelIdeal.Gen.W4 m ρ c (Proc.devRef .tc Cert.KernelIdeal.main_v5) := by
    rw [h0, h2, Cert.KernelIdeal.HostVals.W4_v5, Cert.KernelIdeal.HostVals.takeCol_eq _ _ hr]; exact gatherCol_eq _ _
  have e5 : launchContents m' c (Proc.devRef .tc Cert.ReferenceIdeal.main_arg5) = Cert.KernelIdeal.Gen.W4 m ρ c (Proc.devRef .tc Cert.KernelIdeal.main_v6) := Eq.trans a5 (Cert.KernelIdeal.HostVals.W4_v6 m ρ c).symm
  have e7 : launchContents m' c (Proc.devRef .tc Cert.ReferenceIdeal.main_arg7) = Cert.KernelIdeal.Gen.W4 m ρ c (Proc.devRef .tc Cert.KernelIdeal.main_v7) := Eq.trans a7 (Cert.KernelIdeal.HostVals.W4_v7 m ρ c).symm
  have e9 : launchContents m' c (Proc.devRef .tc Cert.ReferenceIdeal.main_arg9) = Cert.KernelIdeal.Gen.W4 m ρ c (Proc.devRef .tc Cert.KernelIdeal.main_v8) := Eq.trans a9 (Cert.KernelIdeal.HostVals.W4_v8 m ρ c).symm
  have e11 : launchContents m' c (Proc.devRef .tc Cert.ReferenceIdeal.main_arg11) = Cert.KernelIdeal.Gen.W4 m ρ c (Proc.devRef .tc Cert.KernelIdeal.main_v9) := Eq.trans a11 (Cert.KernelIdeal.HostVals.W4_v9 m ρ c).symm
  rw [Cert.KernelIdeal.HostValsB.W9_v15, Cert.KernelIdeal.HostValsB.W5_v15]
  refine funext fun (i : Cert.KernelIdeal.S400000x128.Idx) => ?_
  obtain ⟨r, j, rfl⟩ : ∃ (r : Fin 400000) (j : Fin 128), i = ix2 r j := ⟨i 0, i 1, eq_ix2 i⟩
  refine (Cert.ReferenceIdeal.RefGlue.ref_enew_apply (launchContents m' c) r j).trans (Eq.trans ?_ (Cert.KernelIdeal.Regions.final12 (Cert.KernelIdeal.Gen.V4 m ρ) c r j).symm)
  refine edgeRow_ext ln384 ?_ ?_ ?_ ?_ ?_ ?_ ?_ ?_ ?_ ?_ ?_ ?_ j
  · intro a; exact congrFun e1 (ix2 r a)
  · intro a; exact congrFun egr (ix2 r a)
  · intro a; exact congrFun egc (ix2 r a)
  · intro k; exact (congrFun a3 (ix1 k)).trans (Cert.KernelIdeal.HostVals.W4_v10 m ρ c k).symm
  · intro k; exact (congrFun a4 (ix1 k)).trans (Cert.KernelIdeal.HostVals.W4_v11 m ρ c k).symm
  · intro k c'; exact congrFun e5 (ix2 k c')
  · intro k; exact (congrFun a6 (ix1 k)).trans (Cert.KernelIdeal.HostVals.W4_v12 m ρ c k).symm
  · intro k c'; exact congrFun e7 (ix2 k c')
  · intro k; exact (congrFun a8 (ix1 k)).trans (Cert.KernelIdeal.HostVals.W4_v13 m ρ c k).symm
  · intro k c'; exact congrFun e9 (ix2 k c')
  · intro k; exact (congrFun a10 (ix1 k)).trans (Cert.KernelIdeal.HostVals.W4_v14 m ρ c k).symm
  · intro k c'; exact congrFun e11 (ix2 k c')

/-- The node results agree. -/
theorem vnew_eq (hpre : Cert.Pre_KernelIdeal m) (c : Dev Cert.KernelIdeal.nD) (hagree : Agree m m' c) :
    after (Cert.ReferenceIdeal.RefRun.ops (F := Ideal)) (launchContents m' c) (Proc.devRef .tc Cert.ReferenceIdeal.main_v100)
      = Cert.KernelIdeal.Gen.W9 m ρ c (Proc.devRef .tc Cert.KernelIdeal.main_v36) := by
  have he := enew_eq m ρ m' hpre c hagree
  obtain ⟨a0, -, a2, -, -, -, -, -, -, -, -, -, a12, a13, a14, a15, a16, a17, a18, a19, a20⟩ := hagree
  have h2 : launchContents m' c (Proc.devRef .tc Cert.ReferenceIdeal.main_arg2) = m ((c.tc : Thread Cert.KernelIdeal.nD Cert.KernelIdeal.τ).loc Cert.KernelIdeal.main_arg2) := a2
  have e0 : launchContents m' c (Proc.devRef .tc Cert.ReferenceIdeal.main_arg0) = Cert.KernelIdeal.Gen.W8 m ρ c (Proc.devRef .tc Cert.KernelIdeal.main_arg0) := Eq.trans a0 (Cert.KernelIdeal.HostValsB.W8_arg0 m ρ c).symm
  have eag : Cert.ReferenceIdeal.RefRun.aggr (F := Ideal) (after (Cert.ReferenceIdeal.RefRun.ops (F := Ideal)) (launchContents m' c) (Proc.devRef .tc Cert.ReferenceIdeal.main_v53)) (Cert.ReferenceIdeal.RefRun.colIdx (launchContents m' c (Proc.devRef .tc Cert.ReferenceIdeal.main_arg2))) = Cert.KernelIdeal.Gen.W8 m ρ c (Proc.devRef .tc Cert.KernelIdeal.main_v26) := by
    rw [Cert.KernelIdeal.HostValsB.W8_v26, Cert.KernelIdeal.HostValsB.W4_v3, ← Cert.KernelIdeal.HostValsB.W9_v15, ← he, h2]; exact aggr_eq _ _
  have e14 : launchContents m' c (Proc.devRef .tc Cert.ReferenceIdeal.main_arg14) = Cert.KernelIdeal.Gen.W8 m ρ c (Proc.devRef .tc Cert.KernelIdeal.main_v27) := Eq.trans a14 (Cert.KernelIdeal.HostValsB.W8_v27 m ρ c).symm
  have e16 : launchContents m' c (Proc.devRef .tc Cert.ReferenceIdeal.main_arg16) = Cert.KernelIdeal.Gen.W8 m ρ c (Proc.devRef .tc Cert.KernelIdeal.main_v28) := Eq.trans a16 (Cert.KernelIdeal.HostValsB.W8_v28 m ρ c).symm
  have e18 : launchContents m' c (Proc.devRef .tc Cert.ReferenceIdeal.main_arg18) = Cert.KernelIdeal.Gen.W8 m ρ c (Proc.devRef .tc Cert.KernelIdeal.main_v29) := Eq.trans a18 (Cert.KernelIdeal.HostValsB.W8_v29 m ρ c).symm
  have e20 : launchContents m' c (Proc.devRef .tc Cert.ReferenceIdeal.main_arg20) = Cert.KernelIdeal.Gen.W8 m ρ c (Proc.devRef .tc Cert.KernelIdeal.main_v30) := Eq.trans a20 (Cert.KernelIdeal.HostValsB.W8_v30 m ρ c).symm
  rw [Cert.KernelIdeal.HostValsB.W9_v36]
  refine funext fun (i : Cert.KernelIdeal.S50000x128.Idx) => ?_
  obtain ⟨r, j, rfl⟩ : ∃ (r : Fin 50000) (j : Fin 128), i = ix2 r j := ⟨i 0, i 1, eq_ix2 i⟩
  refine (Cert.ReferenceIdeal.RefGlue.ref_vnew_apply (launchContents m' c) r j).trans (Eq.trans ?_ (Cert.KernelIdeal.Regions.final11 (Cert.KernelIdeal.Gen.V8 m ρ) c r j).symm)
  refine nodeRow_ext ln256 ?_ ?_ ?_ ?_ ?_ ?_ ?_ ?_ ?_ ?_ ?_ j
  · intro a; exact congrFun eag (ix2 r a)
  · intro a; exact congrFun e0 (ix2 r a)
  · intro k; exact (congrFun a12 (ix1 k)).trans (Cert.KernelIdeal.HostValsB.W8_v31 m ρ c k).symm
  · intro k; exact (congrFun a13 (ix1 k)).trans (Cert.KernelIdeal.HostValsB.W8_v32 m ρ c k).symm
  · intro k c'; exact congrFun e14 (ix2 k c')
  · intro k; exact (congrFun a15 (ix1 k)).trans (Cert.KernelIdeal.HostValsB.W8_v33 m ρ c k).symm
  · intro k c'; exact congrFun e16 (ix2 k c')
  · intro k; exact (congrFun a17 (ix1 k)).trans (Cert.KernelIdeal.HostValsB.W8_v34 m ρ c k).symm
  · intro k c'; exact congrFun e18 (ix2 k c')
  · intro k; exact (congrFun a19 (ix1 k)).trans (Cert.KernelIdeal.HostValsB.W8_v35 m ρ c k).symm
  · intro k c'; exact congrFun e20 (ix2 k c')

end Cert.Glue

end
-- ==== Proof.lean ====
/-
  The certificate of the graph-network layer: the Pallas kernels (an edge update over 125 blocks of 3200 edge
  rows, a node update over 25 blocks of 2000 node rows, host gathers and a scatter-mean between them) against
  the whole-array jnp reference, over the extended reals.

  Each program runs, faults nowhere and leaves its arguments unchanged (the frames).  The idealization rewrote
  nothing.  The two results agree entry by entry: an edge row is updated from itself and its two gathered node
  rows by one row function on both sides — the kernel's blocks are restrictions of it —, where the kernel's
  product with the reciprocal square root is the reference's division by the square root because the variance
  plus the positive constant is positive on every extended-real row; the gathered rows agree under the added
  precondition that every edge index lies in [0, 50000) (outside it the reference clamps and the kernel's
  gather fills with NaN); the scatter-mean is the same host operations of equal edge results; and a node row
  is updated from the aggregated row and itself by one row function on both sides.
-/
import proofs.«417122_j62947040690377_3_alg».proof.Defs
import proofs.«417122_j62947040690377_3_alg».proof.Proof.Gen.Kernel
import proofs.«417122_j62947040690377_3_alg».proof.Proof.Gen.Kernel.Frame
import proofs.«417122_j62947040690377_3_alg».proof.Proof.Gen.KernelIdeal
import proofs.«417122_j62947040690377_3_alg».proof.Proof.Gen.KernelIdeal.Frame
import proofs.«417122_j62947040690377_3_alg».proof.Proof.Gen.ReferenceIdeal
import proofs.«417122_j62947040690377_3_alg».proof.Proof.Gen.Pre_finite_inputs
import proofs.«417122_j62947040690377_3_alg».proof.Proof.KernelRun
import proofs.«417122_j62947040690377_3_alg».proof.Proof.RefRun
import proofs.«417122_j62947040690377_3_alg».proof.Proof.RefGlue
import proofs.«417122_j62947040690377_3_alg».proof.Proof.Glue
import Idealize.ShloMosaic.Adequacy
import Idealize.ShloMosaic.Init

noncomputable section

namespace Cert.Proof

open Idealize.ShloMosaic Idealize.SL.Sem Idealize.ShloMosaic.StableHlo

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: no operation of its straight line writes one. -/
theorem frame_ri : Cert.frame_ReferenceIdeal := fun m ρ _ =>
  (θ_run (Cert.ReferenceIdeal.defs (F := Ideal)) _ _).mono (fun _ h c =>
    ⟨(h c Cert.ReferenceIdeal.main_arg0).trans (Cert.ReferenceIdeal.RefGlue.ops_arg0 (launchContents m c)),
      (h c Cert.ReferenceIdeal.main_arg1).trans (Cert.ReferenceIdeal.RefGlue.ops_arg1 (launchContents m c)),
      (h c Cert.ReferenceIdeal.main_arg2).trans (Cert.ReferenceIdeal.RefGlue.ops_arg2 (launchContents m c)),
      (h c Cert.ReferenceIdeal.main_arg3).trans (Cert.ReferenceIdeal.RefGlue.ops_arg3 (launchContents m c)),
      (h c Cert.ReferenceIdeal.main_arg4).trans (Cert.ReferenceIdeal.RefGlue.ops_arg4 (launchContents m c)),
      (h c Cert.ReferenceIdeal.main_arg5).trans (Cert.ReferenceIdeal.RefGlue.ops_arg5 (launchContents m c)),
      (h c Cert.ReferenceIdeal.main_arg6).trans (Cert.ReferenceIdeal.RefGlue.ops_arg6 (launchContents m c)),
      (h c Cert.ReferenceIdeal.main_arg7).trans (Cert.ReferenceIdeal.RefGlue.ops_arg7 (launchContents m c)),
      (h c Cert.ReferenceIdeal.main_arg8).trans (Cert.ReferenceIdeal.RefGlue.ops_arg8 (launchContents m c)),
      (h c Cert.ReferenceIdeal.main_arg9).trans (Cert.ReferenceIdeal.RefGlue.ops_arg9 (launchContents m c)),
      (h c Cert.ReferenceIdeal.main_arg10).trans (Cert.ReferenceIdeal.RefGlue.ops_arg10 (launchContents m c)),
      (h c Cert.ReferenceIdeal.main_arg11).trans (Cert.ReferenceIdeal.RefGlue.ops_arg11 (launchContents m c)),
      (h c Cert.ReferenceIdeal.main_arg12).trans (Cert.ReferenceIdeal.RefGlue.ops_arg12 (launchContents m c)),
      (h c Cert.ReferenceIdeal.main_arg13).trans (Cert.ReferenceIdeal.RefGlue.ops_arg13 (launchContents m c)),
      (h c Cert.ReferenceIdeal.main_arg14).trans (Cert.ReferenceIdeal.RefGlue.ops_arg14 (launchContents m c)),
      (h c Cert.ReferenceIdeal.main_arg15).trans (Cert.ReferenceIdeal.RefGlue.ops_arg15 (launchContents m c)),
      (h c Cert.ReferenceIdeal.main_arg16).trans (Cert.ReferenceIdeal.RefGlue.ops_arg16 (launchContents m c)),
      (h c Cert.ReferenceIdeal.main_arg17).trans (Cert.ReferenceIdeal.RefGlue.ops_arg17 (launchContents m c)),
      (h c Cert.ReferenceIdeal.main_arg18).trans (Cert.ReferenceIdeal.RefGlue.ops_arg18 (launchContents m c)),
      (h c Cert.ReferenceIdeal.main_arg19).trans (Cert.ReferenceIdeal.RefGlue.ops_arg19 (launchContents m c)),
      (h c Cert.ReferenceIdeal.main_arg20).trans (Cert.ReferenceIdeal.RefGlue.ops_arg20 (launchContents m c))⟩)
    (Cert.ReferenceIdeal.RefRun.run_main (F := Ideal) m ρ)

/-- The two programs end with equal results, from memories that agree on the arguments. -/
theorem algebraic : Cert.algebraic_KernelIdeal_ReferenceIdeal := fun m ρ m' ρ' hpre hagree =>
  ⟨fun c => Cert.KernelIdeal.Gen.W9 m ρ c (Proc.devRef .tc Cert.KernelIdeal.main_v36), fun c => Cert.KernelIdeal.Gen.W9 m ρ c (Proc.devRef .tc Cert.KernelIdeal.main_v15),
    Cert.KernelIdeal.KRun.run (F := Ideal) m ρ,
    (θ_run (Cert.ReferenceIdeal.defs (F := Ideal)) _ _).mono (fun _ h c =>
      ⟨(h c Cert.ReferenceIdeal.main_v100).trans (Cert.Glue.vnew_eq m ρ m' hpre c (hagree c)),
      (h c Cert.ReferenceIdeal.main_v53).trans (Cert.Glue.enew_eq m ρ m' hpre c (hagree c)),
      (h c Cert.ReferenceIdeal.main_arg0).trans (Cert.ReferenceIdeal.RefGlue.ops_arg0 (launchContents m' c)),
      (h c Cert.ReferenceIdeal.main_arg1).trans (Cert.ReferenceIdeal.RefGlue.ops_arg1 (launchContents m' c)),
      (h c Cert.ReferenceIdeal.main_arg2).trans (Cert.ReferenceIdeal.RefGlue.ops_arg2 (launchContents m' c)),
      (h c Cert.ReferenceIdeal.main_arg3).trans (Cert.ReferenceIdeal.RefGlue.ops_arg3 (launchContents m' c)),
      (h c Cert.ReferenceIdeal.main_arg4).trans (Cert.ReferenceIdeal.RefGlue.ops_arg4 (launchContents m' c)),
      (h c Cert.ReferenceIdeal.main_arg5).trans (Cert.ReferenceIdeal.RefGlue.ops_arg5 (launchContents m' c)),
      (h c Cert.ReferenceIdeal.main_arg6).trans (Cert.ReferenceIdeal.RefGlue.ops_arg6 (launchContents m' c)),
      (h c Cert.ReferenceIdeal.main_arg7).trans (Cert.ReferenceIdeal.RefGlue.ops_arg7 (launchContents m' c)),
      (h c Cert.ReferenceIdeal.main_arg8).trans (Cert.ReferenceIdeal.RefGlue.ops_arg8 (launchContents m' c)),
      (h c Cert.ReferenceIdeal.main_arg9).trans (Cert.ReferenceIdeal.RefGlue.ops_arg9 (launchContents m' c)),
      (h c Cert.ReferenceIdeal.main_arg10).trans (Cert.ReferenceIdeal.RefGlue.ops_arg10 (launchContents m' c)),
      (h c Cert.ReferenceIdeal.main_arg11).trans (Cert.ReferenceIdeal.RefGlue.ops_arg11 (launchContents m' c)),
      (h c Cert.ReferenceIdeal.main_arg12).trans (Cert.ReferenceIdeal.RefGlue.ops_arg12 (launchContents m' c)),
      (h c Cert.ReferenceIdeal.main_arg13).trans (Cert.ReferenceIdeal.RefGlue.ops_arg13 (launchContents m' c)),
      (h c Cert.ReferenceIdeal.main_arg14).trans (Cert.ReferenceIdeal.RefGlue.ops_arg14 (launchContents m' c)),
      (h c Cert.ReferenceIdeal.main_arg15).trans (Cert.ReferenceIdeal.RefGlue.ops_arg15 (launchContents m' c)),
      (h c Cert.ReferenceIdeal.main_arg16).trans (Cert.ReferenceIdeal.RefGlue.ops_arg16 (launchContents m' c)),
      (h c Cert.ReferenceIdeal.main_arg17).trans (Cert.ReferenceIdeal.RefGlue.ops_arg17 (launchContents m' c)),
      (h c Cert.ReferenceIdeal.main_arg18).trans (Cert.ReferenceIdeal.RefGlue.ops_arg18 (launchContents m' c)),
      (h c Cert.ReferenceIdeal.main_arg19).trans (Cert.ReferenceIdeal.RefGlue.ops_arg19 (launchContents m' c)),
      (h c Cert.ReferenceIdeal.main_arg20).trans (Cert.ReferenceIdeal.RefGlue.ops_arg20 (launchContents m' c))⟩)
      (Cert.ReferenceIdeal.RefRun.run_main (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
